-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S_ : Shape := ⟨0, ![]⟩
abbrev S512x8192 : Shape := ⟨2, ![512, 8192]⟩
abbrev S8192x8192 : Shape := ⟨2, ![8192, 8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []

variable [Facts]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def fn_part1 {F : FTy → Type} [FloatOps F] (main_v13 : IVec S_ 1) (main_v17 : FVec F S8192x8192 .f32) : IVec S_ 1 :=
  let main_cst_4 : FVec F S_ .f32 := constant S_ .f32 0x00000000#32
  let main_v18 : FVec F S8192x8192 .f32 := broadcastInDim S8192x8192 ![] bcast_S_S8192x8192 main_cst_4
  let main_v19 : FVec F S8192x8192 .f32 := maximumf main_v17 main_v18
  let main_v20 : FVec F S8192x8192 .f32 := mulf main_v19 main_v19
  let main_cst_5 : FVec F S_ .f32 := constant S_ .f32 0x00000000#32
  let main_v21 : FVec F S_ .f32 := (fun x v => Host.reduceAdd x v reducesTo_S8192x8192_S_d0_1 h_S_) main_v20 main_cst_5
  let main_cst_6 : FVec F S_ .f32 := constant S_ .f32 0x00000000#32
  let main_v22 : IVec S_ 1 := cmpf .ogt main_v21 main_cst_6
  let main_v23 : IVec S_ 1 := andi main_v13 main_v22
  main_v23

def fn {F : FTy → Type} [FloatOps F] (main_arg0 : FVec F S8192x512 .f32) (main_arg1 : FVec F S8192x512 .f32) (main_arg2 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S8192x512 .f32 := (fun l r => Host.dotGeneral dot_S8192x512_S512x512_S8192x512_1_0_0_1_n_n none l r) main_arg0 main_arg2
  let main_v15 : FVec F S8192x512 .f32 := (fun l r => Host.dotGeneral dot_S8192x512_S512x512_S8192x512_1_0_0_1_n_n none l r) main_arg1 main_arg2
  let main_v16 : FVec F S512x8192 .f32 := (transpose S512x8192 [1, 0] · transposes_S8192x512_S512x8192_1_0) main_v15
  let main_v17 : FVec F S8192x8192 .f32 := (fun l r => Host.dotGeneral dot_S8192x512_S512x8192_S8192x8192_1_0_0_1_n_n none l r) main_v14 main_v16
  fn_part1 (F := F) main_v13 main_v17
-- ==== Kernel.lean ====
abbrev S8192x512 : Shape := ⟨2, ![8192, 512]⟩
abbrev S512x512 : Shape := ⟨2, ![512, 512]⟩
abbrev S1024x512 : Shape := ⟨2, ![1024, 512]⟩
abbrev S1x1 : Shape := ⟨2, ![1, 1]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 11
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S8192x512, .f32⟩
  | .hbm, ⟨10, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S512x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1x1, .f32⟩
  | .local _ .vmem, ⟨19, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def k2_cond3 (i : grid2.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_21 : BitVec 32 := 0#32
  let v36 : BitVec 1 := Scalar.cmpi .ne v35 c0_i32_21
  v36

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1x1_S1x1_0_0 : ∀ a, (![0, 0] : Fin 2 → Nat) a + S1x1.size a ≤ S1x1.size a
  h_S1x1 : 0 < S1x1.numel
  transposes_S1024x512_p1_0_S512x1024 : S1024x512.Transposes [1, 0] S512x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  bcast_S_S8192x512 : S_.BroadcastsInDim S8192x512 (![] : Fin 0 → Fin S8192x512.rank)
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .bf16 = 32 ∨ (Rect.block (s := S8192x512) S1024x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .bf16 = 32 ∨ (Rect.block (s := S8192x512) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x512.size a
  hwx2_2 : ∀ i : grid2.Coords, EltTy.bits .f32 = 32 ∨ (Rect.block (s := S8192x512) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .f32 = 32 ∨ (Rect.block (s := S8192x512) S1024x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S1024x512.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond3 i == 1#1) | 4 => fun _ => false | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S512x512 : Shape := ⟨2, ![512, 512]⟩
abbrev S512x8192 : Shape := ⟨2, ![512, 8192]⟩
abbrev S8192x8192 : Shape := ⟨2, ![8192, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S8192x512, .f32⟩
  | .hbm, ⟨4, _⟩ => ⟨S8192x512, .f32⟩
  | .hbm, ⟨5, _⟩ => ⟨S512x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.K.Lin0.lean ====
/-
  Region 0 of the program: the linear map of one 1024-row block.  At a grid point the body reads the point's
  1024 × 512 block of the feature matrix and the whole 512 × 512 weight matrix, multiplies them (both narrowed
  to the 16-bit format first, the product narrowed again) and stores the product as the point's block of the
  output.  Stated here at any contents `V` of the core's buffers when the region is entered: each window's block
  at a point, what the body leaves in each window's buffer, and that the body, run on those buffers, leaves them so.
-/
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: the arrays as the region finds them; after the body at point `t`
    the two inputs' buffers at their blocks and the output's at the narrowed product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

end Cert.Kernel.Hand

end
-- ==== Proof.K.Lin1.lean ====
/-
  Region 1 of the program: the linear map of one 1024-row block.  At a grid point the body reads the point's
  1024 × 512 block of the feature matrix and the whole 512 × 512 weight matrix, multiplies them (both narrowed
  to the 16-bit format first, the product narrowed again) and stores the product as the point's block of the
  output.  Stated here at any contents `V` of the core's buffers when the region is entered: each window's block
  at a point, what the body leaves in each window's buffer, and that the body, run on those buffers, leaves them so.
-/
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`: the arrays as the region finds them; after the body at point `t`
    the two inputs' buffers at their blocks and the output's at the narrowed product of the two blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 0 t) (iblk1 V c 1 t) := by dsimp only [dat1]

end Cert.Kernel.Hand

end
-- ==== Proof.K.FusedData.lean ====
/-
  Region 2 of the program, its data.  The grid is 8 × 8; point n has row-block i = n / 8 and column-block j = n % 8.
  At a point the body reads the i-th 1024-row block of the first projection, the j-th blocks of the second
  projection and of the second feature matrix, forms the rectified 1024 × 1024 interaction tile, adds the tile's
  sum of squares to a one-entry running total, and adds the tile times the feature block to a 1024 × 512
  accumulator it keeps in a scratch buffer.  The accumulator is cleared when j = 0, the running total when
  n = 0, and when j = 7 the accumulator is copied to the output block.
  `carried2 n` is the pair (accumulator, running total) after the body at point n, by recursion on n.
-/
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch buffer the accumulator lives in. -/
abbrev accM : Memref sig .tc .vmem S1024x512 .f32 := Memref.whole cc2_scratch0

/-- One step: from the accumulator and the running total the point starts from, what the body leaves. -/
def step2 (hi hj : Vec F S1024x512 .bf16) (fs : Vec F S1024x512 .f32) (acc0 : Vec F S1024x512 .f32) (tot0 : Vec F S1x1 .f32) :
    Vec F S1024x512 .f32 × Vec F S1x1 .f32 :=
  (k2_pay1 (k2_pay6 hi hj acc0 fs), k2_pay5 hi hj tot0)

/-- The accumulator and the running total after the body at point `n`: the accumulator restarts from zero at
    the points with j = 0, the total at the first point only. -/
def carried2 (c : Dev nD) : (n : ℕ) → n < cfg2.N → Vec F S1024x512 .f32 × Vec F S1x1 .f32
  | 0, hn => step2 (iblk2 V c 0 ⟨0, hn⟩) (iblk2 V c 1 ⟨0, hn⟩) (iblk2 V c 2 ⟨0, hn⟩) (k2_pay2 (F := F)) (k2_pay3 (F := F))
  | n + 1, hn =>
    step2 (iblk2 V c 0 ⟨n + 1, hn⟩) (iblk2 V c 1 ⟨n + 1, hn⟩) (iblk2 V c 2 ⟨n + 1, hn⟩)
      (if (n + 1) % 8 = 0 then k2_pay2 (F := F) else (carried2 c n (Nat.lt_of_succ_lt hn)).1)
      (carried2 c n (Nat.lt_of_succ_lt hn)).2

theorem carried2_zero (c : Dev nD) (hn : 0 < cfg2.N) :
    carried2 V c 0 hn = step2 (iblk2 V c 0 ⟨0, hn⟩) (iblk2 V c 1 ⟨0, hn⟩) (iblk2 V c 2 ⟨0, hn⟩) (k2_pay2 (F := F)) (k2_pay3 (F := F)) := rfl

theorem carried2_succ (c : Dev nD) (n : ℕ) (hn : n + 1 < cfg2.N) :
    carried2 V c (n + 1) hn = step2 (iblk2 V c 0 ⟨n + 1, hn⟩) (iblk2 V c 1 ⟨n + 1, hn⟩) (iblk2 V c 2 ⟨n + 1, hn⟩)
      (if (n + 1) % 8 = 0 then k2_pay2 (F := F) else (carried2 V c n (Nat.lt_of_succ_lt hn)).1)
      (carried2 V c n (Nat.lt_of_succ_lt hn)).2 := rfl

/-- The scoped buffers of the core that region 2 neither stages through nor uses as scratch, each at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's invariant before position `n`: before the first point every scoped buffer that is no staging
    buffer at some contents and the generator register at some state; afterwards the same with the accumulator's
    buffer at what the point before left in it. -/
def PhiS2 (c : Dev nD) : (n : ℕ) → n ≤ cfg2.N → sProp 𝕄
  | 0, _ => Pipeline.ΦA spec2 c
  | n + 1, hn => iprop(others2 (F := F) c ∗ owns (c : Thread nD τ) accM fullShare (carried2 V c n hn).1 ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(others2 (F := F) c ∗ owns (c : Thread nD τ) accM fullShare (carried2 V c n hn).1 ∗ (∃ r, prngReg c r)) := rfl

theorem PhiS2_pos (c : Dev nD) (n : ℕ) (h : n ≤ cfg2.N) (hz : n ≠ 0) :
    PhiS2 V c n h = iprop(others2 (F := F) c ∗ owns (c : Thread nD τ) accM fullShare (carried2 V c (n - 1) (by omega)).1 ∗ (∃ r, prngReg c r)) := by
  cases n with
  | zero => exact absurd rfl hz
  | succ n => rfl

/-- The proof data of region 2 on core `c`: the arrays as the region finds them; after the body at point `t` each
    input's buffer at its block, the output block's buffer at the accumulator and the one-entry output's at the
    running total; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (carried2 V c t.val t.isLt).1
    | ⟨4, _⟩ => (carried2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (carried2 V c t.val t.isLt).1 := by dsimp only [dat2]
theorem after2_4 (c : Dev nD) (t : Fin cfg2.N) : (dat2 V c).after 4 t = (carried2 V c t.val t.isLt).2 := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

end Cert.Kernel.Hand

end
-- ==== Proof.K.Fold.lean ====
/-
  What the core's buffers hold between the items of the program, from the launch to the end.  Each of the three
  regions changes only its own arrays, leaving in them what its write-backs leave; the closing host operations
  change only the buffers they write.  So the contents at each boundary are a fold from the launch memory.
-/
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import proofs.«173617_j58308476010683_1_alg».proof.Proof.K.Lin0
import proofs.«173617_j58308476010683_1_alg».proof.Proof.K.Lin1
import proofs.«173617_j58308476010683_1_alg».proof.Proof.K.FusedData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A boundary's contents read at the core's own references. -/
abbrev tcAt (W : Dev nD → Valuation τ sig (Elt F)) : (c : Dev nD) → (b : Ref sig .tc) → Buf (Elt F) ((c : Thread nD τ).loc b) :=
  fun c b => W c b

/-- The core's buffers at launch. -/
abbrev atLaunch : Dev nD → Valuation τ sig (Elt F) := fun c b => m (c, b)

/-- After region 0: its arrays at what its write-backs leave, every other buffer as at launch. -/
def afterLin0 (c : Dev nD) : Valuation τ sig (Elt F) :=
  Pipeline.withArrays spec0 c (atLaunch m c) fun w => (dat0 (tcAt (atLaunch m)) c).arrAt w cfg0.N
theorem afterLin0_arr (c : Dev nD) (w : Fin cfg0.W) :
    afterLin0 m c (Proc.devRef .tc (Pipeline.arrRef spec0 w)) = (dat0 (tcAt (atLaunch m)) c).arrAt w cfg0.N := by
  unfold afterLin0; exact Pipeline.withArrays_arr spec0 launch0.win.arr_inj c _ _ w
theorem afterLin0_of_ne (c : Dev nD) (b : Ref sig .tc) (hb : ∀ w, Pipeline.arrRef spec0 w ≠ b) :
    afterLin0 m c (Proc.devRef .tc b) = atLaunch m c (Proc.devRef .tc b) := by
  unfold afterLin0; exact Pipeline.withArrays_of_ne spec0 c _ _ b hb
theorem exitArr0 (c : Dev nD) (w : Fin cfg0.W) :
    (dat0 (tcAt (atLaunch m)) c).arrAt w cfg0.N = tcAt (afterLin0 m) c (Pipeline.arrRef spec0 w) := (afterLin0_arr m c w).symm
theorem exitRest0 (c : Dev nD) : ∀ b, b ∉ Finset.univ.image (Pipeline.arrRef spec0) → tcAt (afterLin0 m) c b = tcAt (atLaunch m) c b :=
  fun b hb => afterLin0_of_ne m c b fun w e => hb (Finset.mem_image.mpr ⟨w, Finset.mem_univ _, e⟩)

/-- After region 1. -/
def afterLin1 (c : Dev nD) : Valuation τ sig (Elt F) :=
  Pipeline.withArrays spec1 c (afterLin0 m c) fun w => (dat1 (tcAt (afterLin0 m)) c).arrAt w cfg1.N
theorem afterLin1_arr (c : Dev nD) (w : Fin cfg1.W) :
    afterLin1 m c (Proc.devRef .tc (Pipeline.arrRef spec1 w)) = (dat1 (tcAt (afterLin0 m)) c).arrAt w cfg1.N := by
  unfold afterLin1; exact Pipeline.withArrays_arr spec1 launch1.win.arr_inj c _ _ w
theorem afterLin1_of_ne (c : Dev nD) (b : Ref sig .tc) (hb : ∀ w, Pipeline.arrRef spec1 w ≠ b) :
    afterLin1 m c (Proc.devRef .tc b) = afterLin0 m c (Proc.devRef .tc b) := by
  unfold afterLin1; exact Pipeline.withArrays_of_ne spec1 c _ _ b hb
theorem exitArr1 (c : Dev nD) (w : Fin cfg1.W) :
    (dat1 (tcAt (afterLin0 m)) c).arrAt w cfg1.N = tcAt (afterLin1 m) c (Pipeline.arrRef spec1 w) := (afterLin1_arr m c w).symm
theorem exitRest1 (c : Dev nD) : ∀ b, b ∉ Finset.univ.image (Pipeline.arrRef spec1) → tcAt (afterLin1 m) c b = tcAt (afterLin0 m) c b :=
  fun b hb => afterLin1_of_ne m c b fun w e => hb (Finset.mem_image.mpr ⟨w, Finset.mem_univ _, e⟩)

/-- After region 2. -/
def afterFused (c : Dev nD) : Valuation τ sig (Elt F) :=
  Pipeline.withArrays spec2 c (afterLin1 m c) fun w => (dat2 (tcAt (afterLin1 m)) c).arrAt w cfg2.N
theorem afterFused_arr (c : Dev nD) (w : Fin cfg2.W) :
    afterFused m c (Proc.devRef .tc (Pipeline.arrRef spec2 w)) = (dat2 (tcAt (afterLin1 m)) c).arrAt w cfg2.N := by
  unfold afterFused; exact Pipeline.withArrays_arr spec2 launch2.win.arr_inj c _ _ w
theorem afterFused_of_ne (c : Dev nD) (b : Ref sig .tc) (hb : ∀ w, Pipeline.arrRef spec2 w ≠ b) :
    afterFused m c (Proc.devRef .tc b) = afterLin1 m c (Proc.devRef .tc b) := by
  unfold afterFused; exact Pipeline.withArrays_of_ne spec2 c _ _ b hb
theorem exitArr2 (c : Dev nD) (w : Fin cfg2.W) :
    (dat2 (tcAt (afterLin1 m)) c).arrAt w cfg2.N = tcAt (afterFused m) c (Pipeline.arrRef spec2 w) := (afterFused_arr m c w).symm
theorem exitRest2 (c : Dev nD) : ∀ b, b ∉ Finset.univ.image (Pipeline.arrRef spec2) → tcAt (afterFused m) c b = tcAt (afterLin1 m) c b :=
  fun b hb => afterFused_of_ne m c b fun w e => hb (Finset.mem_image.mpr ⟨w, Finset.mem_univ _, e⟩)

/-- After the closing host operations: the end of the program. -/
abbrev atEnd : Dev nD → Valuation τ sig (Elt F) := fun c => StableHlo.after hostOps3 (afterFused m c)

end Cert.Kernel.Hand

end
-- ==== Proof.K.Lin0Body.lean ====
/-
  Region 0 of the program, the body's obligation: at every grid point the two inputs' buffers hold their blocks
  (the feature block fetched afresh, the weight matrix fetched once and kept), and the body, run on those buffers,
  leaves the inputs as they were and the output's buffer at the narrowed product of the narrowed inputs.
-/
import proofs.«173617_j58308476010683_1_alg».proof.Proof.K.Lin0
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two input buffers hold when the body is called -/

/-- The feature block's buffer holds the point's block of the feature matrix: it is fetched afresh at every point. -/
theorem before0_0 (c : Dev nD) (t : Fin cfg0.N) (d) : (dat0 V c).before 0 t d = iblk0 V c 0 t := by
  have hkeep : ∀ t', (cfg0.win 0).cut (cfg0.grid.coords t') ((dat0 V c).after 0 t') = (dat0 V c).blockOf 0 t' := by
    intro t'
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The weight's buffer holds the whole weight matrix at every point: it is fetched at the first point only, and
    at the later ones its block index has not moved, so the buffer still holds what was fetched then. -/
theorem before0_1 (c : Dev nD) (t : Fin cfg0.N) (d) : (dat0 V c).before 1 t d = iblk0 V c 1 t := by
  have hkeep : ∀ t', (cfg0.win 1).cut (cfg0.grid.coords t') ((dat0 V c).after 1 t') = (dat0 V c).blockOf 1 t' := by
    intro t'
    rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The body on whole buffers -/

/-- The offsets of every access of the body, all zero. -/
theorem offsets_zero0 : (![0, 0] : Fin 2 → Nat) = fun _ => 0 := funext fun a => by fin_cases a <;> rfl

/-- The product's store is through the whole rectangle of its buffer, so it alone covers the buffer. -/
theorem store_covers0 (p : Vec F S1024x512 .bf16) (y : S1024x512.Idx) :
    ∃ pc ∈ ([⟨Rect.unit (s := S1024x512) ![0, 0] S1024x512.size inb_S1024x512_S1024x512_0_0, p⟩] :
        List (View.Piece (Elt F) S1024x512 .bf16)), y ∈ pc.1.set :=
  ⟨_, List.mem_singleton_self _, View.mem_set_unit_zero offsets_zero0 inb_S1024x512_S1024x512_0_0 y⟩

set_option maxHeartbeats 1000000 in
/-- The body on three whole buffers, the feature block's reading `x0`, the weight's reading `x1`, the product's
    holding anything: it reads both inputs whole, and overwrites the product's buffer whole with the narrowed
    product of the narrowed inputs; the inputs' buffers are left as they were. -/
theorem sound_kernel0 (c : Dev nD) (E : Set ℕ) (i : grid0.Coords)
    (arg1 : Memref sig .tc .vmem S1024x512 .f32) (harg1 : arg1.IsWhole)
    (arg2 : Memref sig .tc .vmem S512x512 .f32) (harg2 : arg2.IsWhole)
    (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__lin_kernel i arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  -- the one store covers the whole buffer, so the buffer reads as its payload; each load read its whole buffer
  rw [View.read_writes_eq_canon _ _ _ (store_covers0 _), View.canon_unit_zero offsets_zero0]
  simp only [View.readAt_eq_ld, View.ld_unit_zero (S := S1024x512) offsets_zero0,
    View.ld_unit_zero (S := S512x512) offsets_zero0]

/-! ## The body at a grid point -/

/-- What the body is handed at point `t`: the region's invariant, the core's debts, and the current buffer of each
    of the three windows at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, and each buffer at what `dat0` says the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two inputs' buffers hold their blocks, so the body's triple on whole buffers applies at those
    blocks; the invariant and the debts are not touched by the body and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body, at every point, takes the buffers from what they hold before it to what `dat0` says they hold after it. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.K.Lin1Body.lean ====
/-
  Region 1 of the program, the body's obligation: at every grid point the two inputs' buffers hold their blocks
  (the feature block fetched afresh, the weight matrix fetched once and kept), and the body, run on those buffers,
  leaves the inputs as they were and the output's buffer at the narrowed product of the narrowed inputs.
-/
import proofs.«173617_j58308476010683_1_alg».proof.Proof.K.Lin1
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two input buffers hold when the body is called -/

/-- The feature block's buffer holds the point's block of the feature matrix: it is fetched afresh at every point. -/
theorem before1_0 (c : Dev nD) (t : Fin cfg1.N) (d) : (dat1 V c).before 0 t d = iblk1 V c 0 t := by
  have hkeep : ∀ t', (cfg1.win 0).cut (cfg1.grid.coords t') ((dat1 V c).after 0 t') = (dat1 V c).blockOf 0 t' := by
    intro t'
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The weight's buffer holds the whole weight matrix at every point: it is fetched at the first point only, and
    at the later ones its block index has not moved, so the buffer still holds what was fetched then. -/
theorem before1_1 (c : Dev nD) (t : Fin cfg1.N) (d) : (dat1 V c).before 1 t d = iblk1 V c 1 t := by
  have hkeep : ∀ t', (cfg1.win 1).cut (cfg1.grid.coords t') ((dat1 V c).after 1 t') = (dat1 V c).blockOf 1 t' := by
    intro t'
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-! ## The body on whole buffers -/

/-- The offsets of every access of the body, all zero. -/
theorem offsets_zero1 : (![0, 0] : Fin 2 → Nat) = fun _ => 0 := funext fun a => by fin_cases a <;> rfl

/-- The product's store is through the whole rectangle of its buffer, so it alone covers the buffer. -/
theorem store_covers1 (p : Vec F S1024x512 .bf16) (y : S1024x512.Idx) :
    ∃ pc ∈ ([⟨Rect.unit (s := S1024x512) ![0, 0] S1024x512.size inb_S1024x512_S1024x512_0_0, p⟩] :
        List (View.Piece (Elt F) S1024x512 .bf16)), y ∈ pc.1.set :=
  ⟨_, List.mem_singleton_self _, View.mem_set_unit_zero offsets_zero1 inb_S1024x512_S1024x512_0_0 y⟩

set_option maxHeartbeats 1000000 in
/-- The body on three whole buffers, the feature block's reading `x0`, the weight's reading `x1`, the product's
    holding anything: it reads both inputs whole, and overwrites the product's buffer whole with the narrowed
    product of the narrowed inputs; the inputs' buffers are left as they were. -/
theorem sound_kernel1 (c : Dev nD) (E : Set ℕ) (i : grid1.Coords)
    (arg1 : Memref sig .tc .vmem S1024x512 .f32) (harg1 : arg1.IsWhole)
    (arg2 : Memref sig .tc .vmem S512x512 .f32) (harg2 : arg2.IsWhole)
    (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__lin_kernel i arg1 harg1 arg2 harg2 arg3 harg3) K := by
  simp only [cc1__lin_kernel_eq_skeleton]; unfold cc1__lin_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  -- the one store covers the whole buffer, so the buffer reads as its payload; each load read its whole buffer
  rw [View.read_writes_eq_canon _ _ _ (store_covers1 _), View.canon_unit_zero offsets_zero1]
  simp only [View.readAt_eq_ld, View.ld_unit_zero (S := S1024x512) offsets_zero1,
    View.ld_unit_zero (S := S512x512) offsets_zero1]

/-! ## The body at a grid point -/

/-- What the body is handed at point `t`: the region's invariant, the core's debts, and the current buffer of each
    of the three windows at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and debts, and each buffer at what `dat1` says the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the two inputs' buffers hold their blocks, so the body's triple on whole buffers applies at those
    blocks; the invariant and the debts are not touched by the body and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body, at every point, takes the buffers from what they hold before it to what `dat1` says they hold after it. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.K.FusedRuns.lean ====
/-
  Region 2 of the program, its body on whole buffers, in each of the four control cases.  The body is handed the
  two projection blocks `hi`, `hj`, the feature block `fs`, the output block's buffer at `raw0`, the running
  total's at `tot0` and the accumulator's at `acc0`.  It leaves the inputs as they were, the running total at
  the total it started from plus the tile's sum of squares, the accumulator at what it started from plus the tile
  times the feature block; the accumulator starts from zero when j = 0 and from `acc0` otherwise, the total from
  zero at the first point and from `tot0` otherwise; the output block's buffer is left as it was, except when
  j = 7, where it receives the new accumulator.
-/
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import proofs.«173617_j58308476010683_1_alg».proof.Proof.K.FusedData
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three branch conditions, in closed form over the grid -/

/-- The accumulator is cleared: column block j = 0. -/
abbrev condJ0 (i : grid2.Coords) : Prop := (Scalar.cmpi .ne (Scalar.extui (Scalar.cmpi .eq (BitVec.ofNat 32 (i 1).val) 0#32)) 0#32) = 1#1
/-- The running total is cleared: the first point. -/
abbrev condFirst (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The accumulator is copied to the output block: column block j = 7. -/
abbrev condJ7 (i : grid2.Coords) : Prop := k2_cond3 i = 1#1

theorem hcondJ0 : ∀ t : Fin cfg2.N, condJ0 (grid2.coords t) ↔ t.val % 8 = 0 :=
  (by decide +kernel : ∀ t : Fin grid2.N, condJ0 (grid2.coords t) ↔ t.val % 8 = 0)
theorem hcondFirst : ∀ t : Fin cfg2.N, condFirst (grid2.coords t) ↔ t.val = 0 :=
  (by decide +kernel : ∀ t : Fin grid2.N, condFirst (grid2.coords t) ↔ t.val = 0)
theorem hcondJ7 : ∀ t : Fin cfg2.N, condJ7 (grid2.coords t) ↔ t.val % 8 = 7 :=
  (by decide +kernel : ∀ t : Fin grid2.N, condJ7 (grid2.coords t) ↔ t.val % 8 = 7)

/-! ## The body on whole buffers, case by case -/

/-- The offsets of every access of the body, all zero. -/
theorem offs2 : (![0, 0] : Fin 2 → Nat) = fun _ => 0 := funext fun a => by fin_cases a <;> rfl

/-- A store through the whole rectangle of a 1024 × 512 buffer covers it. -/
theorem covBig (L : List (View.Piece (Elt F) S1024x512 .f32)) (p : Vec F S1024x512 .f32) (y : S1024x512.Idx) :
    ∃ pc ∈ (⟨Rect.unit (s := S1024x512) ![0, 0] S1024x512.size inb_S1024x512_S1024x512_0_0, p⟩ :: L :
        List (View.Piece (Elt F) S1024x512 .f32)), y ∈ pc.1.set :=
  ⟨_, List.mem_cons_self, View.mem_set_unit_zero offs2 inb_S1024x512_S1024x512_0_0 y⟩

/-- A store through the whole rectangle of the one-entry buffer covers it. -/
theorem covOne (L : List (View.Piece (Elt F) S1x1 .f32)) (p : Vec F S1x1 .f32) (y : S1x1.Idx) :
    ∃ pc ∈ (⟨Rect.unit (s := S1x1) ![0, 0] S1x1.size inb_S1x1_S1x1_0_0, p⟩ :: L :
        List (View.Piece (Elt F) S1x1 .f32)), y ∈ pc.1.set :=
  ⟨_, List.mem_cons_self, View.mem_set_unit_zero offs2 inb_S1x1_S1x1_0_0 y⟩

set_option maxHeartbeats 4000000 in
/-- The first point: j = 0 and i = 0, both the accumulator and the running total start from zero. -/
theorem run_first (c : Dev nD) (E : Set ℕ) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1x1 .f32) (harg6 : arg6.IsWhole) (arg7 : Memref sig .tc .vmem S1024x512 .f32) (harg7 : arg7.IsWhole)
    (hc1 : condJ0 i) (hc2 : condFirst i) (hc3 : ¬condJ7 i)
    (hi hj : Vec F S1024x512 .bf16) (fs raw0 acc0 : Vec F S1024x512 .f32) (tot0 : Vec F S1x1 .f32) (K : PUnit → sProp 𝕄) :
    iprop(owns (c : Thread nD τ) arg2 fullShare hi ∗ owns (c : Thread nD τ) arg3 fullShare hj ∗ owns (c : Thread nD τ) arg4 fullShare fs
        ∗ owns (c : Thread nD τ) arg5 fullShare raw0 ∗ owns (c : Thread nD τ) arg6 fullShare tot0 ∗ owns (c : Thread nD τ) arg7 fullShare acc0
        ∗ (iprop(owns (c : Thread nD τ) arg2 fullShare hi ∗ owns (c : Thread nD τ) arg3 fullShare hj ∗ owns (c : Thread nD τ) arg4 fullShare fs
            ∗ owns (c : Thread nD τ) arg5 fullShare raw0 ∗ owns (c : Thread nD τ) arg6 fullShare (step2 hi hj fs (k2_pay2 (F := F)) (k2_pay3 (F := F))).2
            ∗ owns (c : Thread nD τ) arg7 fullShare (step2 hi hj fs (k2_pay2 (F := F)) (k2_pay3 (F := F))).1) -∗ K ⟨⟩))
      ⊢ wp frame (wpE (defs₀ (F := F)) Variants.none c none) E (cc2__fused_kernel i arg2 harg2 arg3 harg3 arg4 harg4 arg5 harg5 arg6 harg6 arg7 harg7) K := by
  simp only [cc2__fused_kernel_eq_skeleton]; unfold cc2__fused_kernel_skel
  simp only [k2_part1_eq_skeleton]; unfold k2_part1_skel
  unfold owns step2
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc1 | exact hc2 | exact hc3)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists _; isplitr
    swap
    · iexact H6
    ipureintro
    sl_unfold_words
    rw [View.read_writes_eq_canon _ _ _ (covOne _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  iexists _; isplitr
  swap
  · iexact H7
  ipureintro
  sl_unfold_words
  rw [View.read_writes_eq_canon _ _ _ (covBig _ _), View.canon_cons_unit_zero offs2]
  simp only [View.readAt_eq_ld, View.ld_unit_zero (S := S1024x512) offs2, View.ld_unit_zero (S := S1x1) offs2,
    View.readCov_unit_zero (S := S1x1) _ offs2, View.readCov_unit_zero (S := S1024x512) _ offs2]

set_option maxHeartbeats 4000000 in
/-- A later point with j = 0: the accumulator starts from zero, the running total goes on. -/
theorem run_j0 (c : Dev nD) (E : Set ℕ) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1x1 .f32) (harg6 : arg6.IsWhole) (arg7 : Memref sig .tc .vmem S1024x512 .f32) (harg7 : arg7.IsWhole)
    (hc1 : condJ0 i) (hc2 : ¬condFirst i) (hc3 : ¬condJ7 i)
    (hi hj : Vec F S1024x512 .bf16) (fs raw0 acc0 : Vec F S1024x512 .f32) (tot0 : Vec F S1x1 .f32) (K : PUnit → sProp 𝕄) :
    iprop(owns (c : Thread nD τ) arg2 fullShare hi ∗ owns (c : Thread nD τ) arg3 fullShare hj ∗ owns (c : Thread nD τ) arg4 fullShare fs
        ∗ owns (c : Thread nD τ) arg5 fullShare raw0 ∗ owns (c : Thread nD τ) arg6 fullShare tot0 ∗ owns (c : Thread nD τ) arg7 fullShare acc0
        ∗ (iprop(owns (c : Thread nD τ) arg2 fullShare hi ∗ owns (c : Thread nD τ) arg3 fullShare hj ∗ owns (c : Thread nD τ) arg4 fullShare fs
            ∗ owns (c : Thread nD τ) arg5 fullShare raw0 ∗ owns (c : Thread nD τ) arg6 fullShare (step2 hi hj fs (k2_pay2 (F := F)) tot0).2
            ∗ owns (c : Thread nD τ) arg7 fullShare (step2 hi hj fs (k2_pay2 (F := F)) tot0).1) -∗ K ⟨⟩))
      ⊢ wp frame (wpE (defs₀ (F := F)) Variants.none c none) E (cc2__fused_kernel i arg2 harg2 arg3 harg3 arg4 harg4 arg5 harg5 arg6 harg6 arg7 harg7) K := by
  simp only [cc2__fused_kernel_eq_skeleton]; unfold cc2__fused_kernel_skel
  simp only [k2_part1_eq_skeleton]; unfold k2_part1_skel
  unfold owns step2
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc1 | exact hc2 | exact hc3)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists _; isplitr
    swap
    · iexact H6
    ipureintro
    sl_unfold_words
    rw [View.read_writes_eq_canon _ _ _ (covOne _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  iexists _; isplitr
  swap
  · iexact H7
  ipureintro
  sl_unfold_words
  rw [View.read_writes_eq_canon _ _ _ (covBig _ _), View.canon_cons_unit_zero offs2]
  simp only [View.readAt_eq_ld, View.ld_unit_zero (S := S1024x512) offs2, View.ld_unit_zero (S := S1x1) offs2,
    View.readCov_unit_zero (S := S1x1) _ offs2, View.readCov_unit_zero (S := S1024x512) _ offs2]

set_option maxHeartbeats 4000000 in
/-- A point with 0 < j < 7: both go on, nothing is copied. -/
theorem run_mid (c : Dev nD) (E : Set ℕ) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1x1 .f32) (harg6 : arg6.IsWhole) (arg7 : Memref sig .tc .vmem S1024x512 .f32) (harg7 : arg7.IsWhole)
    (hc1 : ¬condJ0 i) (hc2 : ¬condFirst i) (hc3 : ¬condJ7 i)
    (hi hj : Vec F S1024x512 .bf16) (fs raw0 acc0 : Vec F S1024x512 .f32) (tot0 : Vec F S1x1 .f32) (K : PUnit → sProp 𝕄) :
    iprop(owns (c : Thread nD τ) arg2 fullShare hi ∗ owns (c : Thread nD τ) arg3 fullShare hj ∗ owns (c : Thread nD τ) arg4 fullShare fs
        ∗ owns (c : Thread nD τ) arg5 fullShare raw0 ∗ owns (c : Thread nD τ) arg6 fullShare tot0 ∗ owns (c : Thread nD τ) arg7 fullShare acc0
        ∗ (iprop(owns (c : Thread nD τ) arg2 fullShare hi ∗ owns (c : Thread nD τ) arg3 fullShare hj ∗ owns (c : Thread nD τ) arg4 fullShare fs
            ∗ owns (c : Thread nD τ) arg5 fullShare raw0 ∗ owns (c : Thread nD τ) arg6 fullShare (step2 hi hj fs acc0 tot0).2
            ∗ owns (c : Thread nD τ) arg7 fullShare (step2 hi hj fs acc0 tot0).1) -∗ K ⟨⟩))
      ⊢ wp frame (wpE (defs₀ (F := F)) Variants.none c none) E (cc2__fused_kernel i arg2 harg2 arg3 harg3 arg4 harg4 arg5 harg5 arg6 harg6 arg7 harg7) K := by
  simp only [cc2__fused_kernel_eq_skeleton]; unfold cc2__fused_kernel_skel
  simp only [k2_part1_eq_skeleton]; unfold k2_part1_skel
  unfold owns step2
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc1 | exact hc2 | exact hc3)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists _; isplitr
    swap
    · iexact H6
    ipureintro
    sl_unfold_words
    rw [View.read_writes_eq_canon _ _ _ (covOne _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  iexists _; isplitr
  swap
  · iexact H7
  ipureintro
  sl_unfold_words
  rw [View.read_writes_eq_canon _ _ _ (covBig _ _), View.canon_cons_unit_zero offs2]
  simp only [View.readAt_eq_ld, View.ld_unit_zero (S := S1024x512) offs2, View.ld_unit_zero (S := S1x1) offs2,
    View.readCov_unit_zero (S := S1x1) _ offs2, View.readCov_unit_zero (S := S1024x512) _ offs2]

set_option maxHeartbeats 4000000 in
/-- A point with j = 7: both go on, and the new accumulator is copied to the output block's buffer. -/
theorem run_j7 (c : Dev nD) (E : Set ℕ) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1x1 .f32) (harg6 : arg6.IsWhole) (arg7 : Memref sig .tc .vmem S1024x512 .f32) (harg7 : arg7.IsWhole)
    (hc1 : ¬condJ0 i) (hc2 : ¬condFirst i) (hc3 : condJ7 i)
    (hi hj : Vec F S1024x512 .bf16) (fs raw0 acc0 : Vec F S1024x512 .f32) (tot0 : Vec F S1x1 .f32) (K : PUnit → sProp 𝕄) :
    iprop(owns (c : Thread nD τ) arg2 fullShare hi ∗ owns (c : Thread nD τ) arg3 fullShare hj ∗ owns (c : Thread nD τ) arg4 fullShare fs
        ∗ owns (c : Thread nD τ) arg5 fullShare raw0 ∗ owns (c : Thread nD τ) arg6 fullShare tot0 ∗ owns (c : Thread nD τ) arg7 fullShare acc0
        ∗ (iprop(owns (c : Thread nD τ) arg2 fullShare hi ∗ owns (c : Thread nD τ) arg3 fullShare hj ∗ owns (c : Thread nD τ) arg4 fullShare fs
            ∗ owns (c : Thread nD τ) arg5 fullShare (step2 hi hj fs acc0 tot0).1 ∗ owns (c : Thread nD τ) arg6 fullShare (step2 hi hj fs acc0 tot0).2
            ∗ owns (c : Thread nD τ) arg7 fullShare (step2 hi hj fs acc0 tot0).1) -∗ K ⟨⟩))
      ⊢ wp frame (wpE (defs₀ (F := F)) Variants.none c none) E (cc2__fused_kernel i arg2 harg2 arg3 harg3 arg4 harg4 arg5 harg5 arg6 harg6 arg7 harg7) K := by
  simp only [cc2__fused_kernel_eq_skeleton]; unfold cc2__fused_kernel_skel
  simp only [k2_part1_eq_skeleton]; unfold k2_part1_skel
  unfold owns step2
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc1 | exact hc2 | exact hc3)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists _; isplitr
    swap
    · iexact H5
    ipureintro
    sl_unfold_words
    rw [View.read_writes_eq_canon _ _ _ (covBig _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  isplitl [H6]
  · iexists _; isplitr
    swap
    · iexact H6
    ipureintro
    sl_unfold_words
    rw [View.read_writes_eq_canon _ _ _ (covOne _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  iexists _; isplitr
  swap
  · iexact H7
  ipureintro
  sl_unfold_words
  rw [View.read_writes_eq_canon _ _ _ (covBig _ _), View.canon_cons_unit_zero offs2]
  simp only [View.readAt_eq_ld, View.ld_unit_zero (S := S1024x512) offs2, View.ld_unit_zero (S := S1x1) offs2,
    View.readCov_unit_zero (S := S1x1) _ offs2, View.readCov_unit_zero (S := S1024x512) _ offs2]

end Cert.Kernel.Hand

end
-- ==== Proof.K.FusedBefore.lean ====
/-
  Region 2 of the program, what the body finds.  At every grid point the three inputs' buffers hold their blocks;
  the running total's buffer holds anything at the first point and afterwards the total the point before left (it
  is written back after the last point only); the output block's window is idle, and not written back, wherever
  the accumulator is not copied out.  The accumulator and the total after a point, by the point's control case,
  as one step from what the point before left.  And the launch's invariant with the accumulator's buffer named
  apart from the other scoped buffers.
-/
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import proofs.«173617_j58308476010683_1_alg».proof.Proof.K.FusedRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the three input buffers hold when the body is called -/

/-- The first projection's buffer holds the point's row block: it is fetched when the row block changes (j = 0)
    and kept in between, where its block index does not move. -/
theorem before2_0 (c : Dev nD) (t : Fin cfg2.N) (d) : (dat2 V c).before 0 t d = iblk2 V c 0 t := by
  have hkeep : ∀ t', (cfg2.win 0).cut (cfg2.grid.coords t') ((dat2 V c).after 0 t') = (dat2 V c).blockOf 0 t' := by
    intro t'
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

/-- The second projection's buffer holds the point's column block, fetched afresh at every point. -/
theorem before2_1 (c : Dev nD) (t : Fin cfg2.N) (d) : (dat2 V c).before 1 t d = iblk2 V c 1 t := by
  have hkeep : ∀ t', (cfg2.win 1).cut (cfg2.grid.coords t') ((dat2 V c).after 1 t') = (dat2 V c).blockOf 1 t' := by
    intro t'
    rw [after2_1]; unfold Dat.blockOf iblk2; rw [A_eq2]; try rfl
  rw [(dat2 V c).before_in_eq_fetched 1 rfl (fun _ => rfl) (fun _ _ _ => rfl) hkeep t d]
  unfold Dat.fetched Dat.blockOf iblk2; rw [A_eq2]; try rfl

/-- The feature matrix's buffer holds the point's column block, fetched afresh at every point. -/
theorem before2_2 (c : Dev nD) (t : Fin cfg2.N) (d) : (dat2 V c).before 2 t d = iblk2 V c 2 t := by
  have hkeep : ∀ t', (cfg2.win 2).cut (cfg2.grid.coords t') ((dat2 V c).after 2 t') = (dat2 V c).blockOf 2 t' := by
    intro t'
    rw [after2_2]; unfold Dat.blockOf iblk2; rw [A_eq2]; try rfl
  rw [(dat2 V c).before_in_eq_fetched 2 rfl (fun _ => rfl) (fun _ _ _ => rfl) hkeep t d]
  unfold Dat.fetched Dat.blockOf iblk2; rw [A_eq2]; try rfl

/-! ## What the running total's buffer holds when the body is called -/

/-- At the first point the running total's buffer holds anything. -/
theorem before2_4_first (c : Dev nD) (t : Fin cfg2.N) (h : t.val = 0) (d) : (dat2 V c).before 4 t d = d :=
  (dat2 V c).before_out_reset 4 rfl t (.inl h) d

/-- At a later point it holds the total the point before left: it is written back after the last point only. -/
theorem before2_4_later (c : Dev nD) (t : Fin cfg2.N) (h : t.val ≠ 0) (d) :
    (dat2 V c).before 4 t d = (carried2 V c (t.val - 1) (Nat.lt_of_le_of_lt (Nat.sub_le _ _) t.isLt)).2 := by
  have hN : t.val < 64 := lt_of_lt_of_eq t.isLt (show cfg2.N = 64 from N_2)
  have hfl : (cfg2.win 4).flush ⟨t.val - 1, Nat.lt_of_le_of_lt (Nat.sub_le _ _) t.isLt⟩ = false := by
    rw [Bool.eq_false_iff]
    intro hf
    have := (flush2_4 _).mp hf
    dsimp only at this
    omega
  rw [(dat2 V c).before_out_kept 4 rfl t h hfl (fun _ => rfl) (fun _ _ => rfl) d, after2_4]

/-! ## The accumulator and the total after a point, by the point's control case -/

/-- After the first point: one step from zero and zero. -/
theorem carried2_first (c : Dev nD) (t : Fin cfg2.N) (h : t.val = 0) :
    carried2 V c t.val t.isLt
      = step2 (iblk2 V c 0 t) (iblk2 V c 1 t) (iblk2 V c 2 t) (k2_pay2 (F := F)) (k2_pay3 (F := F)) := by
  obtain ⟨n, hn⟩ := t
  cases n with
  | zero => rfl
  | succ n => exact absurd h (Nat.succ_ne_zero n)

/-- After a later point with j = 0: one step from a zero accumulator and the total of the point before. -/
theorem carried2_restart (c : Dev nD) (t : Fin cfg2.N) (h0 : t.val ≠ 0) (h : t.val % 8 = 0) :
    carried2 V c t.val t.isLt
      = step2 (iblk2 V c 0 t) (iblk2 V c 1 t) (iblk2 V c 2 t) (k2_pay2 (F := F))
          (carried2 V c (t.val - 1) (Nat.lt_of_le_of_lt (Nat.sub_le _ _) t.isLt)).2 := by
  obtain ⟨n, hn⟩ := t
  cases n with
  | zero => exact absurd rfl h0
  | succ n => exact (carried2_succ V c n hn).trans (by rw [if_pos h]; rfl)

/-- After a point with j ≠ 0: one step from the accumulator and the total of the point before. -/
theorem carried2_goOn (c : Dev nD) (t : Fin cfg2.N) (h : t.val % 8 ≠ 0) :
    carried2 V c t.val t.isLt
      = step2 (iblk2 V c 0 t) (iblk2 V c 1 t) (iblk2 V c 2 t)
          (carried2 V c (t.val - 1) (Nat.lt_of_le_of_lt (Nat.sub_le _ _) t.isLt)).1
          (carried2 V c (t.val - 1) (Nat.lt_of_le_of_lt (Nat.sub_le _ _) t.isLt)).2 := by
  obtain ⟨n, hn⟩ := t
  cases n with
  | zero => exact absurd (Nat.zero_mod 8) h
  | succ n => exact (carried2_succ V c n hn).trans (by rw [if_neg h]; rfl)

/-! ## The output block's window: idle where nothing is copied -/

/-- Where the accumulator is not copied out, the output block's window is idle. -/
theorem idle2_3_of (i : grid2.Coords) (h : ¬condJ7 i) : cfg2.idle 3 i = true := by
  show (!(k2_cond3 i == 1#1)) = true
  rw [Bool.not_eq_true', beq_eq_false_iff_ne]
  exact h

/-- Where it is copied out, the window is live. -/
theorem live2_3_of (i : grid2.Coords) (h : condJ7 i) : cfg2.idle 3 i = false := by
  show (!(k2_cond3 i == 1#1)) = false
  rw [Bool.not_eq_false', beq_iff_eq]
  exact h

/-- Away from j = 7 the output block is not written back. -/
theorem noFlush2_3 (t : Fin cfg2.N) (h : t.val % 8 ≠ 7) : (cfg2.win 3).flush t = false := by
  rw [Bool.eq_false_iff]
  exact fun hf => h ((flush2_3 t).mp hf)

/-! ## The launch's invariant, with the accumulator's buffer named -/

/-- The scoped buffers outside the region's staging, split into the accumulator's buffer and the others. -/
theorem scoped2_split (c : Dev nD) :
    (Pipeline.scopedRest (Ix := Unit) (Name := ℕ) (U := UR sig nD τ) (Lvl := ℕ) (Val := Elt F) spec2 c : sProp 𝕄)
      ⊢ iprop(others2 (F := F) c ∗ (∃ d, owns (c : Thread nD τ) accM fullShare d)) := by
  rw [scopedRest2_eq]; unfold others2; simp only [accM, owns_whole]
  iintro ⟨A1, A2, A3, A4, A5, A6, A7, A8, A9, A10, ⟨%f, HS⟩⟩
  isplitr [HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexists f
  iexact HS

/-- And put together again. -/
theorem scoped2_join (c : Dev nD) :
    iprop(others2 (F := F) c ∗ (∃ d, owns (c : Thread nD τ) accM fullShare d))
      ⊢ (Pipeline.scopedRest (Ix := Unit) (Name := ℕ) (U := UR sig nD τ) (Lvl := ℕ) (Val := Elt F) spec2 c : sProp 𝕄) := by
  rw [scopedRest2_eq]; unfold others2; simp only [accM, owns_whole]
  iintro ⟨⟨A1, A2, A3, A4, A5, A6, A7, A8, A9, A10⟩, ⟨%f, HS⟩⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexists f
  iexact HS

/-- What the launch hands the region: the other scoped buffers, the accumulator's at anything, the generator register. -/
theorem PhiA2_open (c : Dev nD) :
    (Pipeline.ΦA spec2 c : sProp 𝕄)
      ⊢ iprop(others2 (F := F) c ∗ (∃ d, owns (c : Thread nD τ) accM fullShare d) ∗ (∃ r, prngReg c r)) := by
  unfold Pipeline.ΦA
  iintro ⟨HS, Hg⟩
  ihave HS' := (scoped2_split (F := F) c) $$ HS
  icases HS' with ⟨Ho, Ha⟩
  isplitl [Ho]; · iexact Ho
  isplitl [Ha]; · iexact Ha
  iexact Hg

theorem PhiA2_close (c : Dev nD) :
    iprop(others2 (F := F) c ∗ (∃ d, owns (c : Thread nD τ) accM fullShare d) ∗ (∃ r, prngReg c r))
      ⊢ (Pipeline.ΦA spec2 c : sProp 𝕄) := by
  unfold Pipeline.ΦA
  iintro ⟨Ho, Ha, Hg⟩
  isplitr [Hg]
  · iapply (scoped2_join (F := F) c)
    isplitl [Ho]; · iexact Ho
    iexact Ha
  iexact Hg

end Cert.Kernel.Hand

end
-- ==== Proof.K.FusedBody.lean ====
/-
  Region 2 of the program, its body.  At every grid point the body, started from the invariant before the point
  and the five windows' buffers at what they hold then, ends with the invariant after the point and the buffers at
  what the region's data say: the three inputs untouched; the running total's buffer at the total after the point;
  the output block's buffer untouched except at the points with j = 7, where it receives the accumulator.  Four
  control cases: the first point (both resets), the other points with j = 0 (the accumulator's reset), the points
  with 0 < j < 7 (no reset, no copy), the points with j = 7 (the copy).
-/
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import proofs.«173617_j58308476010683_1_alg».proof.Proof.K.FusedRuns
import proofs.«173617_j58308476010683_1_alg».proof.Proof.K.FusedBefore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body at a grid point -/

/-- What the body is handed at point `t`: the region's invariant before the point, the core's debts, and the
    current buffer of each of the five windows at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it hands back: the invariant after the point, the same debts, the inputs' and the running total's buffers
    at what the region's data say, and the output block's buffer as it was found where nothing is copied out and
    at the accumulator where it is. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t
    ∗ owns (c : Thread nD τ) (st2_4 t) fullShare ((dat2 V c).after 4 t))

set_option maxHeartbeats 4000000 in
/-- The body at any point.  The inputs' buffers hold their blocks.  By the point's place in the grid it is in one of
    four control cases; in each the accumulator and the total the body starts from are what the invariant and the
    running total's buffer hold (anything at the first point, what the point before left afterwards), and the
    body's run on whole buffers in that case leaves the step from them: the accumulator goes back into the
    invariant, the total into its buffer, and the output block's buffer is handed back as found unless j = 7. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS2 V c (t.val + 1) t.isLt from rfl, PhiS2_succ, PhiS2_castSucc,
    after2_0, after2_1, after2_2, after2_4]
  have hN : t.val < 64 := lt_of_lt_of_eq t.isLt (show cfg2.N = 64 from N_2)
  have hp : t.val - 1 < cfg2.N := Nat.lt_of_le_of_lt (Nat.sub_le _ _) t.isLt
  by_cases hz : t.val = 0
  · -- the first point: the accumulator's buffer and the total's hold anything, both restart from zero
    have hc1 : condJ0 (grid2.coords t) := (hcondJ0 t).mpr (by omega)
    have hc2 : condFirst (grid2.coords t) := (hcondFirst t).mpr hz
    have hc3 : ¬condJ7 (grid2.coords t) := fun h => by have := (hcondJ7 t).mp h; omega
    rw [Dat.leavesExact_idle (dat2 V c) 3 t (idle2_3_of _ hc3) (noFlush2_3 t (by omega)),
      carried2_first V c t hz, PhiS2_zero V c _ _ hz]
    simp only [before2_4_first V c t hz]
    iintro ⟨HΦ, Ho, ⟨%d0, H0⟩, ⟨%d1, H1⟩, ⟨%d2, H2⟩, ⟨%d3, H3⟩, ⟨%d4, H4⟩⟩
    ihave HΦ' := (PhiA2_open (F := F) c) $$ HΦ
    icases HΦ' with ⟨Hoth, ⟨%da, Ha⟩, Hg⟩
    iapply (run_first c Set.univ (grid2.coords t) _ _ _ _ _ _ _ _ _ _ accM (Memref.isWhole_whole _) hc1 hc2 hc3
      (iblk2 V c 0 t) (iblk2 V c 1 t) (iblk2 V c 2 t) ((dat2 V c).before 3 t d3) da d4 _)
    isplitl [H0]; · iexact H0
    isplitl [H1]; · iexact H1
    isplitl [H2]; · iexact H2
    isplitl [H3]; · iexact H3
    isplitl [H4]; · iexact H4
    isplitl [Ha]; · iexact Ha
    iintro ⟨H0, H1, H2, H3, H4, Ha⟩
    isplitl [Hoth Ha Hg]
    · isplitl [Hoth]; · iexact Hoth
      isplitl [Ha]; · iexact Ha
      iexact Hg
    isplitl [Ho]; · iexact Ho
    isplitl [H0]; · iexact H0
    isplitl [H1]; · iexact H1
    isplitl [H2]; · iexact H2
    isplitl [H3]; · iexists d3; iexact H3
    iexact H4
  · by_cases h0 : t.val % 8 = 0
    · -- a later point with j = 0: the accumulator restarts from zero, the total goes on
      have hc1 : condJ0 (grid2.coords t) := (hcondJ0 t).mpr h0
      have hc2 : ¬condFirst (grid2.coords t) := fun h => hz ((hcondFirst t).mp h)
      have hc3 : ¬condJ7 (grid2.coords t) := fun h => by have := (hcondJ7 t).mp h; omega
      rw [Dat.leavesExact_idle (dat2 V c) 3 t (idle2_3_of _ hc3) (noFlush2_3 t (by omega)),
        carried2_restart V c t hz h0, PhiS2_pos V c _ _ hz]
      simp only [before2_4_later V c t hz]
      iintro ⟨⟨Hoth, Ha, Hg⟩, Ho, ⟨%d0, H0⟩, ⟨%d1, H1⟩, ⟨%d2, H2⟩, ⟨%d3, H3⟩, ⟨%d4, H4⟩⟩
      iapply (run_j0 c Set.univ (grid2.coords t) _ _ _ _ _ _ _ _ _ _ accM (Memref.isWhole_whole _) hc1 hc2 hc3
        (iblk2 V c 0 t) (iblk2 V c 1 t) (iblk2 V c 2 t) ((dat2 V c).before 3 t d3) (carried2 V c (t.val - 1) hp).1 (carried2 V c (t.val - 1) hp).2 _)
      isplitl [H0]; · iexact H0
      isplitl [H1]; · iexact H1
      isplitl [H2]; · iexact H2
      isplitl [H3]; · iexact H3
      isplitl [H4]; · iexact H4
      isplitl [Ha]; · iexact Ha
      iintro ⟨H0, H1, H2, H3, H4, Ha⟩
      isplitl [Hoth Ha Hg]
      · isplitl [Hoth]; · iexact Hoth
        isplitl [Ha]; · iexact Ha
        iexact Hg
      isplitl [Ho]; · iexact Ho
      isplitl [H0]; · iexact H0
      isplitl [H1]; · iexact H1
      isplitl [H2]; · iexact H2
      isplitl [H3]; · iexists d3; iexact H3
      iexact H4
    · have hc1 : ¬condJ0 (grid2.coords t) := fun h => h0 ((hcondJ0 t).mp h)
      have hc2 : ¬condFirst (grid2.coords t) := fun h => hz ((hcondFirst t).mp h)
      by_cases h7 : t.val % 8 = 7
      · -- a point with j = 7: both go on, and the accumulator is copied to the output block's buffer
        have hc3 : condJ7 (grid2.coords t) := (hcondJ7 t).mpr h7
        rw [show (dat2 V c).leavesExact 3 t = owns (c : Thread nD τ) (st2_3 t) fullShare ((dat2 V c).after 3 t) from by
            unfold Dat.leavesExact; rw [live2_3_of _ hc3], after2_3,
          carried2_goOn V c t h0, PhiS2_pos V c _ _ hz]
        simp only [before2_4_later V c t hz]
        iintro ⟨⟨Hoth, Ha, Hg⟩, Ho, ⟨%d0, H0⟩, ⟨%d1, H1⟩, ⟨%d2, H2⟩, ⟨%d3, H3⟩, ⟨%d4, H4⟩⟩
        iapply (run_j7 c Set.univ (grid2.coords t) _ _ _ _ _ _ _ _ _ _ accM (Memref.isWhole_whole _) hc1 hc2 hc3
          (iblk2 V c 0 t) (iblk2 V c 1 t) (iblk2 V c 2 t) ((dat2 V c).before 3 t d3) (carried2 V c (t.val - 1) hp).1 (carried2 V c (t.val - 1) hp).2 _)
        isplitl [H0]; · iexact H0
        isplitl [H1]; · iexact H1
        isplitl [H2]; · iexact H2
        isplitl [H3]; · iexact H3
        isplitl [H4]; · iexact H4
        isplitl [Ha]; · iexact Ha
        iintro ⟨H0, H1, H2, H3, H4, Ha⟩
        isplitl [Hoth Ha Hg]
        · isplitl [Hoth]; · iexact Hoth
          isplitl [Ha]; · iexact Ha
          iexact Hg
        isplitl [Ho]; · iexact Ho
        isplitl [H0]; · iexact H0
        isplitl [H1]; · iexact H1
        isplitl [H2]; · iexact H2
        isplitl [H3]; · iexact H3
        iexact H4
      · -- a point with 0 < j < 7: both go on, nothing is copied
        have hc3 : ¬condJ7 (grid2.coords t) := fun h => h7 ((hcondJ7 t).mp h)
        rw [Dat.leavesExact_idle (dat2 V c) 3 t (idle2_3_of _ hc3) (noFlush2_3 t h7),
          carried2_goOn V c t h0, PhiS2_pos V c _ _ hz]
        simp only [before2_4_later V c t hz]
        iintro ⟨⟨Hoth, Ha, Hg⟩, Ho, ⟨%d0, H0⟩, ⟨%d1, H1⟩, ⟨%d2, H2⟩, ⟨%d3, H3⟩, ⟨%d4, H4⟩⟩
        iapply (run_mid c Set.univ (grid2.coords t) _ _ _ _ _ _ _ _ _ _ accM (Memref.isWhole_whole _) hc1 hc2 hc3
          (iblk2 V c 0 t) (iblk2 V c 1 t) (iblk2 V c 2 t) ((dat2 V c).before 3 t d3) (carried2 V c (t.val - 1) hp).1 (carried2 V c (t.val - 1) hp).2 _)
        isplitl [H0]; · iexact H0
        isplitl [H1]; · iexact H1
        isplitl [H2]; · iexact H2
        isplitl [H3]; · iexact H3
        isplitl [H4]; · iexact H4
        isplitl [Ha]; · iexact Ha
        iintro ⟨H0, H1, H2, H3, H4, Ha⟩
        isplitl [Hoth Ha Hg]
        · isplitl [Hoth]; · iexact Hoth
          isplitl [Ha]; · iexact Ha
          iexact Hg
        isplitl [Ho]; · iexact Ho
        isplitl [H0]; · iexact H0
        isplitl [H1]; · iexact H1
        isplitl [H2]; · iexact H2
        isplitl [H3]; · iexists d3; iexact H3
        iexact H4

/-- The body, at every point, takes the invariant and the buffers from before the point to after it. -/
theorem body_obligation2 (c : Dev nD) :
    BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives back what the launch handed over: the accumulator's contents are forgotten. -/
theorem hout2 (c : Dev nD) : (dat2 V c).Φ (Fin.last cfg2.N) ⊢ (Pipeline.ΦA spec2 c : sProp 𝕄) := by
  have hne : (Fin.last cfg2.N).val ≠ 0 := by
    rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hne]
  iintro ⟨Hoth, Ha, Hg⟩
  iapply (PhiA2_close (F := F) c)
  isplitl [Hoth]; · iexact Hoth
  isplitl [Ha]; · iexists _; iexact Ha
  iexact Hg

end Cert.Kernel.Hand

end
-- ==== Proof.K.Run.lean ====
/-
  The whole run of the program.  Its four items in order — the two linear regions, the fused region, the closing
  host operations — each entered from the buffers' contents the item before left (the fold of the buffers'
  contents), each region's record assembled from its data, its body's obligation and the split of its arrays out of the core's
  buffers and back.  Every weakly fair execution ends with every buffer that outlives the regions at the fold's end.
-/
import proofs.«173617_j58308476010683_1_alg».proof.Proof.Gen.Kernel.Launch
import proofs.«173617_j58308476010683_1_alg».proof.Proof.Gen.Kernel.Skeleton
import proofs.«173617_j58308476010683_1_alg».proof.Proof.Gen.Kernel.Points
import proofs.«173617_j58308476010683_1_alg».proof.Proof.K.Fold
import proofs.«173617_j58308476010683_1_alg».proof.Proof.K.Lin0Body
import proofs.«173617_j58308476010683_1_alg».proof.Proof.K.Lin1Body
import proofs.«173617_j58308476010683_1_alg».proof.Proof.K.FusedBody
import proofs.«173617_j58308476010683_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three arguments through the fold

The closing host operations write only the four buffers of their own results.  A region changes only its output
windows' arrays; an argument is either no array of the region at all, or the array of one of its INPUT windows,
which is never written back and so leaves the region holding what it held on entry. -/

/-- No item writes an argument: each argument array ends as launched.  The first feature matrix is region 0's
    first input window and no array of regions 1 and 2. -/
theorem atEnd_main_arg0 (c : Dev nD) : atEnd m c (Proc.devRef .tc main_arg0) = m ((c : Thread nD τ).loc main_arg0) :=
  calc atEnd m c (Proc.devRef .tc main_arg0)
    _ = afterFused m c (Proc.devRef .tc main_arg0) := StableHlo.after_of_writes_sub hostOps3 _ hostOps3_writes (by decide)
    _ = afterLin1 m c (Proc.devRef .tc main_arg0) := afterFused_of_ne m c main_arg0 (by decide)
    _ = afterLin0 m c (Proc.devRef .tc main_arg0) := afterLin1_of_ne m c main_arg0 (by decide)
    _ = atLaunch m c (Proc.devRef .tc main_arg0) :=
        (afterLin0_arr m c 0).trans (((dat0 (tcAt (atLaunch m)) c).arrAt_in 0 rfl _).trans (A_eq0 (tcAt (atLaunch m)) c 0))
    _ = m ((c : Thread nD τ).loc main_arg0) := rfl

/-- The second feature matrix is no array of region 0, region 1's first input window and region 2's third. -/
theorem atEnd_main_arg1 (c : Dev nD) : atEnd m c (Proc.devRef .tc main_arg1) = m ((c : Thread nD τ).loc main_arg1) :=
  calc atEnd m c (Proc.devRef .tc main_arg1)
    _ = afterFused m c (Proc.devRef .tc main_arg1) := StableHlo.after_of_writes_sub hostOps3 _ hostOps3_writes (by decide)
    _ = afterLin1 m c (Proc.devRef .tc main_arg1) :=
        (afterFused_arr m c 2).trans (((dat2 (tcAt (afterLin1 m)) c).arrAt_in 2 rfl _).trans (A_eq2 (tcAt (afterLin1 m)) c 2))
    _ = afterLin0 m c (Proc.devRef .tc main_arg1) :=
        (afterLin1_arr m c 0).trans (((dat1 (tcAt (afterLin0 m)) c).arrAt_in 0 rfl _).trans (A_eq1 (tcAt (afterLin0 m)) c 0))
    _ = atLaunch m c (Proc.devRef .tc main_arg1) := afterLin0_of_ne m c main_arg1 (by decide)
    _ = m ((c : Thread nD τ).loc main_arg1) := rfl

/-- The weight matrix is the second input window of both linear regions and no array of the fused region. -/
theorem atEnd_main_arg2 (c : Dev nD) : atEnd m c (Proc.devRef .tc main_arg2) = m ((c : Thread nD τ).loc main_arg2) :=
  calc atEnd m c (Proc.devRef .tc main_arg2)
    _ = afterFused m c (Proc.devRef .tc main_arg2) := StableHlo.after_of_writes_sub hostOps3 _ hostOps3_writes (by decide)
    _ = afterLin1 m c (Proc.devRef .tc main_arg2) := afterFused_of_ne m c main_arg2 (by decide)
    _ = afterLin0 m c (Proc.devRef .tc main_arg2) :=
        (afterLin1_arr m c 1).trans (((dat1 (tcAt (afterLin0 m)) c).arrAt_in 1 rfl _).trans (A_eq1 (tcAt (afterLin0 m)) c 1))
    _ = atLaunch m c (Proc.devRef .tc main_arg2) :=
        (afterLin0_arr m c 1).trans (((dat0 (tcAt (atLaunch m)) c).arrAt_in 1 rfl _).trans (A_eq0 (tcAt (atLaunch m)) c 1))
    _ = m ((c : Thread nD τ).loc main_arg2) := rfl

/-! ## The regions' data and what rides beside the buffers -/

/-- Every region's proof data, each at the contents its region is entered from: the first linear region from the
    launch, the second from what the first left, the fused region from what the second left. -/
def regionData : (p : Fin 3) → (c : Dev nD) → Dat τ (Elt F) Unit ℕ (UR sig nD τ) ℕ (Pipeline.pin (pcfgs (F := F)) adm p) c
  | ⟨0, _⟩ => fun c => dat0 (tcAt (atLaunch m)) c
  | ⟨1, _⟩ => fun c => dat1 (tcAt (afterLin0 m)) c
  | ⟨2, _⟩ => fun c => dat2 (tcAt (afterLin1 m)) c
/-- No body of the program has variants. -/
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the core's generator register at some state (a region's
    invariant takes it in and gives it back) and the core owing nothing. -/
abbrev beside (c : Dev nD) : sProp 𝕄 := iprop((∃ r, prngReg c r) ∗ ∃ W, owes (c : Thread nD τ) (0 : CellTallies nD τ sig Unit) W)
/-- An unscoped reference of the core is among those the state between items holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at the fold's end, the generator register at some state. -/
abbrev endState (c : Dev nD) : sProp 𝕄 := iprop(StableHlo.held (c : Thread nD τ) (Pipeline.ucRefs τ sig) (atEnd m c) ∗ ∃ r, prngReg c r)

/-! ## The items -/

set_option backward.isDefEq.respectTransparency.types false in
/-- The first linear region as an item of the run: entered from every unscoped buffer as launched, left with its
    output array at the first projection's blocks and every other buffer untouched. -/
def lin0Seg : Pipeline.RegionSeg (pcfgs (F := F)) adm (regionData m) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (tcAt (atLaunch m)) c).loose
  hwaits := Pipeline.hwaits_of_owed_zero _ _ _ _ noLevels levelZero 0 fun _ _ => rfl
  pre c := iprop(StableHlo.held (c : Thread nD τ) (Pipeline.ucRefs τ sig) (atLaunch m c) ∗ beside c)
  post c := iprop(StableHlo.held (c : Thread nD τ) (Pipeline.ucRefs τ sig) (afterLin0 m c) ∗ beside c)
  X c := iprop(∃ r, prngReg c r)
  Y c := iprop(∃ r, prngReg c r)
  Z c := Pipeline.unscopedRest (Ix := Unit) (Name := ℕ) (U := UR sig nD τ) (Lvl := ℕ) spec0 c (tcAt (atLaunch m) c)
  hentry c := by
    -- the region's arrays come out of the core's buffers at the contents its data start from; what is left of
    -- the buffers bypasses the region; the generator register goes to the invariant; nothing is owed
    rw [Pipeline.ownSems0_none]
    have hsplit := Pipeline.arrays_of_unscopedBufs (p := 0) (pcfgs (F := F)) adm (regionData m) launch0.win launch0.arr_whole c
      ((regionData m 0 c).share_full fun _ => rfl) (tcAt (atLaunch m) c) fun _ => rfl
    rw [Pipeline.unscopedBufs_held] at hsplit
    iintro ⟨⟨Hbufs, Hgen, Hdue⟩, -, -⟩
    ihave Hparts := hsplit $$ Hbufs
    icases Hparts with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hbypass
  hin c := by
    -- the invariant of a region whose body keeps nothing between points: the scoped buffers no window stages
    -- through, at some contents, and the generator register
    rw [show (regionData m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (regionData m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    -- the arrays, at what the write-backs leave, go back among the bypassed buffers: together the core's buffers
    -- at the next boundary's contents
    have hjoin := Pipeline.unscopedBufs_of_arrays (p := 0) (pcfgs (F := F)) adm (Ix := Unit) (Name := ℕ) (U := UR sig nD τ) (Lvl := ℕ)
      launch0.win launch0.arr_whole c (regionData m) ((regionData m 0 c).share_full fun _ => rfl)
      (tcAt (atLaunch m) c) (tcAt (afterLin0 m) c) ((regionData m 0 c).arrAt · cfg0.N) (exitArr0 m c) (exitRest0 m c)
    rw [Pipeline.unscopedBufs_held] at hjoin
    iintro ⟨Harr, Hdue, Hgen, Hbypass⟩
    imodintro
    isplitl [Harr Hbypass]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- The second linear region as an item of the run: entered from what the first left, left with its output
    array at the second projection's blocks. -/
def lin1Seg : Pipeline.RegionSeg (pcfgs (F := F)) adm (regionData m) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (tcAt (afterLin0 m)) c).loose
  hwaits := Pipeline.hwaits_of_owed_zero _ _ _ _ noLevels levelZero 1 fun _ _ => rfl
  pre c := iprop(StableHlo.held (c : Thread nD τ) (Pipeline.ucRefs τ sig) (afterLin0 m c) ∗ beside c)
  post c := iprop(StableHlo.held (c : Thread nD τ) (Pipeline.ucRefs τ sig) (afterLin1 m c) ∗ beside c)
  X c := iprop(∃ r, prngReg c r)
  Y c := iprop(∃ r, prngReg c r)
  Z c := Pipeline.unscopedRest (Ix := Unit) (Name := ℕ) (U := UR sig nD τ) (Lvl := ℕ) spec1 c (tcAt (afterLin0 m) c)
  hentry c := by
    -- the region's arrays come out of the core's buffers at the contents its data start from; what is left of
    -- the buffers bypasses the region; the generator register goes to the invariant; nothing is owed
    rw [Pipeline.ownSems0_none]
    have hsplit := Pipeline.arrays_of_unscopedBufs (p := 1) (pcfgs (F := F)) adm (regionData m) launch1.win launch1.arr_whole c
      ((regionData m 1 c).share_full fun _ => rfl) (tcAt (afterLin0 m) c) fun _ => rfl
    rw [Pipeline.unscopedBufs_held] at hsplit
    iintro ⟨⟨Hbufs, Hgen, Hdue⟩, -, -⟩
    ihave Hparts := hsplit $$ Hbufs
    icases Hparts with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hbypass
  hin c := by
    -- the invariant of a region whose body keeps nothing between points: the scoped buffers no window stages
    -- through, at some contents, and the generator register
    rw [show (regionData m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (regionData m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    -- the arrays, at what the write-backs leave, go back among the bypassed buffers: together the core's buffers
    -- at the next boundary's contents
    have hjoin := Pipeline.unscopedBufs_of_arrays (p := 1) (pcfgs (F := F)) adm (Ix := Unit) (Name := ℕ) (U := UR sig nD τ) (Lvl := ℕ)
      launch1.win launch1.arr_whole c (regionData m) ((regionData m 1 c).share_full fun _ => rfl)
      (tcAt (afterLin0 m) c) (tcAt (afterLin1 m) c) ((regionData m 1 c).arrAt · cfg1.N) (exitArr1 m c) (exitRest1 m c)
    rw [Pipeline.unscopedBufs_held] at hjoin
    iintro ⟨Harr, Hdue, Hgen, Hbypass⟩
    imodintro
    isplitl [Harr Hbypass]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- The fused region as an item of the run: entered from what the second linear region left, left with the
    aggregate's array at the accumulators written back and the one-entry array at the last running total.  Its
    invariant carries the accumulator between points, so it is entered from the launch's invariant and left to it
    through the two entailments the region's body module states. -/
def fusedSeg : Pipeline.RegionSeg (pcfgs (F := F)) adm (regionData m) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (tcAt (afterLin1 m)) c).loose
  hwaits := Pipeline.hwaits_of_owed_zero _ _ _ _ noLevels levelZero 2 fun _ _ => rfl
  pre c := iprop(StableHlo.held (c : Thread nD τ) (Pipeline.ucRefs τ sig) (afterLin1 m c) ∗ beside c)
  post c := iprop(StableHlo.held (c : Thread nD τ) (Pipeline.ucRefs τ sig) (afterFused m c) ∗ beside c)
  X c := iprop(∃ r, prngReg c r)
  Y c := iprop(∃ r, prngReg c r)
  Z c := Pipeline.unscopedRest (Ix := Unit) (Name := ℕ) (U := UR sig nD τ) (Lvl := ℕ) spec2 c (tcAt (afterLin1 m) c)
  hentry c := by
    -- the region's arrays come out of the core's buffers at the contents its data start from; what is left of
    -- the buffers bypasses the region; the generator register goes to the invariant; nothing is owed
    rw [Pipeline.ownSems0_none]
    have hsplit := Pipeline.arrays_of_unscopedBufs (p := 2) (pcfgs (F := F)) adm (regionData m) launch2.win launch2.arr_whole c
      ((regionData m 2 c).share_full fun _ => rfl) (tcAt (afterLin1 m) c) fun _ => rfl
    rw [Pipeline.unscopedBufs_held] at hsplit
    iintro ⟨⟨Hbufs, Hgen, Hdue⟩, -, -⟩
    ihave Hparts := hsplit $$ Hbufs
    icases Hparts with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hbypass
  hin c := by
    -- what the launch hands over is the invariant of a region that keeps nothing; the fused region's invariant
    -- before its first point is entered from it
    refine (?_ : _ ⊢ (Pipeline.ΦA spec2 c : sProp 𝕄)).trans (hin2 (tcAt (afterLin1 m)) c)
    unfold Pipeline.ΦA
    iintro ⟨Hgen, -, Hscoped⟩
    isplitl [Hscoped]; · iexact Hscoped
    iexact Hgen
  hout c := by
    -- after the last point the accumulator's contents are forgotten: the invariant gives back what it was handed
    rw [Pipeline.ownSems0_none]
    refine (hout2 (tcAt (afterLin1 m)) c).trans ?_
    unfold Pipeline.ΦA
    iintro ⟨Hscoped, Hgen⟩
    isplitl [Hgen]; · iexact Hgen
    isplitr; · iempintro
    iexact Hscoped
  hexit c := by
    -- the arrays, at what the write-backs leave, go back among the bypassed buffers: together the core's buffers
    -- at the next boundary's contents
    have hjoin := Pipeline.unscopedBufs_of_arrays (p := 2) (pcfgs (F := F)) adm (Ix := Unit) (Name := ℕ) (U := UR sig nD τ) (Lvl := ℕ)
      launch2.win launch2.arr_whole c (regionData m) ((regionData m 2 c).share_full fun _ => rfl)
      (tcAt (afterLin1 m) c) (tcAt (afterFused m) c) ((regionData m 2 c).arrAt · cfg2.N) (exitArr2 m c) (exitRest2 m c)
    rw [Pipeline.unscopedBufs_held] at hjoin
    iintro ⟨Harr, Hdue, Hgen, Hbypass⟩
    imodintro
    isplitl [Harr Hbypass]
    · iapply hjoin; isplitl [Harr] <;> iassumption
    isplitl [Hgen]; · iexact Hgen
    unfold Pipeline.Dat.owesAt Pipeline.owesWithin
    icases Hdue with ⟨%W, -, Hdue⟩; iexists W; iexact Hdue

/-- The closing host operations as an item: over the unscoped buffers from what the fused region left, to the
    fold's end (the reshaped total, its reciprocal square root, that spread over the aggregate's shape, and the
    aggregate scaled by it each land in a buffer of their own). -/
abbrev closingHost : Pipeline.HostSeg (Name := ℕ) (U := UR sig nD τ) (pcfgs (F := F)) defs₀ noVariants noLevels levelZero :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (afterFused m) beside

/-- The program's four items in order. -/
abbrev items : List (Pipeline.Seg (pcfgs (F := F)) adm (regionData m) () defs₀ noVariants noLevels levelZero) :=
  [ .region (lin0Seg m), .region (lin1Seg m), .region (fusedSeg m), .host (closingHost m) ]

/-- The program is the run of its items. -/
theorem main_is_items (c : Dev nD) : main (F := F) c = Pipeline.Seg.run (items m) := (main_chain c).trans (by chain_rfl)

/-! ## The run -/

set_option backward.isDefEq.respectTransparency.types false in
/-- Every weakly fair execution terminates, faulting nowhere, with every buffer that outlives the regions at the
    contents the fold ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (regionData m) () cellOf_inj emb₁ defs₀ noVariants noLevels levelZero m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's element is the pipelines' own, and no core gets a ghost resource besides
      iintro Hcells; imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ beside c)) (Tₙ := endState m)
    (hch := ⟨fun _ => .rfl, fun _ => .rfl, fun _ => .rfl, fun _ => .rfl, fun c => by
      -- the host stretch leaves the buffers at the fold's end beside the register and the dues: the same three, regrouped
      show iprop(StableHlo.held (c : Thread nD τ) (Pipeline.ucRefs τ sig) (atEnd m c) ∗ beside c)
        ⊢ iprop(endState m c ∗ ∃ W, owes (c : Thread nD τ) (0 : CellTallies nD τ sig Unit) W)
      iintro ⟨Hbufs, Hgen, Hdue⟩
      isplitl [Hbufs Hgen]
      · isplitl [Hbufs] <;> iassumption
      iexact Hdue⟩)
    (hinit := by
      -- each core by itself: its unscoped buffers as launched, its generator register, nothing owed
      refine Pipeline.initEach noLevels levelZero fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hbufs, -, Hdue, -, Hgen, -⟩, -⟩
      imodintro
      isplitl [Hbufs]; · iexact Hbufs
      isplitl [Hgen]; · iexists _; iexact Hgen
      iexists ∅; iexact Hdue)
    (QY := fun c s => ∀ b ∈ Pipeline.ucRefs τ sig, s.mem (((c : Thread nD τ)).1, b) = atEnd m c b)
    (hfin := fun c s' => by
      -- the buffers held whole at the fold's end, read against a final state
      iintro ⟨⟨Hbufs, -⟩, Hstate⟩
      unfold StableHlo.held
      imodintro
      iapply (pointsTo_read_all (Pipeline.ucRefs τ sig) (fun b => (((c : Thread nD τ)).1, b)) (atEnd m c) s')
      isplitl [Hbufs] <;> iassumption)
    (hQ := fun _ h => h)

end Cert.Kernel.Hand

end
-- ==== Proof.KI.Lin0.lean ====
/-
  Region 0 of the program: the linear map of one 1024-row block.  At a grid point the body reads the point's
  1024 × 512 block of the feature matrix and the whole 512 × 512 weight matrix, multiplies them (both narrowed
  to the 16-bit format first, the product narrowed again) and stores the product as the point's block of the
  output.  Stated here at any contents `V` of the core's buffers when the region is entered: each window's block
  at a point, what the body leaves in each window's buffer, and that the body, run on those buffers, leaves them so.
-/
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of region 0 on core `c`: the arrays as the region finds them; after the body at point `t`
    the two inputs' buffers at their blocks and the output's at the narrowed product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay1 (iblk0 V c 0 t) (iblk0 V c 1 t) := by dsimp only [dat0]

end Cert.KernelIdeal.Hand

end
-- ==== Proof.KI.Lin1.lean ====
/-
  Region 1 of the program: the linear map of one 1024-row block.  At a grid point the body reads the point's
  1024 × 512 block of the feature matrix and the whole 512 × 512 weight matrix, multiplies them (both narrowed
  to the 16-bit format first, the product narrowed again) and stores the product as the point's block of the
  output.  Stated here at any contents `V` of the core's buffers when the region is entered: each window's block
  at a point, what the body leaves in each window's buffer, and that the body, run on those buffers, leaves them so.
-/
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`: the arrays as the region finds them; after the body at point `t`
    the two inputs' buffers at their blocks and the output's at the narrowed product of the two blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay1 (iblk1 V c 0 t) (iblk1 V c 1 t) := by dsimp only [dat1]

end Cert.KernelIdeal.Hand

end
-- ==== Proof.KI.FusedData.lean ====
/-
  Region 2 of the program, its data.  The grid is 8 × 8; point n has row-block i = n / 8 and column-block j = n % 8.
  At a point the body reads the i-th 1024-row block of the first projection, the j-th blocks of the second
  projection and of the second feature matrix, forms the rectified 1024 × 1024 interaction tile, adds the tile's
  sum of squares to a one-entry running total, and adds the tile times the feature block to a 1024 × 512
  accumulator it keeps in a scratch buffer.  The accumulator is cleared when j = 0, the running total when
  n = 0, and when j = 7 the accumulator is copied to the output block.
  `carried2 n` is the pair (accumulator, running total) after the body at point n, by recursion on n.
-/
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch buffer the accumulator lives in. -/
abbrev accM : Memref sig .tc .vmem S1024x512 .f32 := Memref.whole cc2_scratch0

/-- One step: from the accumulator and the running total the point starts from, what the body leaves. -/
def step2 (hi hj : Vec F S1024x512 .bf16) (fs : Vec F S1024x512 .f32) (acc0 : Vec F S1024x512 .f32) (tot0 : Vec F S1x1 .f32) :
    Vec F S1024x512 .f32 × Vec F S1x1 .f32 :=
  (k2_pay1 (k2_pay6 hi hj acc0 fs), k2_pay5 hi hj tot0)

/-- The accumulator and the running total after the body at point `n`: the accumulator restarts from zero at
    the points with j = 0, the total at the first point only. -/
def carried2 (c : Dev nD) : (n : ℕ) → n < cfg2.N → Vec F S1024x512 .f32 × Vec F S1x1 .f32
  | 0, hn => step2 (iblk2 V c 0 ⟨0, hn⟩) (iblk2 V c 1 ⟨0, hn⟩) (iblk2 V c 2 ⟨0, hn⟩) (k2_pay2 (F := F)) (k2_pay3 (F := F))
  | n + 1, hn =>
    step2 (iblk2 V c 0 ⟨n + 1, hn⟩) (iblk2 V c 1 ⟨n + 1, hn⟩) (iblk2 V c 2 ⟨n + 1, hn⟩)
      (if (n + 1) % 8 = 0 then k2_pay2 (F := F) else (carried2 c n (Nat.lt_of_succ_lt hn)).1)
      (carried2 c n (Nat.lt_of_succ_lt hn)).2

theorem carried2_zero (c : Dev nD) (hn : 0 < cfg2.N) :
    carried2 V c 0 hn = step2 (iblk2 V c 0 ⟨0, hn⟩) (iblk2 V c 1 ⟨0, hn⟩) (iblk2 V c 2 ⟨0, hn⟩) (k2_pay2 (F := F)) (k2_pay3 (F := F)) := rfl

theorem carried2_succ (c : Dev nD) (n : ℕ) (hn : n + 1 < cfg2.N) :
    carried2 V c (n + 1) hn = step2 (iblk2 V c 0 ⟨n + 1, hn⟩) (iblk2 V c 1 ⟨n + 1, hn⟩) (iblk2 V c 2 ⟨n + 1, hn⟩)
      (if (n + 1) % 8 = 0 then k2_pay2 (F := F) else (carried2 V c n (Nat.lt_of_succ_lt hn)).1)
      (carried2 V c n (Nat.lt_of_succ_lt hn)).2 := rfl

/-- The scoped buffers of the core that region 2 neither stages through nor uses as scratch, each at some contents. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region's invariant before position `n`: before the first point every scoped buffer that is no staging
    buffer at some contents and the generator register at some state; afterwards the same with the accumulator's
    buffer at what the point before left in it. -/
def PhiS2 (c : Dev nD) : (n : ℕ) → n ≤ cfg2.N → sProp 𝕄
  | 0, _ => Pipeline.ΦA spec2 c
  | n + 1, hn => iprop(others2 (F := F) c ∗ owns (c : Thread nD τ) accM fullShare (carried2 V c n hn).1 ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(others2 (F := F) c ∗ owns (c : Thread nD τ) accM fullShare (carried2 V c n hn).1 ∗ (∃ r, prngReg c r)) := rfl

theorem PhiS2_pos (c : Dev nD) (n : ℕ) (h : n ≤ cfg2.N) (hz : n ≠ 0) :
    PhiS2 V c n h = iprop(others2 (F := F) c ∗ owns (c : Thread nD τ) accM fullShare (carried2 V c (n - 1) (by omega)).1 ∗ (∃ r, prngReg c r)) := by
  cases n with
  | zero => exact absurd rfl hz
  | succ n => rfl

/-- The proof data of region 2 on core `c`: the arrays as the region finds them; after the body at point `t` each
    input's buffer at its block, the output block's buffer at the accumulator and the one-entry output's at the
    running total; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (carried2 V c t.val t.isLt).1
    | ⟨4, _⟩ => (carried2 V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (carried2 V c t.val t.isLt).1 := by dsimp only [dat2]
theorem after2_4 (c : Dev nD) (t : Fin cfg2.N) : (dat2 V c).after 4 t = (carried2 V c t.val t.isLt).2 := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

end Cert.KernelIdeal.Hand

end
-- ==== Proof.KI.Fold.lean ====
/-
  What the core's buffers hold between the items of the program, from the launch to the end.  Each of the three
  regions changes only its own arrays, leaving in them what its write-backs leave; the closing host operations
  change only the buffers they write.  So the contents at each boundary are a fold from the launch memory.
-/
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import proofs.«173617_j58308476010683_1_alg».proof.Proof.KI.Lin0
import proofs.«173617_j58308476010683_1_alg».proof.Proof.KI.Lin1
import proofs.«173617_j58308476010683_1_alg».proof.Proof.KI.FusedData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A boundary's contents read at the core's own references. -/
abbrev tcAt (W : Dev nD → Valuation τ sig (Elt F)) : (c : Dev nD) → (b : Ref sig .tc) → Buf (Elt F) ((c : Thread nD τ).loc b) :=
  fun c b => W c b

/-- The core's buffers at launch. -/
abbrev atLaunch : Dev nD → Valuation τ sig (Elt F) := fun c b => m (c, b)

/-- After region 0: its arrays at what its write-backs leave, every other buffer as at launch. -/
def afterLin0 (c : Dev nD) : Valuation τ sig (Elt F) :=
  Pipeline.withArrays spec0 c (atLaunch m c) fun w => (dat0 (tcAt (atLaunch m)) c).arrAt w cfg0.N
theorem afterLin0_arr (c : Dev nD) (w : Fin cfg0.W) :
    afterLin0 m c (Proc.devRef .tc (Pipeline.arrRef spec0 w)) = (dat0 (tcAt (atLaunch m)) c).arrAt w cfg0.N := by
  unfold afterLin0; exact Pipeline.withArrays_arr spec0 launch0.win.arr_inj c _ _ w
theorem afterLin0_of_ne (c : Dev nD) (b : Ref sig .tc) (hb : ∀ w, Pipeline.arrRef spec0 w ≠ b) :
    afterLin0 m c (Proc.devRef .tc b) = atLaunch m c (Proc.devRef .tc b) := by
  unfold afterLin0; exact Pipeline.withArrays_of_ne spec0 c _ _ b hb
theorem exitArr0 (c : Dev nD) (w : Fin cfg0.W) :
    (dat0 (tcAt (atLaunch m)) c).arrAt w cfg0.N = tcAt (afterLin0 m) c (Pipeline.arrRef spec0 w) := (afterLin0_arr m c w).symm
theorem exitRest0 (c : Dev nD) : ∀ b, b ∉ Finset.univ.image (Pipeline.arrRef spec0) → tcAt (afterLin0 m) c b = tcAt (atLaunch m) c b :=
  fun b hb => afterLin0_of_ne m c b fun w e => hb (Finset.mem_image.mpr ⟨w, Finset.mem_univ _, e⟩)

/-- After region 1. -/
def afterLin1 (c : Dev nD) : Valuation τ sig (Elt F) :=
  Pipeline.withArrays spec1 c (afterLin0 m c) fun w => (dat1 (tcAt (afterLin0 m)) c).arrAt w cfg1.N
theorem afterLin1_arr (c : Dev nD) (w : Fin cfg1.W) :
    afterLin1 m c (Proc.devRef .tc (Pipeline.arrRef spec1 w)) = (dat1 (tcAt (afterLin0 m)) c).arrAt w cfg1.N := by
  unfold afterLin1; exact Pipeline.withArrays_arr spec1 launch1.win.arr_inj c _ _ w
theorem afterLin1_of_ne (c : Dev nD) (b : Ref sig .tc) (hb : ∀ w, Pipeline.arrRef spec1 w ≠ b) :
    afterLin1 m c (Proc.devRef .tc b) = afterLin0 m c (Proc.devRef .tc b) := by
  unfold afterLin1; exact Pipeline.withArrays_of_ne spec1 c _ _ b hb
theorem exitArr1 (c : Dev nD) (w : Fin cfg1.W) :
    (dat1 (tcAt (afterLin0 m)) c).arrAt w cfg1.N = tcAt (afterLin1 m) c (Pipeline.arrRef spec1 w) := (afterLin1_arr m c w).symm
theorem exitRest1 (c : Dev nD) : ∀ b, b ∉ Finset.univ.image (Pipeline.arrRef spec1) → tcAt (afterLin1 m) c b = tcAt (afterLin0 m) c b :=
  fun b hb => afterLin1_of_ne m c b fun w e => hb (Finset.mem_image.mpr ⟨w, Finset.mem_univ _, e⟩)

/-- After region 2. -/
def afterFused (c : Dev nD) : Valuation τ sig (Elt F) :=
  Pipeline.withArrays spec2 c (afterLin1 m c) fun w => (dat2 (tcAt (afterLin1 m)) c).arrAt w cfg2.N
theorem afterFused_arr (c : Dev nD) (w : Fin cfg2.W) :
    afterFused m c (Proc.devRef .tc (Pipeline.arrRef spec2 w)) = (dat2 (tcAt (afterLin1 m)) c).arrAt w cfg2.N := by
  unfold afterFused; exact Pipeline.withArrays_arr spec2 launch2.win.arr_inj c _ _ w
theorem afterFused_of_ne (c : Dev nD) (b : Ref sig .tc) (hb : ∀ w, Pipeline.arrRef spec2 w ≠ b) :
    afterFused m c (Proc.devRef .tc b) = afterLin1 m c (Proc.devRef .tc b) := by
  unfold afterFused; exact Pipeline.withArrays_of_ne spec2 c _ _ b hb
theorem exitArr2 (c : Dev nD) (w : Fin cfg2.W) :
    (dat2 (tcAt (afterLin1 m)) c).arrAt w cfg2.N = tcAt (afterFused m) c (Pipeline.arrRef spec2 w) := (afterFused_arr m c w).symm
theorem exitRest2 (c : Dev nD) : ∀ b, b ∉ Finset.univ.image (Pipeline.arrRef spec2) → tcAt (afterFused m) c b = tcAt (afterLin1 m) c b :=
  fun b hb => afterFused_of_ne m c b fun w e => hb (Finset.mem_image.mpr ⟨w, Finset.mem_univ _, e⟩)

/-- After the closing host operations: the end of the program. -/
abbrev atEnd : Dev nD → Valuation τ sig (Elt F) := fun c => StableHlo.after hostOps3 (afterFused m c)

end Cert.KernelIdeal.Hand

end
-- ==== Proof.KI.Lin0Body.lean ====
/-
  Region 0 of the program, the body's obligation: at every grid point the two inputs' buffers hold their blocks
  (the feature block fetched afresh, the weight matrix fetched once and kept), and the body, run on those buffers,
  leaves the inputs as they were and the output's buffer at the narrowed product of the narrowed inputs.
-/
import proofs.«173617_j58308476010683_1_alg».proof.Proof.KI.Lin0
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two input buffers hold when the body is called -/

/-- The feature block's buffer holds the point's block of the feature matrix: it is fetched afresh at every point. -/
theorem before0_0 (c : Dev nD) (t : Fin cfg0.N) (d) : (dat0 V c).before 0 t d = iblk0 V c 0 t := by
  have hkeep : ∀ t', (cfg0.win 0).cut (cfg0.grid.coords t') ((dat0 V c).after 0 t') = (dat0 V c).blockOf 0 t' := by
    intro t'
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The weight's buffer holds the whole weight matrix at every point: it is fetched at the first point only, and
    at the later ones its block index has not moved, so the buffer still holds what was fetched then. -/
theorem before0_1 (c : Dev nD) (t : Fin cfg0.N) (d) : (dat0 V c).before 1 t d = iblk0 V c 1 t := by
  have hkeep : ∀ t', (cfg0.win 1).cut (cfg0.grid.coords t') ((dat0 V c).after 1 t') = (dat0 V c).blockOf 1 t' := by
    intro t'
    rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The body on whole buffers -/

/-- The offsets of every access of the body, all zero. -/
theorem offsets_zero0 : (![0, 0] : Fin 2 → Nat) = fun _ => 0 := funext fun a => by fin_cases a <;> rfl

/-- The product's store is through the whole rectangle of its buffer, so it alone covers the buffer. -/
theorem store_covers0 (p : Vec F S1024x512 .bf16) (y : S1024x512.Idx) :
    ∃ pc ∈ ([⟨Rect.unit (s := S1024x512) ![0, 0] S1024x512.size inb_S1024x512_S1024x512_0_0, p⟩] :
        List (View.Piece (Elt F) S1024x512 .bf16)), y ∈ pc.1.set :=
  ⟨_, List.mem_singleton_self _, View.mem_set_unit_zero offsets_zero0 inb_S1024x512_S1024x512_0_0 y⟩

set_option maxHeartbeats 1000000 in
/-- The body on three whole buffers, the feature block's reading `x0`, the weight's reading `x1`, the product's
    holding anything: it reads both inputs whole, and overwrites the product's buffer whole with the narrowed
    product of the narrowed inputs; the inputs' buffers are left as they were. -/
theorem sound_kernel0 (c : Dev nD) (E : Set ℕ) (i : grid0.Coords)
    (arg1 : Memref sig .tc .vmem S1024x512 .f32) (harg1 : arg1.IsWhole)
    (arg2 : Memref sig .tc .vmem S512x512 .f32) (harg2 : arg2.IsWhole)
    (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__lin_kernel i arg1 harg1 arg2 harg2 arg3 harg3) K := by
  simp only [cc0__lin_kernel_eq_skeleton]; unfold cc0__lin_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  -- the one store covers the whole buffer, so the buffer reads as its payload; each load read its whole buffer
  rw [View.read_writes_eq_canon _ _ _ (store_covers0 _), View.canon_unit_zero offsets_zero0]
  simp only [View.readAt_eq_ld, View.ld_unit_zero (S := S1024x512) offsets_zero0,
    View.ld_unit_zero (S := S512x512) offsets_zero0]

/-! ## The body at a grid point -/

/-- What the body is handed at point `t`: the region's invariant, the core's debts, and the current buffer of each
    of the three windows at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, and each buffer at what `dat0` says the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two inputs' buffers hold their blocks, so the body's triple on whole buffers applies at those
    blocks; the invariant and the debts are not touched by the body and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body, at every point, takes the buffers from what they hold before it to what `dat0` says they hold after it. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.Lin1Body.lean ====
/-
  Region 1 of the program, the body's obligation: at every grid point the two inputs' buffers hold their blocks
  (the feature block fetched afresh, the weight matrix fetched once and kept), and the body, run on those buffers,
  leaves the inputs as they were and the output's buffer at the narrowed product of the narrowed inputs.
-/
import proofs.«173617_j58308476010683_1_alg».proof.Proof.KI.Lin1
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two input buffers hold when the body is called -/

/-- The feature block's buffer holds the point's block of the feature matrix: it is fetched afresh at every point. -/
theorem before1_0 (c : Dev nD) (t : Fin cfg1.N) (d) : (dat1 V c).before 0 t d = iblk1 V c 0 t := by
  have hkeep : ∀ t', (cfg1.win 0).cut (cfg1.grid.coords t') ((dat1 V c).after 0 t') = (dat1 V c).blockOf 0 t' := by
    intro t'
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The weight's buffer holds the whole weight matrix at every point: it is fetched at the first point only, and
    at the later ones its block index has not moved, so the buffer still holds what was fetched then. -/
theorem before1_1 (c : Dev nD) (t : Fin cfg1.N) (d) : (dat1 V c).before 1 t d = iblk1 V c 1 t := by
  have hkeep : ∀ t', (cfg1.win 1).cut (cfg1.grid.coords t') ((dat1 V c).after 1 t') = (dat1 V c).blockOf 1 t' := by
    intro t'
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-! ## The body on whole buffers -/

/-- The offsets of every access of the body, all zero. -/
theorem offsets_zero1 : (![0, 0] : Fin 2 → Nat) = fun _ => 0 := funext fun a => by fin_cases a <;> rfl

/-- The product's store is through the whole rectangle of its buffer, so it alone covers the buffer. -/
theorem store_covers1 (p : Vec F S1024x512 .bf16) (y : S1024x512.Idx) :
    ∃ pc ∈ ([⟨Rect.unit (s := S1024x512) ![0, 0] S1024x512.size inb_S1024x512_S1024x512_0_0, p⟩] :
        List (View.Piece (Elt F) S1024x512 .bf16)), y ∈ pc.1.set :=
  ⟨_, List.mem_singleton_self _, View.mem_set_unit_zero offsets_zero1 inb_S1024x512_S1024x512_0_0 y⟩

set_option maxHeartbeats 1000000 in
/-- The body on three whole buffers, the feature block's reading `x0`, the weight's reading `x1`, the product's
    holding anything: it reads both inputs whole, and overwrites the product's buffer whole with the narrowed
    product of the narrowed inputs; the inputs' buffers are left as they were. -/
theorem sound_kernel1 (c : Dev nD) (E : Set ℕ) (i : grid1.Coords)
    (arg1 : Memref sig .tc .vmem S1024x512 .f32) (harg1 : arg1.IsWhole)
    (arg2 : Memref sig .tc .vmem S512x512 .f32) (harg2 : arg2.IsWhole)
    (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__lin_kernel i arg1 harg1 arg2 harg2 arg3 harg3) K := by
  simp only [cc1__lin_kernel_eq_skeleton]; unfold cc1__lin_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  -- the one store covers the whole buffer, so the buffer reads as its payload; each load read its whole buffer
  rw [View.read_writes_eq_canon _ _ _ (store_covers1 _), View.canon_unit_zero offsets_zero1]
  simp only [View.readAt_eq_ld, View.ld_unit_zero (S := S1024x512) offsets_zero1,
    View.ld_unit_zero (S := S512x512) offsets_zero1]

/-! ## The body at a grid point -/

/-- What the body is handed at point `t`: the region's invariant, the core's debts, and the current buffer of each
    of the three windows at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and debts, and each buffer at what `dat1` says the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At any point the two inputs' buffers hold their blocks, so the body's triple on whole buffers applies at those
    blocks; the invariant and the debts are not touched by the body and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body, at every point, takes the buffers from what they hold before it to what `dat1` says they hold after it. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.FusedRuns.lean ====
/-
  Region 2 of the program, its body on whole buffers, in each of the four control cases.  The body is handed the
  two projection blocks `hi`, `hj`, the feature block `fs`, the output block's buffer at `raw0`, the running
  total's at `tot0` and the accumulator's at `acc0`.  It leaves the inputs as they were, the running total at
  the total it started from plus the tile's sum of squares, the accumulator at what it started from plus the tile
  times the feature block; the accumulator starts from zero when j = 0 and from `acc0` otherwise, the total from
  zero at the first point and from `tot0` otherwise; the output block's buffer is left as it was, except when
  j = 7, where it receives the new accumulator.
-/
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import proofs.«173617_j58308476010683_1_alg».proof.Proof.KI.FusedData
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three branch conditions, in closed form over the grid -/

/-- The accumulator is cleared: column block j = 0. -/
abbrev condJ0 (i : grid2.Coords) : Prop := (Scalar.cmpi .ne (Scalar.extui (Scalar.cmpi .eq (BitVec.ofNat 32 (i 1).val) 0#32)) 0#32) = 1#1
/-- The running total is cleared: the first point. -/
abbrev condFirst (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The accumulator is copied to the output block: column block j = 7. -/
abbrev condJ7 (i : grid2.Coords) : Prop := k2_cond3 i = 1#1

theorem hcondJ0 : ∀ t : Fin cfg2.N, condJ0 (grid2.coords t) ↔ t.val % 8 = 0 :=
  (by decide +kernel : ∀ t : Fin grid2.N, condJ0 (grid2.coords t) ↔ t.val % 8 = 0)
theorem hcondFirst : ∀ t : Fin cfg2.N, condFirst (grid2.coords t) ↔ t.val = 0 :=
  (by decide +kernel : ∀ t : Fin grid2.N, condFirst (grid2.coords t) ↔ t.val = 0)
theorem hcondJ7 : ∀ t : Fin cfg2.N, condJ7 (grid2.coords t) ↔ t.val % 8 = 7 :=
  (by decide +kernel : ∀ t : Fin grid2.N, condJ7 (grid2.coords t) ↔ t.val % 8 = 7)

/-! ## The body on whole buffers, case by case -/

/-- The offsets of every access of the body, all zero. -/
theorem offs2 : (![0, 0] : Fin 2 → Nat) = fun _ => 0 := funext fun a => by fin_cases a <;> rfl

/-- A store through the whole rectangle of a 1024 × 512 buffer covers it. -/
theorem covBig (L : List (View.Piece (Elt F) S1024x512 .f32)) (p : Vec F S1024x512 .f32) (y : S1024x512.Idx) :
    ∃ pc ∈ (⟨Rect.unit (s := S1024x512) ![0, 0] S1024x512.size inb_S1024x512_S1024x512_0_0, p⟩ :: L :
        List (View.Piece (Elt F) S1024x512 .f32)), y ∈ pc.1.set :=
  ⟨_, List.mem_cons_self, View.mem_set_unit_zero offs2 inb_S1024x512_S1024x512_0_0 y⟩

/-- A store through the whole rectangle of the one-entry buffer covers it. -/
theorem covOne (L : List (View.Piece (Elt F) S1x1 .f32)) (p : Vec F S1x1 .f32) (y : S1x1.Idx) :
    ∃ pc ∈ (⟨Rect.unit (s := S1x1) ![0, 0] S1x1.size inb_S1x1_S1x1_0_0, p⟩ :: L :
        List (View.Piece (Elt F) S1x1 .f32)), y ∈ pc.1.set :=
  ⟨_, List.mem_cons_self, View.mem_set_unit_zero offs2 inb_S1x1_S1x1_0_0 y⟩

set_option maxHeartbeats 4000000 in
/-- The first point: j = 0 and i = 0, both the accumulator and the running total start from zero. -/
theorem run_first (c : Dev nD) (E : Set ℕ) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1x1 .f32) (harg6 : arg6.IsWhole) (arg7 : Memref sig .tc .vmem S1024x512 .f32) (harg7 : arg7.IsWhole)
    (hc1 : condJ0 i) (hc2 : condFirst i) (hc3 : ¬condJ7 i)
    (hi hj : Vec F S1024x512 .bf16) (fs raw0 acc0 : Vec F S1024x512 .f32) (tot0 : Vec F S1x1 .f32) (K : PUnit → sProp 𝕄) :
    iprop(owns (c : Thread nD τ) arg2 fullShare hi ∗ owns (c : Thread nD τ) arg3 fullShare hj ∗ owns (c : Thread nD τ) arg4 fullShare fs
        ∗ owns (c : Thread nD τ) arg5 fullShare raw0 ∗ owns (c : Thread nD τ) arg6 fullShare tot0 ∗ owns (c : Thread nD τ) arg7 fullShare acc0
        ∗ (iprop(owns (c : Thread nD τ) arg2 fullShare hi ∗ owns (c : Thread nD τ) arg3 fullShare hj ∗ owns (c : Thread nD τ) arg4 fullShare fs
            ∗ owns (c : Thread nD τ) arg5 fullShare raw0 ∗ owns (c : Thread nD τ) arg6 fullShare (step2 hi hj fs (k2_pay2 (F := F)) (k2_pay3 (F := F))).2
            ∗ owns (c : Thread nD τ) arg7 fullShare (step2 hi hj fs (k2_pay2 (F := F)) (k2_pay3 (F := F))).1) -∗ K ⟨⟩))
      ⊢ wp frame (wpE (defs₀ (F := F)) Variants.none c none) E (cc2__fused_kernel i arg2 harg2 arg3 harg3 arg4 harg4 arg5 harg5 arg6 harg6 arg7 harg7) K := by
  simp only [cc2__fused_kernel_eq_skeleton]; unfold cc2__fused_kernel_skel
  simp only [k2_part1_eq_skeleton]; unfold k2_part1_skel
  unfold owns step2
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc1 | exact hc2 | exact hc3)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists _; isplitr
    swap
    · iexact H6
    ipureintro
    sl_unfold_words
    rw [View.read_writes_eq_canon _ _ _ (covOne _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  iexists _; isplitr
  swap
  · iexact H7
  ipureintro
  sl_unfold_words
  rw [View.read_writes_eq_canon _ _ _ (covBig _ _), View.canon_cons_unit_zero offs2]
  simp only [View.readAt_eq_ld, View.ld_unit_zero (S := S1024x512) offs2, View.ld_unit_zero (S := S1x1) offs2,
    View.readCov_unit_zero (S := S1x1) _ offs2, View.readCov_unit_zero (S := S1024x512) _ offs2]

set_option maxHeartbeats 4000000 in
/-- A later point with j = 0: the accumulator starts from zero, the running total goes on. -/
theorem run_j0 (c : Dev nD) (E : Set ℕ) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1x1 .f32) (harg6 : arg6.IsWhole) (arg7 : Memref sig .tc .vmem S1024x512 .f32) (harg7 : arg7.IsWhole)
    (hc1 : condJ0 i) (hc2 : ¬condFirst i) (hc3 : ¬condJ7 i)
    (hi hj : Vec F S1024x512 .bf16) (fs raw0 acc0 : Vec F S1024x512 .f32) (tot0 : Vec F S1x1 .f32) (K : PUnit → sProp 𝕄) :
    iprop(owns (c : Thread nD τ) arg2 fullShare hi ∗ owns (c : Thread nD τ) arg3 fullShare hj ∗ owns (c : Thread nD τ) arg4 fullShare fs
        ∗ owns (c : Thread nD τ) arg5 fullShare raw0 ∗ owns (c : Thread nD τ) arg6 fullShare tot0 ∗ owns (c : Thread nD τ) arg7 fullShare acc0
        ∗ (iprop(owns (c : Thread nD τ) arg2 fullShare hi ∗ owns (c : Thread nD τ) arg3 fullShare hj ∗ owns (c : Thread nD τ) arg4 fullShare fs
            ∗ owns (c : Thread nD τ) arg5 fullShare raw0 ∗ owns (c : Thread nD τ) arg6 fullShare (step2 hi hj fs (k2_pay2 (F := F)) tot0).2
            ∗ owns (c : Thread nD τ) arg7 fullShare (step2 hi hj fs (k2_pay2 (F := F)) tot0).1) -∗ K ⟨⟩))
      ⊢ wp frame (wpE (defs₀ (F := F)) Variants.none c none) E (cc2__fused_kernel i arg2 harg2 arg3 harg3 arg4 harg4 arg5 harg5 arg6 harg6 arg7 harg7) K := by
  simp only [cc2__fused_kernel_eq_skeleton]; unfold cc2__fused_kernel_skel
  simp only [k2_part1_eq_skeleton]; unfold k2_part1_skel
  unfold owns step2
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc1 | exact hc2 | exact hc3)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists _; isplitr
    swap
    · iexact H6
    ipureintro
    sl_unfold_words
    rw [View.read_writes_eq_canon _ _ _ (covOne _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  iexists _; isplitr
  swap
  · iexact H7
  ipureintro
  sl_unfold_words
  rw [View.read_writes_eq_canon _ _ _ (covBig _ _), View.canon_cons_unit_zero offs2]
  simp only [View.readAt_eq_ld, View.ld_unit_zero (S := S1024x512) offs2, View.ld_unit_zero (S := S1x1) offs2,
    View.readCov_unit_zero (S := S1x1) _ offs2, View.readCov_unit_zero (S := S1024x512) _ offs2]

set_option maxHeartbeats 4000000 in
/-- A point with 0 < j < 7: both go on, nothing is copied. -/
theorem run_mid (c : Dev nD) (E : Set ℕ) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1x1 .f32) (harg6 : arg6.IsWhole) (arg7 : Memref sig .tc .vmem S1024x512 .f32) (harg7 : arg7.IsWhole)
    (hc1 : ¬condJ0 i) (hc2 : ¬condFirst i) (hc3 : ¬condJ7 i)
    (hi hj : Vec F S1024x512 .bf16) (fs raw0 acc0 : Vec F S1024x512 .f32) (tot0 : Vec F S1x1 .f32) (K : PUnit → sProp 𝕄) :
    iprop(owns (c : Thread nD τ) arg2 fullShare hi ∗ owns (c : Thread nD τ) arg3 fullShare hj ∗ owns (c : Thread nD τ) arg4 fullShare fs
        ∗ owns (c : Thread nD τ) arg5 fullShare raw0 ∗ owns (c : Thread nD τ) arg6 fullShare tot0 ∗ owns (c : Thread nD τ) arg7 fullShare acc0
        ∗ (iprop(owns (c : Thread nD τ) arg2 fullShare hi ∗ owns (c : Thread nD τ) arg3 fullShare hj ∗ owns (c : Thread nD τ) arg4 fullShare fs
            ∗ owns (c : Thread nD τ) arg5 fullShare raw0 ∗ owns (c : Thread nD τ) arg6 fullShare (step2 hi hj fs acc0 tot0).2
            ∗ owns (c : Thread nD τ) arg7 fullShare (step2 hi hj fs acc0 tot0).1) -∗ K ⟨⟩))
      ⊢ wp frame (wpE (defs₀ (F := F)) Variants.none c none) E (cc2__fused_kernel i arg2 harg2 arg3 harg3 arg4 harg4 arg5 harg5 arg6 harg6 arg7 harg7) K := by
  simp only [cc2__fused_kernel_eq_skeleton]; unfold cc2__fused_kernel_skel
  simp only [k2_part1_eq_skeleton]; unfold k2_part1_skel
  unfold owns step2
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc1 | exact hc2 | exact hc3)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists _; isplitr
    swap
    · iexact H6
    ipureintro
    sl_unfold_words
    rw [View.read_writes_eq_canon _ _ _ (covOne _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  iexists _; isplitr
  swap
  · iexact H7
  ipureintro
  sl_unfold_words
  rw [View.read_writes_eq_canon _ _ _ (covBig _ _), View.canon_cons_unit_zero offs2]
  simp only [View.readAt_eq_ld, View.ld_unit_zero (S := S1024x512) offs2, View.ld_unit_zero (S := S1x1) offs2,
    View.readCov_unit_zero (S := S1x1) _ offs2, View.readCov_unit_zero (S := S1024x512) _ offs2]

set_option maxHeartbeats 4000000 in
/-- A point with j = 7: both go on, and the new accumulator is copied to the output block's buffer. -/
theorem run_j7 (c : Dev nD) (E : Set ℕ) (i : grid2.Coords)
    (arg2 : Memref sig .tc .vmem S1024x512 .bf16) (harg2 : arg2.IsWhole) (arg3 : Memref sig .tc .vmem S1024x512 .bf16) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S1x1 .f32) (harg6 : arg6.IsWhole) (arg7 : Memref sig .tc .vmem S1024x512 .f32) (harg7 : arg7.IsWhole)
    (hc1 : ¬condJ0 i) (hc2 : ¬condFirst i) (hc3 : condJ7 i)
    (hi hj : Vec F S1024x512 .bf16) (fs raw0 acc0 : Vec F S1024x512 .f32) (tot0 : Vec F S1x1 .f32) (K : PUnit → sProp 𝕄) :
    iprop(owns (c : Thread nD τ) arg2 fullShare hi ∗ owns (c : Thread nD τ) arg3 fullShare hj ∗ owns (c : Thread nD τ) arg4 fullShare fs
        ∗ owns (c : Thread nD τ) arg5 fullShare raw0 ∗ owns (c : Thread nD τ) arg6 fullShare tot0 ∗ owns (c : Thread nD τ) arg7 fullShare acc0
        ∗ (iprop(owns (c : Thread nD τ) arg2 fullShare hi ∗ owns (c : Thread nD τ) arg3 fullShare hj ∗ owns (c : Thread nD τ) arg4 fullShare fs
            ∗ owns (c : Thread nD τ) arg5 fullShare (step2 hi hj fs acc0 tot0).1 ∗ owns (c : Thread nD τ) arg6 fullShare (step2 hi hj fs acc0 tot0).2
            ∗ owns (c : Thread nD τ) arg7 fullShare (step2 hi hj fs acc0 tot0).1) -∗ K ⟨⟩))
      ⊢ wp frame (wpE (defs₀ (F := F)) Variants.none c none) E (cc2__fused_kernel i arg2 harg2 arg3 harg3 arg4 harg4 arg5 harg5 arg6 harg6 arg7 harg7) K := by
  simp only [cc2__fused_kernel_eq_skeleton]; unfold cc2__fused_kernel_skel
  simp only [k2_part1_eq_skeleton]; unfold k2_part1_skel
  unfold owns step2
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2; subst hf3; subst hf4; subst hf5; subst hf6; subst hf7
  sl_exec (disch := first | exact hc1 | exact hc2 | exact hc3)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists _; isplitr
    swap
    · iexact H5
    ipureintro
    sl_unfold_words
    rw [View.read_writes_eq_canon _ _ _ (covBig _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  isplitl [H6]
  · iexists _; isplitr
    swap
    · iexact H6
    ipureintro
    sl_unfold_words
    rw [View.read_writes_eq_canon _ _ _ (covOne _ _), View.canon_cons_unit_zero offs2]
    simp only [View.readAt_eq_ld, View.ld_unit_zero (S := S1024x512) offs2, View.ld_unit_zero (S := S1x1) offs2,
      View.readCov_unit_zero (S := S1x1) _ offs2, View.readCov_unit_zero (S := S1024x512) _ offs2]
  iexists _; isplitr
  swap
  · iexact H7
  ipureintro
  sl_unfold_words
  rw [View.read_writes_eq_canon _ _ _ (covBig _ _), View.canon_cons_unit_zero offs2]
  simp only [View.readAt_eq_ld, View.ld_unit_zero (S := S1024x512) offs2, View.ld_unit_zero (S := S1x1) offs2,
    View.readCov_unit_zero (S := S1x1) _ offs2, View.readCov_unit_zero (S := S1024x512) _ offs2]

end Cert.KernelIdeal.Hand

end
-- ==== Proof.KI.FusedBefore.lean ====
/-
  Region 2 of the program, what the body finds.  At every grid point the three inputs' buffers hold their blocks;
  the running total's buffer holds anything at the first point and afterwards the total the point before left (it
  is written back after the last point only); the output block's window is idle, and not written back, wherever
  the accumulator is not copied out.  The accumulator and the total after a point, by the point's control case,
  as one step from what the point before left.  And the launch's invariant with the accumulator's buffer named
  apart from the other scoped buffers.
-/
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import proofs.«173617_j58308476010683_1_alg».proof.Proof.KI.FusedRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the three input buffers hold when the body is called -/

/-- The first projection's buffer holds the point's row block: it is fetched when the row block changes (j = 0)
    and kept in between, where its block index does not move. -/
theorem before2_0 (c : Dev nD) (t : Fin cfg2.N) (d) : (dat2 V c).before 0 t d = iblk2 V c 0 t := by
  have hkeep : ∀ t', (cfg2.win 0).cut (cfg2.grid.coords t') ((dat2 V c).after 0 t') = (dat2 V c).blockOf 0 t' := by
    intro t'
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

/-- The second projection's buffer holds the point's column block, fetched afresh at every point. -/
theorem before2_1 (c : Dev nD) (t : Fin cfg2.N) (d) : (dat2 V c).before 1 t d = iblk2 V c 1 t := by
  have hkeep : ∀ t', (cfg2.win 1).cut (cfg2.grid.coords t') ((dat2 V c).after 1 t') = (dat2 V c).blockOf 1 t' := by
    intro t'
    rw [after2_1]; unfold Dat.blockOf iblk2; rw [A_eq2]; try rfl
  rw [(dat2 V c).before_in_eq_fetched 1 rfl (fun _ => rfl) (fun _ _ _ => rfl) hkeep t d]
  unfold Dat.fetched Dat.blockOf iblk2; rw [A_eq2]; try rfl

/-- The feature matrix's buffer holds the point's column block, fetched afresh at every point. -/
theorem before2_2 (c : Dev nD) (t : Fin cfg2.N) (d) : (dat2 V c).before 2 t d = iblk2 V c 2 t := by
  have hkeep : ∀ t', (cfg2.win 2).cut (cfg2.grid.coords t') ((dat2 V c).after 2 t') = (dat2 V c).blockOf 2 t' := by
    intro t'
    rw [after2_2]; unfold Dat.blockOf iblk2; rw [A_eq2]; try rfl
  rw [(dat2 V c).before_in_eq_fetched 2 rfl (fun _ => rfl) (fun _ _ _ => rfl) hkeep t d]
  unfold Dat.fetched Dat.blockOf iblk2; rw [A_eq2]; try rfl

/-! ## What the running total's buffer holds when the body is called -/

/-- At the first point the running total's buffer holds anything. -/
theorem before2_4_first (c : Dev nD) (t : Fin cfg2.N) (h : t.val = 0) (d) : (dat2 V c).before 4 t d = d :=
  (dat2 V c).before_out_reset 4 rfl t (.inl h) d

/-- At a later point it holds the total the point before left: it is written back after the last point only. -/
theorem before2_4_later (c : Dev nD) (t : Fin cfg2.N) (h : t.val ≠ 0) (d) :
    (dat2 V c).before 4 t d = (carried2 V c (t.val - 1) (Nat.lt_of_le_of_lt (Nat.sub_le _ _) t.isLt)).2 := by
  have hN : t.val < 64 := lt_of_lt_of_eq t.isLt (show cfg2.N = 64 from N_2)
  have hfl : (cfg2.win 4).flush ⟨t.val - 1, Nat.lt_of_le_of_lt (Nat.sub_le _ _) t.isLt⟩ = false := by
    rw [Bool.eq_false_iff]
    intro hf
    have := (flush2_4 _).mp hf
    dsimp only at this
    omega
  rw [(dat2 V c).before_out_kept 4 rfl t h hfl (fun _ => rfl) (fun _ _ => rfl) d, after2_4]

/-! ## The accumulator and the total after a point, by the point's control case -/

/-- After the first point: one step from zero and zero. -/
theorem carried2_first (c : Dev nD) (t : Fin cfg2.N) (h : t.val = 0) :
    carried2 V c t.val t.isLt
      = step2 (iblk2 V c 0 t) (iblk2 V c 1 t) (iblk2 V c 2 t) (k2_pay2 (F := F)) (k2_pay3 (F := F)) := by
  obtain ⟨n, hn⟩ := t
  cases n with
  | zero => rfl
  | succ n => exact absurd h (Nat.succ_ne_zero n)

/-- After a later point with j = 0: one step from a zero accumulator and the total of the point before. -/
theorem carried2_restart (c : Dev nD) (t : Fin cfg2.N) (h0 : t.val ≠ 0) (h : t.val % 8 = 0) :
    carried2 V c t.val t.isLt
      = step2 (iblk2 V c 0 t) (iblk2 V c 1 t) (iblk2 V c 2 t) (k2_pay2 (F := F))
          (carried2 V c (t.val - 1) (Nat.lt_of_le_of_lt (Nat.sub_le _ _) t.isLt)).2 := by
  obtain ⟨n, hn⟩ := t
  cases n with
  | zero => exact absurd rfl h0
  | succ n => exact (carried2_succ V c n hn).trans (by rw [if_pos h]; rfl)

/-- After a point with j ≠ 0: one step from the accumulator and the total of the point before. -/
theorem carried2_goOn (c : Dev nD) (t : Fin cfg2.N) (h : t.val % 8 ≠ 0) :
    carried2 V c t.val t.isLt
      = step2 (iblk2 V c 0 t) (iblk2 V c 1 t) (iblk2 V c 2 t)
          (carried2 V c (t.val - 1) (Nat.lt_of_le_of_lt (Nat.sub_le _ _) t.isLt)).1
          (carried2 V c (t.val - 1) (Nat.lt_of_le_of_lt (Nat.sub_le _ _) t.isLt)).2 := by
  obtain ⟨n, hn⟩ := t
  cases n with
  | zero => exact absurd (Nat.zero_mod 8) h
  | succ n => exact (carried2_succ V c n hn).trans (by rw [if_neg h]; rfl)

/-! ## The output block's window: idle where nothing is copied -/

/-- Where the accumulator is not copied out, the output block's window is idle. -/
theorem idle2_3_of (i : grid2.Coords) (h : ¬condJ7 i) : cfg2.idle 3 i = true := by
  show (!(k2_cond3 i == 1#1)) = true
  rw [Bool.not_eq_true', beq_eq_false_iff_ne]
  exact h

/-- Where it is copied out, the window is live. -/
theorem live2_3_of (i : grid2.Coords) (h : condJ7 i) : cfg2.idle 3 i = false := by
  show (!(k2_cond3 i == 1#1)) = false
  rw [Bool.not_eq_false', beq_iff_eq]
  exact h

/-- Away from j = 7 the output block is not written back. -/
theorem noFlush2_3 (t : Fin cfg2.N) (h : t.val % 8 ≠ 7) : (cfg2.win 3).flush t = false := by
  rw [Bool.eq_false_iff]
  exact fun hf => h ((flush2_3 t).mp hf)

/-! ## The launch's invariant, with the accumulator's buffer named -/

/-- The scoped buffers outside the region's staging, split into the accumulator's buffer and the others. -/
theorem scoped2_split (c : Dev nD) :
    (Pipeline.scopedRest (Ix := Unit) (Name := ℕ) (U := UR sig nD τ) (Lvl := ℕ) (Val := Elt F) spec2 c : sProp 𝕄)
      ⊢ iprop(others2 (F := F) c ∗ (∃ d, owns (c : Thread nD τ) accM fullShare d)) := by
  rw [scopedRest2_eq]; unfold others2; simp only [accM, owns_whole]
  iintro ⟨A1, A2, A3, A4, A5, A6, A7, A8, A9, A10, ⟨%f, HS⟩⟩
  isplitr [HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  iexists f
  iexact HS

/-- And put together again. -/
theorem scoped2_join (c : Dev nD) :
    iprop(others2 (F := F) c ∗ (∃ d, owns (c : Thread nD τ) accM fullShare d))
      ⊢ (Pipeline.scopedRest (Ix := Unit) (Name := ℕ) (U := UR sig nD τ) (Lvl := ℕ) (Val := Elt F) spec2 c : sProp 𝕄) := by
  rw [scopedRest2_eq]; unfold others2; simp only [accM, owns_whole]
  iintro ⟨⟨A1, A2, A3, A4, A5, A6, A7, A8, A9, A10⟩, ⟨%f, HS⟩⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexists f
  iexact HS

/-- What the launch hands the region: the other scoped buffers, the accumulator's at anything, the generator register. -/
theorem PhiA2_open (c : Dev nD) :
    (Pipeline.ΦA spec2 c : sProp 𝕄)
      ⊢ iprop(others2 (F := F) c ∗ (∃ d, owns (c : Thread nD τ) accM fullShare d) ∗ (∃ r, prngReg c r)) := by
  unfold Pipeline.ΦA
  iintro ⟨HS, Hg⟩
  ihave HS' := (scoped2_split (F := F) c) $$ HS
  icases HS' with ⟨Ho, Ha⟩
  isplitl [Ho]; · iexact Ho
  isplitl [Ha]; · iexact Ha
  iexact Hg

theorem PhiA2_close (c : Dev nD) :
    iprop(others2 (F := F) c ∗ (∃ d, owns (c : Thread nD τ) accM fullShare d) ∗ (∃ r, prngReg c r))
      ⊢ (Pipeline.ΦA spec2 c : sProp 𝕄) := by
  unfold Pipeline.ΦA
  iintro ⟨Ho, Ha, Hg⟩
  isplitr [Hg]
  · iapply (scoped2_join (F := F) c)
    isplitl [Ho]; · iexact Ho
    iexact Ha
  iexact Hg

end Cert.KernelIdeal.Hand

end
-- ==== Proof.KI.FusedBody.lean ====
/-
  Region 2 of the program, its body.  At every grid point the body, started from the invariant before the point
  and the five windows' buffers at what they hold then, ends with the invariant after the point and the buffers at
  what the region's data say: the three inputs untouched; the running total's buffer at the total after the point;
  the output block's buffer untouched except at the points with j = 7, where it receives the accumulator.  Four
  control cases: the first point (both resets), the other points with j = 0 (the accumulator's reset), the points
  with 0 < j < 7 (no reset, no copy), the points with j = 7 (the copy).
-/
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import proofs.«173617_j58308476010683_1_alg».proof.Proof.KI.FusedRuns
import proofs.«173617_j58308476010683_1_alg».proof.Proof.KI.FusedBefore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body at a grid point -/

/-- What the body is handed at point `t`: the region's invariant before the point, the core's debts, and the
    current buffer of each of the five windows at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it hands back: the invariant after the point, the same debts, the inputs' and the running total's buffers
    at what the region's data say, and the output block's buffer as it was found where nothing is copied out and
    at the accumulator where it is. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t
    ∗ owns (c : Thread nD τ) (st2_4 t) fullShare ((dat2 V c).after 4 t))

set_option maxHeartbeats 4000000 in
/-- The body at any point.  The inputs' buffers hold their blocks.  By the point's place in the grid it is in one of
    four control cases; in each the accumulator and the total the body starts from are what the invariant and the
    running total's buffer hold (anything at the first point, what the point before left afterwards), and the
    body's run on whole buffers in that case leaves the step from them: the accumulator goes back into the
    invariant, the total into its buffer, and the output block's buffer is handed back as found unless j = 7. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS2 V c (t.val + 1) t.isLt from rfl, PhiS2_succ, PhiS2_castSucc,
    after2_0, after2_1, after2_2, after2_4]
  have hN : t.val < 64 := lt_of_lt_of_eq t.isLt (show cfg2.N = 64 from N_2)
  have hp : t.val - 1 < cfg2.N := Nat.lt_of_le_of_lt (Nat.sub_le _ _) t.isLt
  by_cases hz : t.val = 0
  · -- the first point: the accumulator's buffer and the total's hold anything, both restart from zero
    have hc1 : condJ0 (grid2.coords t) := (hcondJ0 t).mpr (by omega)
    have hc2 : condFirst (grid2.coords t) := (hcondFirst t).mpr hz
    have hc3 : ¬condJ7 (grid2.coords t) := fun h => by have := (hcondJ7 t).mp h; omega
    rw [Dat.leavesExact_idle (dat2 V c) 3 t (idle2_3_of _ hc3) (noFlush2_3 t (by omega)),
      carried2_first V c t hz, PhiS2_zero V c _ _ hz]
    simp only [before2_4_first V c t hz]
    iintro ⟨HΦ, Ho, ⟨%d0, H0⟩, ⟨%d1, H1⟩, ⟨%d2, H2⟩, ⟨%d3, H3⟩, ⟨%d4, H4⟩⟩
    ihave HΦ' := (PhiA2_open (F := F) c) $$ HΦ
    icases HΦ' with ⟨Hoth, ⟨%da, Ha⟩, Hg⟩
    iapply (run_first c Set.univ (grid2.coords t) _ _ _ _ _ _ _ _ _ _ accM (Memref.isWhole_whole _) hc1 hc2 hc3
      (iblk2 V c 0 t) (iblk2 V c 1 t) (iblk2 V c 2 t) ((dat2 V c).before 3 t d3) da d4 _)
    isplitl [H0]; · iexact H0
    isplitl [H1]; · iexact H1
    isplitl [H2]; · iexact H2
    isplitl [H3]; · iexact H3
    isplitl [H4]; · iexact H4
    isplitl [Ha]; · iexact Ha
    iintro ⟨H0, H1, H2, H3, H4, Ha⟩
    isplitl [Hoth Ha Hg]
    · isplitl [Hoth]; · iexact Hoth
      isplitl [Ha]; · iexact Ha
      iexact Hg
    isplitl [Ho]; · iexact Ho
    isplitl [H0]; · iexact H0
    isplitl [H1]; · iexact H1
    isplitl [H2]; · iexact H2
    isplitl [H3]; · iexists d3; iexact H3
    iexact H4
  · by_cases h0 : t.val % 8 = 0
    · -- a later point with j = 0: the accumulator restarts from zero, the total goes on
      have hc1 : condJ0 (grid2.coords t) := (hcondJ0 t).mpr h0
      have hc2 : ¬condFirst (grid2.coords t) := fun h => hz ((hcondFirst t).mp h)
      have hc3 : ¬condJ7 (grid2.coords t) := fun h => by have := (hcondJ7 t).mp h; omega
      rw [Dat.leavesExact_idle (dat2 V c) 3 t (idle2_3_of _ hc3) (noFlush2_3 t (by omega)),
        carried2_restart V c t hz h0, PhiS2_pos V c _ _ hz]
      simp only [before2_4_later V c t hz]
      iintro ⟨⟨Hoth, Ha, Hg⟩, Ho, ⟨%d0, H0⟩, ⟨%d1, H1⟩, ⟨%d2, H2⟩, ⟨%d3, H3⟩, ⟨%d4, H4⟩⟩
      iapply (run_j0 c Set.univ (grid2.coords t) _ _ _ _ _ _ _ _ _ _ accM (Memref.isWhole_whole _) hc1 hc2 hc3
        (iblk2 V c 0 t) (iblk2 V c 1 t) (iblk2 V c 2 t) ((dat2 V c).before 3 t d3) (carried2 V c (t.val - 1) hp).1 (carried2 V c (t.val - 1) hp).2 _)
      isplitl [H0]; · iexact H0
      isplitl [H1]; · iexact H1
      isplitl [H2]; · iexact H2
      isplitl [H3]; · iexact H3
      isplitl [H4]; · iexact H4
      isplitl [Ha]; · iexact Ha
      iintro ⟨H0, H1, H2, H3, H4, Ha⟩
      isplitl [Hoth Ha Hg]
      · isplitl [Hoth]; · iexact Hoth
        isplitl [Ha]; · iexact Ha
        iexact Hg
      isplitl [Ho]; · iexact Ho
      isplitl [H0]; · iexact H0
      isplitl [H1]; · iexact H1
      isplitl [H2]; · iexact H2
      isplitl [H3]; · iexists d3; iexact H3
      iexact H4
    · have hc1 : ¬condJ0 (grid2.coords t) := fun h => h0 ((hcondJ0 t).mp h)
      have hc2 : ¬condFirst (grid2.coords t) := fun h => hz ((hcondFirst t).mp h)
      by_cases h7 : t.val % 8 = 7
      · -- a point with j = 7: both go on, and the accumulator is copied to the output block's buffer
        have hc3 : condJ7 (grid2.coords t) := (hcondJ7 t).mpr h7
        rw [show (dat2 V c).leavesExact 3 t = owns (c : Thread nD τ) (st2_3 t) fullShare ((dat2 V c).after 3 t) from by
            unfold Dat.leavesExact; rw [live2_3_of _ hc3], after2_3,
          carried2_goOn V c t h0, PhiS2_pos V c _ _ hz]
        simp only [before2_4_later V c t hz]
        iintro ⟨⟨Hoth, Ha, Hg⟩, Ho, ⟨%d0, H0⟩, ⟨%d1, H1⟩, ⟨%d2, H2⟩, ⟨%d3, H3⟩, ⟨%d4, H4⟩⟩
        iapply (run_j7 c Set.univ (grid2.coords t) _ _ _ _ _ _ _ _ _ _ accM (Memref.isWhole_whole _) hc1 hc2 hc3
          (iblk2 V c 0 t) (iblk2 V c 1 t) (iblk2 V c 2 t) ((dat2 V c).before 3 t d3) (carried2 V c (t.val - 1) hp).1 (carried2 V c (t.val - 1) hp).2 _)
        isplitl [H0]; · iexact H0
        isplitl [H1]; · iexact H1
        isplitl [H2]; · iexact H2
        isplitl [H3]; · iexact H3
        isplitl [H4]; · iexact H4
        isplitl [Ha]; · iexact Ha
        iintro ⟨H0, H1, H2, H3, H4, Ha⟩
        isplitl [Hoth Ha Hg]
        · isplitl [Hoth]; · iexact Hoth
          isplitl [Ha]; · iexact Ha
          iexact Hg
        isplitl [Ho]; · iexact Ho
        isplitl [H0]; · iexact H0
        isplitl [H1]; · iexact H1
        isplitl [H2]; · iexact H2
        isplitl [H3]; · iexact H3
        iexact H4
      · -- a point with 0 < j < 7: both go on, nothing is copied
        have hc3 : ¬condJ7 (grid2.coords t) := fun h => h7 ((hcondJ7 t).mp h)
        rw [Dat.leavesExact_idle (dat2 V c) 3 t (idle2_3_of _ hc3) (noFlush2_3 t h7),
          carried2_goOn V c t h0, PhiS2_pos V c _ _ hz]
        simp only [before2_4_later V c t hz]
        iintro ⟨⟨Hoth, Ha, Hg⟩, Ho, ⟨%d0, H0⟩, ⟨%d1, H1⟩, ⟨%d2, H2⟩, ⟨%d3, H3⟩, ⟨%d4, H4⟩⟩
        iapply (run_mid c Set.univ (grid2.coords t) _ _ _ _ _ _ _ _ _ _ accM (Memref.isWhole_whole _) hc1 hc2 hc3
          (iblk2 V c 0 t) (iblk2 V c 1 t) (iblk2 V c 2 t) ((dat2 V c).before 3 t d3) (carried2 V c (t.val - 1) hp).1 (carried2 V c (t.val - 1) hp).2 _)
        isplitl [H0]; · iexact H0
        isplitl [H1]; · iexact H1
        isplitl [H2]; · iexact H2
        isplitl [H3]; · iexact H3
        isplitl [H4]; · iexact H4
        isplitl [Ha]; · iexact Ha
        iintro ⟨H0, H1, H2, H3, H4, Ha⟩
        isplitl [Hoth Ha Hg]
        · isplitl [Hoth]; · iexact Hoth
          isplitl [Ha]; · iexact Ha
          iexact Hg
        isplitl [Ho]; · iexact Ho
        isplitl [H0]; · iexact H0
        isplitl [H1]; · iexact H1
        isplitl [H2]; · iexact H2
        isplitl [H3]; · iexists d3; iexact H3
        iexact H4

/-- The body, at every point, takes the invariant and the buffers from before the point to after it. -/
theorem body_obligation2 (c : Dev nD) :
    BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives back what the launch handed over: the accumulator's contents are forgotten. -/
theorem hout2 (c : Dev nD) : (dat2 V c).Φ (Fin.last cfg2.N) ⊢ (Pipeline.ΦA spec2 c : sProp 𝕄) := by
  have hne : (Fin.last cfg2.N).val ≠ 0 := by
    rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hne]
  iintro ⟨Hoth, Ha, Hg⟩
  iapply (PhiA2_close (F := F) c)
  isplitl [Hoth]; · iexact Hoth
  isplitl [Ha]; · iexists _; iexact Ha
  iexact Hg

end Cert.KernelIdeal.Hand

end
-- ==== Proof.KI.Run.lean ====
/-
  The whole run of the program.  Its four items in order — the two linear regions, the fused region, the closing
  host operations — each entered from the buffers' contents the item before left (the fold of the buffers'
  contents), each region's record assembled from its data, its body's obligation and the split of its arrays out of the core's
  buffers and back.  Every weakly fair execution ends with every buffer that outlives the regions at the fold's end.
-/
import proofs.«173617_j58308476010683_1_alg».proof.Proof.Gen.KernelIdeal.Launch
import proofs.«173617_j58308476010683_1_alg».proof.Proof.Gen.KernelIdeal.Skeleton
import proofs.«173617_j58308476010683_1_alg».proof.Proof.Gen.KernelIdeal.Points
import proofs.«173617_j58308476010683_1_alg».proof.Proof.KI.Fold
import proofs.«173617_j58308476010683_1_alg».proof.Proof.KI.Lin0Body
import proofs.«173617_j58308476010683_1_alg».proof.Proof.KI.Lin1Body
import proofs.«173617_j58308476010683_1_alg».proof.Proof.KI.FusedBody
import proofs.«173617_j58308476010683_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three arguments through the fold

The closing host operations write only the four buffers of their own results.  A region changes only its output
windows' arrays; an argument is either no array of the region at all, or the array of one of its INPUT windows,
which is never written back and so leaves the region holding what it held on entry. -/

/-- No item writes an argument: each argument array ends as launched.  The first feature matrix is region 0's
    first input window and no array of regions 1 and 2. -/
theorem atEnd_main_arg0 (c : Dev nD) : atEnd m c (Proc.devRef .tc main_arg0) = m ((c : Thread nD τ).loc main_arg0) :=
  calc atEnd m c (Proc.devRef .tc main_arg0)
    _ = afterFused m c (Proc.devRef .tc main_arg0) := StableHlo.after_of_writes_sub hostOps3 _ hostOps3_writes (by decide)
    _ = afterLin1 m c (Proc.devRef .tc main_arg0) := afterFused_of_ne m c main_arg0 (by decide)
    _ = afterLin0 m c (Proc.devRef .tc main_arg0) := afterLin1_of_ne m c main_arg0 (by decide)
    _ = atLaunch m c (Proc.devRef .tc main_arg0) :=
        (afterLin0_arr m c 0).trans (((dat0 (tcAt (atLaunch m)) c).arrAt_in 0 rfl _).trans (A_eq0 (tcAt (atLaunch m)) c 0))
    _ = m ((c : Thread nD τ).loc main_arg0) := rfl

/-- The second feature matrix is no array of region 0, region 1's first input window and region 2's third. -/
theorem atEnd_main_arg1 (c : Dev nD) : atEnd m c (Proc.devRef .tc main_arg1) = m ((c : Thread nD τ).loc main_arg1) :=
  calc atEnd m c (Proc.devRef .tc main_arg1)
    _ = afterFused m c (Proc.devRef .tc main_arg1) := StableHlo.after_of_writes_sub hostOps3 _ hostOps3_writes (by decide)
    _ = afterLin1 m c (Proc.devRef .tc main_arg1) :=
        (afterFused_arr m c 2).trans (((dat2 (tcAt (afterLin1 m)) c).arrAt_in 2 rfl _).trans (A_eq2 (tcAt (afterLin1 m)) c 2))
    _ = afterLin0 m c (Proc.devRef .tc main_arg1) :=
        (afterLin1_arr m c 0).trans (((dat1 (tcAt (afterLin0 m)) c).arrAt_in 0 rfl _).trans (A_eq1 (tcAt (afterLin0 m)) c 0))
    _ = atLaunch m c (Proc.devRef .tc main_arg1) := afterLin0_of_ne m c main_arg1 (by decide)
    _ = m ((c : Thread nD τ).loc main_arg1) := rfl

/-- The weight matrix is the second input window of both linear regions and no array of the fused region. -/
theorem atEnd_main_arg2 (c : Dev nD) : atEnd m c (Proc.devRef .tc main_arg2) = m ((c : Thread nD τ).loc main_arg2) :=
  calc atEnd m c (Proc.devRef .tc main_arg2)
    _ = afterFused m c (Proc.devRef .tc main_arg2) := StableHlo.after_of_writes_sub hostOps3 _ hostOps3_writes (by decide)
    _ = afterLin1 m c (Proc.devRef .tc main_arg2) := afterFused_of_ne m c main_arg2 (by decide)
    _ = afterLin0 m c (Proc.devRef .tc main_arg2) :=
        (afterLin1_arr m c 1).trans (((dat1 (tcAt (afterLin0 m)) c).arrAt_in 1 rfl _).trans (A_eq1 (tcAt (afterLin0 m)) c 1))
    _ = atLaunch m c (Proc.devRef .tc main_arg2) :=
        (afterLin0_arr m c 1).trans (((dat0 (tcAt (atLaunch m)) c).arrAt_in 1 rfl _).trans (A_eq0 (tcAt (atLaunch m)) c 1))
    _ = m ((c : Thread nD τ).loc main_arg2) := rfl

/-! ## The regions' data and what rides beside the buffers -/

/-- Every region's proof data, each at the contents its region is entered from: the first linear region from the
    launch, the second from what the first left, the fused region from what the second left. -/
def regionData : (p : Fin 3) → (c : Dev nD) → Dat τ (Elt F) Unit ℕ (UR sig nD τ) ℕ (Pipeline.pin (pcfgs (F := F)) adm p) c
  | ⟨0, _⟩ => fun c => dat0 (tcAt (atLaunch m)) c
  | ⟨1, _⟩ => fun c => dat1 (tcAt (afterLin0 m)) c
  | ⟨2, _⟩ => fun c => dat2 (tcAt (afterLin1 m)) c
/-- No body of the program has variants. -/
abbrev noVariants : Variants := Variants.none
/-- No core owes another anything: no level is assigned. -/
abbrev noLevels : GSem nD τ sig → Finset Unit := fun _ => ∅
abbrev levelZero : GSem nD τ sig → Unit → ℕ := fun _ _ => 0
/-- What rides beside the buffers through every item: the core's generator register at some state (a region's
    invariant takes it in and gives it back) and the core owing nothing. -/
abbrev beside (c : Dev nD) : sProp 𝕄 := iprop((∃ r, prngReg c r) ∗ ∃ W, owes (c : Thread nD τ) (0 : CellTallies nD τ sig Unit) W)
/-- An unscoped reference of the core is among those the state between items holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at the fold's end, the generator register at some state. -/
abbrev endState (c : Dev nD) : sProp 𝕄 := iprop(StableHlo.held (c : Thread nD τ) (Pipeline.ucRefs τ sig) (atEnd m c) ∗ ∃ r, prngReg c r)

/-! ## The items -/

set_option backward.isDefEq.respectTransparency.types false in
/-- The first linear region as an item of the run: entered from every unscoped buffer as launched, left with its
    output array at the first projection's blocks and every other buffer untouched. -/
def lin0Seg : Pipeline.RegionSeg (pcfgs (F := F)) adm (regionData m) () defs₀ noVariants noLevels levelZero 0 where
  win := launch0.win.to₀
  block_pos := launch0.block_pos
  stage_whole := launch0.stage_whole
  K := PEmpty
  osem k := k.elim
  ho := Pipeline.OwnSemFacts.none _
  hbody c := (body_obligation0 (tcAt (atLaunch m)) c).loose
  hwaits := Pipeline.hwaits_of_owed_zero _ _ _ _ noLevels levelZero 0 fun _ _ => rfl
  pre c := iprop(StableHlo.held (c : Thread nD τ) (Pipeline.ucRefs τ sig) (atLaunch m c) ∗ beside c)
  post c := iprop(StableHlo.held (c : Thread nD τ) (Pipeline.ucRefs τ sig) (afterLin0 m c) ∗ beside c)
  X c := iprop(∃ r, prngReg c r)
  Y c := iprop(∃ r, prngReg c r)
  Z c := Pipeline.unscopedRest (Ix := Unit) (Name := ℕ) (U := UR sig nD τ) (Lvl := ℕ) spec0 c (tcAt (atLaunch m) c)
  hentry c := by
    -- the region's arrays come out of the core's buffers at the contents its data start from; what is left of
    -- the buffers bypasses the region; the generator register goes to the invariant; nothing is owed
    rw [Pipeline.ownSems0_none]
    have hsplit := Pipeline.arrays_of_unscopedBufs (p := 0) (pcfgs (F := F)) adm (regionData m) launch0.win launch0.arr_whole c
      ((regionData m 0 c).share_full fun _ => rfl) (tcAt (atLaunch m) c) fun _ => rfl
    rw [Pipeline.unscopedBufs_held] at hsplit
    iintro ⟨⟨Hbufs, Hgen, Hdue⟩, -, -⟩
    ihave Hparts := hsplit $$ Hbufs
    icases Hparts with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hbypass
  hin c := by
    -- the invariant of a region whose body keeps nothing between points: the scoped buffers no window stages
    -- through, at some contents, and the generator register
    rw [show (regionData m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (regionData m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    -- the arrays, at what the write-backs leave, go back among the bypassed buffers: together the core's buffers
    -- at the next boundary's contents
    have hjoin := Pipeline.unscopedBufs_of_arrays (p := 0) (pcfgs (F := F)) adm (Ix := Unit) (Name := ℕ) (U := UR sig nD τ) (Lvl := ℕ)
      launch0.win launch0.arr_whole c (regionData m) ((regionData m 0 c).share_full fun _ => rfl)
      (tcAt (atLaunch m) c) (tcAt (afterLin0 m) c) ((regionData m 0 c).arrAt · cfg0.N) (exitArr0 m c) (exitRest0 m c)
    rw [Pipeline.unscopedBufs_held] at hjoin
    iintro ⟨Harr, Hdue, Hgen, Hbypass⟩
    imodintro
    isplitl [Harr Hbypass]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- The second linear region as an item of the run: entered from what the first left, left with its output
    array at the second projection's blocks. -/
def lin1Seg : Pipeline.RegionSeg (pcfgs (F := F)) adm (regionData m) () defs₀ noVariants noLevels levelZero 1 where
  win := launch1.win.to₀
  block_pos := launch1.block_pos
  stage_whole := launch1.stage_whole
  K := PEmpty
  osem k := k.elim
  ho := Pipeline.OwnSemFacts.none _
  hbody c := (body_obligation1 (tcAt (afterLin0 m)) c).loose
  hwaits := Pipeline.hwaits_of_owed_zero _ _ _ _ noLevels levelZero 1 fun _ _ => rfl
  pre c := iprop(StableHlo.held (c : Thread nD τ) (Pipeline.ucRefs τ sig) (afterLin0 m c) ∗ beside c)
  post c := iprop(StableHlo.held (c : Thread nD τ) (Pipeline.ucRefs τ sig) (afterLin1 m c) ∗ beside c)
  X c := iprop(∃ r, prngReg c r)
  Y c := iprop(∃ r, prngReg c r)
  Z c := Pipeline.unscopedRest (Ix := Unit) (Name := ℕ) (U := UR sig nD τ) (Lvl := ℕ) spec1 c (tcAt (afterLin0 m) c)
  hentry c := by
    -- the region's arrays come out of the core's buffers at the contents its data start from; what is left of
    -- the buffers bypasses the region; the generator register goes to the invariant; nothing is owed
    rw [Pipeline.ownSems0_none]
    have hsplit := Pipeline.arrays_of_unscopedBufs (p := 1) (pcfgs (F := F)) adm (regionData m) launch1.win launch1.arr_whole c
      ((regionData m 1 c).share_full fun _ => rfl) (tcAt (afterLin0 m) c) fun _ => rfl
    rw [Pipeline.unscopedBufs_held] at hsplit
    iintro ⟨⟨Hbufs, Hgen, Hdue⟩, -, -⟩
    ihave Hparts := hsplit $$ Hbufs
    icases Hparts with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hbypass
  hin c := by
    -- the invariant of a region whose body keeps nothing between points: the scoped buffers no window stages
    -- through, at some contents, and the generator register
    rw [show (regionData m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (regionData m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    -- the arrays, at what the write-backs leave, go back among the bypassed buffers: together the core's buffers
    -- at the next boundary's contents
    have hjoin := Pipeline.unscopedBufs_of_arrays (p := 1) (pcfgs (F := F)) adm (Ix := Unit) (Name := ℕ) (U := UR sig nD τ) (Lvl := ℕ)
      launch1.win launch1.arr_whole c (regionData m) ((regionData m 1 c).share_full fun _ => rfl)
      (tcAt (afterLin0 m) c) (tcAt (afterLin1 m) c) ((regionData m 1 c).arrAt · cfg1.N) (exitArr1 m c) (exitRest1 m c)
    rw [Pipeline.unscopedBufs_held] at hjoin
    iintro ⟨Harr, Hdue, Hgen, Hbypass⟩
    imodintro
    isplitl [Harr Hbypass]
    · iapply hjoin; isplitl [Harr] <;> iassumption
    isplitl [Hgen]; · iexact Hgen
    unfold Pipeline.Dat.owesAt Pipeline.owesWithin
    icases Hdue with ⟨%W, -, Hdue⟩; iexists W; iexact Hdue

set_option backward.isDefEq.respectTransparency.types false in
/-- The fused region as an item of the run: entered from what the second linear region left, left with the
    aggregate's array at the accumulators written back and the one-entry array at the last running total.  Its
    invariant carries the accumulator between points, so it is entered from the launch's invariant and left to it
    through the two entailments the region's body module states. -/
def fusedSeg : Pipeline.RegionSeg (pcfgs (F := F)) adm (regionData m) () defs₀ noVariants noLevels levelZero 2 where
  win := launch2.win.to₀
  block_pos := launch2.block_pos
  stage_whole := launch2.stage_whole
  K := PEmpty
  osem k := k.elim
  ho := Pipeline.OwnSemFacts.none _
  hbody c := (body_obligation2 (tcAt (afterLin1 m)) c).loose
  hwaits := Pipeline.hwaits_of_owed_zero _ _ _ _ noLevels levelZero 2 fun _ _ => rfl
  pre c := iprop(StableHlo.held (c : Thread nD τ) (Pipeline.ucRefs τ sig) (afterLin1 m c) ∗ beside c)
  post c := iprop(StableHlo.held (c : Thread nD τ) (Pipeline.ucRefs τ sig) (afterFused m c) ∗ beside c)
  X c := iprop(∃ r, prngReg c r)
  Y c := iprop(∃ r, prngReg c r)
  Z c := Pipeline.unscopedRest (Ix := Unit) (Name := ℕ) (U := UR sig nD τ) (Lvl := ℕ) spec2 c (tcAt (afterLin1 m) c)
  hentry c := by
    -- the region's arrays come out of the core's buffers at the contents its data start from; what is left of
    -- the buffers bypasses the region; the generator register goes to the invariant; nothing is owed
    rw [Pipeline.ownSems0_none]
    have hsplit := Pipeline.arrays_of_unscopedBufs (p := 2) (pcfgs (F := F)) adm (regionData m) launch2.win launch2.arr_whole c
      ((regionData m 2 c).share_full fun _ => rfl) (tcAt (afterLin1 m) c) fun _ => rfl
    rw [Pipeline.unscopedBufs_held] at hsplit
    iintro ⟨⟨Hbufs, Hgen, Hdue⟩, -, -⟩
    ihave Hparts := hsplit $$ Hbufs
    icases Hparts with ⟨Harr, Hbypass⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hbypass
  hin c := by
    -- what the launch hands over is the invariant of a region that keeps nothing; the fused region's invariant
    -- before its first point is entered from it
    refine (?_ : _ ⊢ (Pipeline.ΦA spec2 c : sProp 𝕄)).trans (hin2 (tcAt (afterLin1 m)) c)
    unfold Pipeline.ΦA
    iintro ⟨Hgen, -, Hscoped⟩
    isplitl [Hscoped]; · iexact Hscoped
    iexact Hgen
  hout c := by
    -- after the last point the accumulator's contents are forgotten: the invariant gives back what it was handed
    rw [Pipeline.ownSems0_none]
    refine (hout2 (tcAt (afterLin1 m)) c).trans ?_
    unfold Pipeline.ΦA
    iintro ⟨Hscoped, Hgen⟩
    isplitl [Hgen]; · iexact Hgen
    isplitr; · iempintro
    iexact Hscoped
  hexit c := by
    -- the arrays, at what the write-backs leave, go back among the bypassed buffers: together the core's buffers
    -- at the next boundary's contents
    have hjoin := Pipeline.unscopedBufs_of_arrays (p := 2) (pcfgs (F := F)) adm (Ix := Unit) (Name := ℕ) (U := UR sig nD τ) (Lvl := ℕ)
      launch2.win launch2.arr_whole c (regionData m) ((regionData m 2 c).share_full fun _ => rfl)
      (tcAt (afterLin1 m) c) (tcAt (afterFused m) c) ((regionData m 2 c).arrAt · cfg2.N) (exitArr2 m c) (exitRest2 m c)
    rw [Pipeline.unscopedBufs_held] at hjoin
    iintro ⟨Harr, Hdue, Hgen, Hbypass⟩
    imodintro
    isplitl [Harr Hbypass]
    · iapply hjoin; isplitl [Harr] <;> iassumption
    isplitl [Hgen]; · iexact Hgen
    unfold Pipeline.Dat.owesAt Pipeline.owesWithin
    icases Hdue with ⟨%W, -, Hdue⟩; iexists W; iexact Hdue

/-- The closing host operations as an item: over the unscoped buffers from what the fused region left, to the
    fold's end (the reshaped total, its reciprocal square root, that spread over the aggregate's shape, and the
    aggregate scaled by it each land in a buffer of their own). -/
abbrev closingHost : Pipeline.HostSeg (Name := ℕ) (U := UR sig nD τ) (pcfgs (F := F)) defs₀ noVariants noLevels levelZero :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (afterFused m) beside

/-- The program's four items in order. -/
abbrev items : List (Pipeline.Seg (pcfgs (F := F)) adm (regionData m) () defs₀ noVariants noLevels levelZero) :=
  [ .region (lin0Seg m), .region (lin1Seg m), .region (fusedSeg m), .host (closingHost m) ]

/-- The program is the run of its items. -/
theorem main_is_items (c : Dev nD) : main (F := F) c = Pipeline.Seg.run (items m) := (main_chain c).trans (by chain_rfl)

/-! ## The run -/

set_option backward.isDefEq.respectTransparency.types false in
/-- Every weakly fair execution terminates, faulting nowhere, with every buffer that outlives the regions at the
    contents the fold ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (regionData m) () cellOf_inj emb₁ defs₀ noVariants noLevels levelZero m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's element is the pipelines' own, and no core gets a ghost resource besides
      iintro Hcells; imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ beside c)) (Tₙ := endState m)
    (hch := ⟨fun _ => .rfl, fun _ => .rfl, fun _ => .rfl, fun _ => .rfl, fun c => by
      -- the host stretch leaves the buffers at the fold's end beside the register and the dues: the same three, regrouped
      show iprop(StableHlo.held (c : Thread nD τ) (Pipeline.ucRefs τ sig) (atEnd m c) ∗ beside c)
        ⊢ iprop(endState m c ∗ ∃ W, owes (c : Thread nD τ) (0 : CellTallies nD τ sig Unit) W)
      iintro ⟨Hbufs, Hgen, Hdue⟩
      isplitl [Hbufs Hgen]
      · isplitl [Hbufs] <;> iassumption
      iexact Hdue⟩)
    (hinit := by
      -- each core by itself: its unscoped buffers as launched, its generator register, nothing owed
      refine Pipeline.initEach noLevels levelZero fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hbufs, -, Hdue, -, Hgen, -⟩, -⟩
      imodintro
      isplitl [Hbufs]; · iexact Hbufs
      isplitl [Hgen]; · iexists _; iexact Hgen
      iexists ∅; iexact Hdue)
    (QY := fun c s => ∀ b ∈ Pipeline.ucRefs τ sig, s.mem (((c : Thread nD τ)).1, b) = atEnd m c b)
    (hfin := fun c s' => by
      -- the buffers held whole at the fold's end, read against a final state
      iintro ⟨⟨Hbufs, -⟩, Hstate⟩
      unfold StableHlo.held
      imodintro
      iapply (pointsTo_read_all (Pipeline.ucRefs τ sig) (fun b => (((c : Thread nD τ)).1, b)) (atEnd m c) s')
      isplitl [Hbufs] <;> iassumption)
    (hQ := fun _ h => h)

end Cert.KernelIdeal.Hand

end
-- ==== Proof.Spec.lean ====
/-
  The mathematics of the certificate, with no program in sight.  Matrices are curried functions on finite index
  types with entries in the extended reals.

  * `proj x w`     the linear map: (x · w)[n, o] = Σ_k x[n, k] · w[k, o]
  * `score hi hj`  the rectified interaction: a[n, m] = max (Σ_o hi[n, o] · hj[m, o]) 0
  * `sumSq hi hj`  the square of the Frobenius norm of a: Σ_n Σ_m a[n, m]²
  * `agg hi hj fs` the unnormalised aggregate: Σ_m a[n, m] · fs[m, k]
  * `kerOut`       aggregate first, then one product with (sumSq)^(-1/2)
  * `refOut`       each a[n, m] divided by √sumSq first, then aggregated

  The two outputs agree when every entry of the inputs is a real number and sumSq is positive: then a, its
  aggregate and √sumSq are real, (√s)⁻¹ is the reciprocal square root, and a real factor moves across a finite
  sum of reals.  At sumSq = 0 they differ (0 · ⊤ = 0 on one side, 0 / 0 = ⊥ on the other), which is why
  positivity is assumed.
-/
import Idealize.ShloMosaic.PureOps.Ideal
import Idealize.ShloMosaic.Lib.ValueIdx

noncomputable section

namespace Cert.Spec

open Idealize.ShloMosaic

/-- (x · w)[n, o] = Σ_k x[n, k] · w[k, o]. -/
def proj (x : Fin 8192 → Fin 512 → EReal) (w : Fin 512 → Fin 512 → EReal) (n : Fin 8192) (o : Fin 512) : EReal :=
  ∑ k : Fin 512, x n k * w k o

/-- a[n, m] = max (Σ_o hi[n, o] · hj[m, o]) 0. -/
def score (hi hj : Fin 8192 → Fin 512 → EReal) (n m : Fin 8192) : EReal :=
  max (∑ o : Fin 512, hi n o * hj m o) 0

/-- Σ_n Σ_m a[n, m]². -/
def sumSq (hi hj : Fin 8192 → Fin 512 → EReal) : EReal :=
  ∑ n : Fin 8192, ∑ m : Fin 8192, score hi hj n m * score hi hj n m

/-- Σ_m a[n, m] · fs[m, k]. -/
def agg (hi hj fs : Fin 8192 → Fin 512 → EReal) (n : Fin 8192) (k : Fin 512) : EReal :=
  ∑ m : Fin 8192, score hi hj n m * fs m k

/-- Aggregate, then scale once by the reciprocal square root of sumSq. -/
def kerOut (fp fs : Fin 8192 → Fin 512 → EReal) (w : Fin 512 → Fin 512 → EReal) (n : Fin 8192) (k : Fin 512) : EReal :=
  agg (proj fp w) (proj fs w) fs n k * Ideal.rsqrt (sumSq (proj fp w) (proj fs w))

/-- Divide every a[n, m] by √sumSq, then aggregate. -/
def refOut (fp fs : Fin 8192 → Fin 512 → EReal) (w : Fin 512 → Fin 512 → EReal) (n : Fin 8192) (k : Fin 512) : EReal :=
  ∑ m : Fin 8192, Ideal.div (score (proj fp w) (proj fs w) n m) (Ideal.sqrt (sumSq (proj fp w) (proj fs w))) * fs m k

/-- An array of rank 2 read as a matrix: entry (n, k) is the array at the index with coordinates n and k. -/
def mat2 {a b : Nat} (x : (⟨2, ![a, b]⟩ : Shape).Idx → EReal) : Fin a → Fin b → EReal := fun n k => x (ValueIdx.ix2 n k)

/-- A matrix written as an array of rank 2. -/
def arr2 {a b : Nat} (f : Fin a → Fin b → EReal) : (⟨2, ![a, b]⟩ : Shape).Idx → EReal := fun i => f (i 0) (i 1)

theorem arr2_mat2 {a b : Nat} (x : (⟨2, ![a, b]⟩ : Shape).Idx → EReal) : arr2 (mat2 x) = x := by
  funext i; exact congrArg x (ValueIdx.eq_ix2 i).symm

theorem mat2_arr2 {a b : Nat} (f : Fin a → Fin b → EReal) : mat2 (arr2 f) = f := rfl

end Cert.Spec

end
-- ==== Proof.LinValue.lean ====
/-
  Regions 0 and 1, their values at the exact instance.  Narrowing to the 16-bit format is the identity there and
  the matrix unit's product onto a zero accumulator is the plain sum, so a point's output block is the block of
  rows of x · w it covers; the eight blocks tile the 8192 rows, so after the region the output array is the whole
  product `proj`.
-/
import proofs.«173617_j58308476010683_1_alg».proof.Proof.KI.Lin0
import proofs.«173617_j58308476010683_1_alg».proof.Proof.KI.Lin1
import proofs.«173617_j58308476010683_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Values

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

/-! ## The product of a block of rows with the weight matrix, at an entry -/

/-- The left operand of the block product is read at the output's row … -/
theorem lhs_lin_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- … and at the summation index as its column; -/
theorem lhs_lin_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- the right operand at the summation index as its row … -/
theorem rhs_lin_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- … and at the output's column. -/
theorem rhs_lin_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Entry (r, o) of what a point stores: Σ_k x[r, k] · w[k, o].  The three narrowings are the identity on the
    extended reals and the product is accumulated onto zero. -/
theorem block_product_apply (x : Vec Ideal S1024x512 .f32) (w : Vec Ideal S512x512 .f32) (r : Fin 1024) (o : Fin 512) :
    k0_pay1 (F := Ideal) x w (ix2 r o) = ∑ k : Fin 512, x (ix2 r k) * w (ix2 k o) := by
  unfold k0_pay1
  rw [truncf_apply]
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r o) ((contrEquiv1 dot_S1024x512_S512x512_S1024x512_1_0_0_1_n_n 512 rfl rfl).symm k) = ix2 r k := funext fun a => Fin.ext (by
    match a with
    | ⟨0, _⟩ => exact lhs_lin_0 _ _
    | ⟨1, _⟩ => exact (lhs_lin_1 _ _).trans hk)
  have er : dot_S1024x512_S512x512_S1024x512_1_0_0_1_n_n.rhsIdx (ix2 r o) ((contrEquiv1 dot_S1024x512_S512x512_S1024x512_1_0_0_1_n_n 512 rfl rfl).symm k) = ix2 k o := funext fun a => Fin.ext (by
    match a with
    | ⟨0, _⟩ => exact (rhs_lin_0 _ _).trans hk
    | ⟨1, _⟩ => exact rhs_lin_1 _ _)
  rw [truncf_apply, truncf_apply, el, er]

/-- Region 1 stores the same function of its two blocks. -/
theorem block_product_same (x : Vec Ideal S1024x512 .f32) (w : Vec Ideal S512x512 .f32) :
    k1_pay1 (F := Ideal) x w = k0_pay1 (F := Ideal) x w := rfl

/-- If `x` holds, in its row r, row n of a matrix X, and `w` holds the matrix W, then entry (r, o) of what a point
    stores is entry (n, o) of X · W. -/
theorem block_product_eq (X : Fin 8192 → Fin 512 → EReal) (W : Fin 512 → Fin 512 → EReal)
    (x : Vec Ideal S1024x512 .f32) (w : Vec Ideal S512x512 .f32) (r : Fin 1024) (o : Fin 512) (n : Fin 8192) (o' : Fin 512)
    (hx : ∀ k : Fin 512, x (ix2 r k) = X n k) (hw : ∀ k : Fin 512, w (ix2 k o) = W k o') :
    k0_pay1 (F := Ideal) x w (ix2 r o) = proj X W n o' := by
  rw [block_product_apply]
  unfold proj
  exact Finset.sum_congr rfl fun k _ => by rw [hx k, hw k]

variable (V : (c : Dev nD) → (b : Ref sig .tc) → Buf (Elt Ideal) ((c : Thread nD τ).loc b))

/-! ## Region 0: the eight row blocks tile the product -/

/-- The block indices of region 0's three windows at a point, decided over the grid: the feature block and the
    output block are at row block `t`, column block 0; the weight's block is always block (0, 0). -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the feature matrix with the weight matrix. -/
theorem flushed0_eq (c : Dev nD) (t : Fin cfg0.N) :
    (dat0 (F := Ideal) V c).flushed 2 t
      = ((cfg0.win 2).blk t).view.read (Elt Ideal) (arr2 (proj (mat2 (V c main_arg0)) (mat2 (V c main_arg2)))) := by
  show (cfg0.win 2).cut (grid0.coords t) ((dat0 (F := Ideal) V c).after 2 t) = _
  rw [after0_2]
  obtain ⟨e00, e01, e10, e11, e20, e21⟩ := block_indices0 t
  refine funext fun (j : S1024x512.Idx) => ?_
  obtain ⟨r, o, rfl⟩ : ∃ (r : Fin 1024) (o : Fin 512), j = ix2 r o := ⟨j 0, j 1, eq_ix2 j⟩
  show k0_pay1 (iblk0 V c 0 t) (iblk0 V c 1 t) (ix2 r o)
      = proj (mat2 (V c main_arg0)) (mat2 (V c main_arg2)) ((((cfg0.win 2).blk t).view.emb (ix2 r o)) 0) ((((cfg0.win 2).blk t).view.emb (ix2 r o)) 1)
  refine block_product_eq _ _ _ _ r o _ _ (fun k => ?_) (fun k => ?_)
  · -- row r of the feature block is row 1024 t + r of the feature matrix
    show V c main_arg0 (((cfg0.win 0).blk t).view.emb (ix2 r k)) = V c main_arg0 (ix2 ((((cfg0.win 2).blk t).view.emb (ix2 r o)) 0) k)
    refine congrArg (V c main_arg0) (funext fun a => Fin.ext ?_)
    match a with
    | ⟨0, _⟩ => show win0_0.index t (0 : Fin 2) * 1024 + 1 * r.val = win0_2.index t (0 : Fin 2) * 1024 + 1 * r.val; rw [e00, e20]
    | ⟨1, _⟩ => show win0_0.index t (1 : Fin 2) * 512 + 1 * k.val = k.val; rw [e01]; omega
  · -- the weight's block is the weight matrix
    show V c main_arg2 (((cfg0.win 1).blk t).view.emb (ix2 k o)) = V c main_arg2 (ix2 k ((((cfg0.win 2).blk t).view.emb (ix2 r o)) 1))
    refine congrArg (V c main_arg2) (funext fun a => Fin.ext ?_)
    match a with
    | ⟨0, _⟩ => show win0_1.index t (0 : Fin 2) * 512 + 1 * k.val = k.val; rw [e10]; omega
    | ⟨1, _⟩ => show win0_1.index t (1 : Fin 2) * 512 + 1 * o.val = win0_2.index t (1 : Fin 2) * 512 + 1 * o.val; rw [e11, e21]

/-- An entry of the output array is in point `t`'s block when each of its coordinates is in the block's range. -/
theorem mem_block0 (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Every entry of the output array is in the block of the point its row divided by 1024 names. -/
theorem rows_covered0 (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : grid0.N = 8 := N_0
  obtain ⟨t, ht⟩ : ∃ t : Fin cfg0.N, t.val = (i 0).val / 1024 := ⟨⟨(i 0).val / 1024, by rw [show cfg0.N = 8 from N_0]; omega⟩, rfl⟩
  obtain ⟨e00, e01, e10, e11, e20, e21⟩ := block_indices0 t
  refine ⟨t, flush0_2 t, ?_⟩
  rw [mem_block0]
  intro a
  match a with
  | ⟨0, _⟩ => show win0_2.index t (0 : Fin 2) * 1024 ≤ (i 0).val ∧ (i 0).val < win0_2.index t (0 : Fin 2) * 1024 + 1024; rw [e20, ht]; omega
  | ⟨1, _⟩ => show win0_2.index t (1 : Fin 2) * 512 ≤ (i 1).val ∧ (i 1).val < win0_2.index t (1 : Fin 2) * 512 + 512; rw [e21]; omega

/-! ## Region 1: the eight row blocks tile the product -/

/-- The block indices of region 1's three windows at a point, decided over the grid: the feature block and the
    output block are at row block `t`, column block 0; the weight's block is always block (0, 0). -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the feature matrix with the weight matrix. -/
theorem flushed1_eq (c : Dev nD) (t : Fin cfg1.N) :
    (dat1 (F := Ideal) V c).flushed 2 t
      = ((cfg1.win 2).blk t).view.read (Elt Ideal) (arr2 (proj (mat2 (V c main_arg1)) (mat2 (V c main_arg2)))) := by
  show (cfg1.win 2).cut (grid1.coords t) ((dat1 (F := Ideal) V c).after 2 t) = _
  rw [after1_2]
  obtain ⟨e00, e01, e10, e11, e20, e21⟩ := block_indices1 t
  refine funext fun (j : S1024x512.Idx) => ?_
  obtain ⟨r, o, rfl⟩ : ∃ (r : Fin 1024) (o : Fin 512), j = ix2 r o := ⟨j 0, j 1, eq_ix2 j⟩
  show k1_pay1 (iblk1 V c 0 t) (iblk1 V c 1 t) (ix2 r o)
      = proj (mat2 (V c main_arg1)) (mat2 (V c main_arg2)) ((((cfg1.win 2).blk t).view.emb (ix2 r o)) 0) ((((cfg1.win 2).blk t).view.emb (ix2 r o)) 1)
  rw [block_product_same]
  refine block_product_eq _ _ _ _ r o _ _ (fun k => ?_) (fun k => ?_)
  · -- row r of the feature block is row 1024 t + r of the feature matrix
    show V c main_arg1 (((cfg1.win 0).blk t).view.emb (ix2 r k)) = V c main_arg1 (ix2 ((((cfg1.win 2).blk t).view.emb (ix2 r o)) 0) k)
    refine congrArg (V c main_arg1) (funext fun a => Fin.ext ?_)
    match a with
    | ⟨0, _⟩ => show win1_0.index t (0 : Fin 2) * 1024 + 1 * r.val = win1_2.index t (0 : Fin 2) * 1024 + 1 * r.val; rw [e00, e20]
    | ⟨1, _⟩ => show win1_0.index t (1 : Fin 2) * 512 + 1 * k.val = k.val; rw [e01]; omega
  · -- the weight's block is the weight matrix
    show V c main_arg2 (((cfg1.win 1).blk t).view.emb (ix2 k o)) = V c main_arg2 (ix2 k ((((cfg1.win 2).blk t).view.emb (ix2 r o)) 1))
    refine congrArg (V c main_arg2) (funext fun a => Fin.ext ?_)
    match a with
    | ⟨0, _⟩ => show win1_1.index t (0 : Fin 2) * 512 + 1 * k.val = k.val; rw [e10]; omega
    | ⟨1, _⟩ => show win1_1.index t (1 : Fin 2) * 512 + 1 * o.val = win1_2.index t (1 : Fin 2) * 512 + 1 * o.val; rw [e11, e21]

/-- An entry of the output array is in point `t`'s block when each of its coordinates is in the block's range. -/
theorem mem_block1 (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v1).slice (win1_2.rect t)).set ↔ _
  rw [View.set_slice_whole, Rect.mem_set_unit]
  exact Iff.rfl

/-- Every entry of the output array is in the block of the point its row divided by 1024 names. -/
theorem rows_covered1 (i : S8192x512.Idx) :
    ∃ t : Fin cfg1.N, (cfg1.win 2).flush t = true ∧ i ∈ ((cfg1.win 2).blk t).view.set := by
  have hi0 : (i 0).val < 8192 := (i 0).isLt
  have hi1 : (i 1).val < 512 := (i 1).isLt
  have hN : grid1.N = 8 := N_1
  obtain ⟨t, ht⟩ : ∃ t : Fin cfg1.N, t.val = (i 0).val / 1024 := ⟨⟨(i 0).val / 1024, by rw [show cfg1.N = 8 from N_1]; omega⟩, rfl⟩
  obtain ⟨e00, e01, e10, e11, e20, e21⟩ := block_indices1 t
  refine ⟨t, flush1_2 t, ?_⟩
  rw [mem_block1]
  intro a
  match a with
  | ⟨0, _⟩ => show win1_2.index t (0 : Fin 2) * 1024 ≤ (i 0).val ∧ (i 0).val < win1_2.index t (0 : Fin 2) * 1024 + 1024; rw [e20, ht]; omega
  | ⟨1, _⟩ => show win1_2.index t (1 : Fin 2) * 512 ≤ (i 1).val ∧ (i 1).val < win1_2.index t (1 : Fin 2) * 512 + 512; rw [e21]; omega

/-- After region 0 its output array is the first feature matrix times the weight matrix. -/
theorem final0 (c : Dev nD) :
    (dat0 (F := Ideal) V c).arrAt 2 cfg0.N = arr2 (proj (mat2 (V c main_arg0)) (mat2 (V c main_arg2))) :=
  (dat0 (F := Ideal) V c).arrAt_eq_of_cover 2 _ (fun t _ => flushed0_eq V c t) rows_covered0

/-- After region 1 its output array is the second feature matrix times the weight matrix. -/
theorem final1 (c : Dev nD) :
    (dat1 (F := Ideal) V c).arrAt 2 cfg1.N = arr2 (proj (mat2 (V c main_arg1)) (mat2 (V c main_arg2))) :=
  (dat1 (F := Ideal) V c).arrAt_eq_of_cover 2 _ (fun t _ => flushed1_eq V c t) rows_covered1

end Cert.KernelIdeal.Values

end
-- ==== Proof.FusedTile.lean ====
/-
  One point of region 2 at the exact instance, entry by entry.  Narrowing to the 16-bit format and a shape cast to
  the same shape are the identity there, and the matrix unit's product onto a zero accumulator is the plain sum.
  So for blocks hi, hj (1024 × 512) the interaction tile at (r, q) is max (Σ_o hi[r, o] · hj[q, o]) 0; the running
  total grows by Σ_r Σ_q tile[r, q]²; the accumulator at (r, k) grows by Σ_q tile[r, q] · fs[q, k].
-/
import proofs.«173617_j58308476010683_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Values

open Idealize.ShloMosaic Idealize.ShloMosaic.ValueIdx
open Cert.KernelIdeal Cert.KernelIdeal.Gen

/-! ## The product of a block with the transpose of a block -/

theorem lhs_inter_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_inter_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_inter_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_inter_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of a 1024 × 512 matrix with a 512 × 1024 one onto zero, at (r, q): the sum over the 512 inner
    coordinates. -/
theorem inter_apply (x : FVec Ideal S1024x512 .bf16) (y : FVec Ideal S512x1024 .bf16) (r q : Fin 1024) :
    FloatOps.matmul dot_S1024x512_S512x1024_S1024x1024_1_0_0_1_n_n none x y (constant (F := Ideal) S1024x1024 .f32 0x00000000#32) (ix2 r q)
      = ∑ o : Fin 512, x (ix2 r o) * y (ix2 o q) := by
  rw [Ideal.matmul_constant_zero_apply, ← Equiv.sum_comp (contrEquiv1 dot_S1024x512_S512x1024_S1024x1024_1_0_0_1_n_n 512 rfl rfl).symm]
  refine Finset.sum_congr rfl fun o _ => ?_
  have hk := contrEquiv1_symm_val dot_S1024x512_S512x1024_S1024x1024_1_0_0_1_n_n 512 rfl rfl o
  have el : dot_S1024x512_S512x1024_S1024x1024_1_0_0_1_n_n.lhsIdx (ix2 r q) ((contrEquiv1 dot_S1024x512_S512x1024_S1024x1024_1_0_0_1_n_n 512 rfl rfl).symm o) = ix2 r o := funext fun a => Fin.ext (by
    match a with
    | ⟨0, _⟩ => exact lhs_inter_0 _ _
    | ⟨1, _⟩ => exact (lhs_inter_1 _ _).trans hk)
  have er : dot_S1024x512_S512x1024_S1024x1024_1_0_0_1_n_n.rhsIdx (ix2 r q) ((contrEquiv1 dot_S1024x512_S512x1024_S1024x1024_1_0_0_1_n_n 512 rfl rfl).symm o) = ix2 o q := funext fun a => Fin.ext (by
    match a with
    | ⟨0, _⟩ => exact (rhs_inter_0 _ _).trans hk
    | ⟨1, _⟩ => exact rhs_inter_1 _ _)
  rw [el, er]

/-- The rectified interaction tile of two blocks at (r, q). -/
theorem tile_apply (hi hj : FVec Ideal S1024x512 .bf16) (r q : Fin 1024) :
    k2_pay4 (F := Ideal) hi hj (ix2 r q) = max (∑ o : Fin 512, hi (ix2 r o) * hj (ix2 q o)) 0 := by
  unfold k2_pay4
  refine (maximumf_apply _ _ _).trans ?_
  refine congrArg₂ max ?_ Ideal.ofBits_zero_f32
  refine (inter_apply _ _ r q).trans ?_
  refine Finset.sum_congr rfl fun o _ => ?_
  refine congrArg₂ (· * ·) (congrFun (shapeCast_self hi _) _) ?_
  exact (transpose_ix2_apply _ _ o q).trans (congrFun (shapeCast_self hj _) _)

/-! ## The running total -/

/-- The running total after a point: what it was plus the sum of the squares of the tile's entries (the kernel sums
    each row first, then the row sums). -/
theorem total_apply (hi hj : FVec Ideal S1024x512 .bf16) (tot0 : FVec Ideal S1x1 .f32) (i : S1x1.Idx) :
    k2_pay5 (F := Ideal) hi hj tot0 i
      = tot0 i + ∑ r : Fin 1024, ∑ q : Fin 1024, k2_pay4 (F := Ideal) hi hj (ix2 r q) * k2_pay4 (F := Ideal) hi hj (ix2 r q) := by
  unfold k2_pay5
  refine (addf_apply _ _ _).trans ?_
  refine congrArg₂ (· + ·) (congrFun (shapeCast_self tot0 _) i) ?_
  refine (shapeCast_apply _ _ i (ix1 (0 : Fin 1)) ?_).trans ?_
  · rw [Shape.rowMajor_val_one, Shape.rowMajor_val_two]
    have h0 : (i 0).val < 1 := idx2_lt0 i
    have h1 : (i 1).val < 1 := idx2_lt1 i
    show (0 : ℕ) = (i 0).val * 1 + (i 1).val
    omega
  refine (Ideal.multiReduction_add_single _ _ reduces_S1024x1_S1 _ _ (ix1 (0 : Fin 1))).trans ?_
  show ∑ r : Fin 1024, _ = ∑ r : Fin 1024, _
  refine Finset.sum_congr rfl fun r _ => ?_
  refine (shapeCast_apply _ _ _ (ix1 r) ?_).trans ?_
  · rw [Shape.rowMajor_val_one, Shape.rowMajor_val_two]
    show r.val = r.val * 1 + 0
    omega
  refine (Ideal.multiReduction_add_single _ _ reduces_S1024x1024_S1024 _ _ (ix1 r)).trans ?_
  show ∑ q : Fin 1024, _ = ∑ q : Fin 1024, _
  refine Finset.sum_congr rfl fun q _ => ?_
  have e : reduces_S1024x1024_S1024.lift (ix1 r) q = ix2 r q := funext fun a => Fin.ext (by
    match a with
    | ⟨0, _⟩ => rfl
    | ⟨1, _⟩ => rfl)
  rw [e]
  rfl

/-! ## The accumulator -/

theorem lhs_agg_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_agg_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_agg_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_agg_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of a 1024 × 1024 matrix with a 1024 × 512 one onto zero, at (r, k): the sum over the 1024 inner
    coordinates. -/
theorem aggmul_apply (x : FVec Ideal S1024x1024 .bf16) (y : FVec Ideal S1024x512 .bf16) (r : Fin 1024) (k : Fin 512) :
    FloatOps.matmul dot_S1024x1024_S1024x512_S1024x512_1_0_0_1_n_n none x y (constant (F := Ideal) S1024x512 .f32 0x00000000#32) (ix2 r k)
      = ∑ q : Fin 1024, x (ix2 r q) * y (ix2 q k) := by
  rw [Ideal.matmul_constant_zero_apply, ← Equiv.sum_comp (contrEquiv1 dot_S1024x1024_S1024x512_S1024x512_1_0_0_1_n_n 1024 rfl rfl).symm]
  refine Finset.sum_congr rfl fun q _ => ?_
  have hk := contrEquiv1_symm_val dot_S1024x1024_S1024x512_S1024x512_1_0_0_1_n_n 1024 rfl rfl q
  have el : dot_S1024x1024_S1024x512_S1024x512_1_0_0_1_n_n.lhsIdx (ix2 r k) ((contrEquiv1 dot_S1024x1024_S1024x512_S1024x512_1_0_0_1_n_n 1024 rfl rfl).symm q) = ix2 r q := funext fun a => Fin.ext (by
    match a with
    | ⟨0, _⟩ => exact lhs_agg_0 _ _
    | ⟨1, _⟩ => exact (lhs_agg_1 _ _).trans hk)
  have er : dot_S1024x1024_S1024x512_S1024x512_1_0_0_1_n_n.rhsIdx (ix2 r k) ((contrEquiv1 dot_S1024x1024_S1024x512_S1024x512_1_0_0_1_n_n 1024 rfl rfl).symm q) = ix2 q k := funext fun a => Fin.ext (by
    match a with
    | ⟨0, _⟩ => exact (rhs_agg_0 _ _).trans hk
    | ⟨1, _⟩ => exact rhs_agg_1 _ _)
  rw [el, er]

/-- The accumulator after a point, at (r, k): what it was plus the tile's row r against the feature block's column k. -/
theorem acc_apply (hi hj : FVec Ideal S1024x512 .bf16) (acc0 fs : FVec Ideal S1024x512 .f32) (r : Fin 1024) (k : Fin 512) :
    k2_pay1 (F := Ideal) (k2_pay6 (F := Ideal) hi hj acc0 fs) (ix2 r k)
      = acc0 (ix2 r k) + ∑ q : Fin 1024, k2_pay4 (F := Ideal) hi hj (ix2 r q) * fs (ix2 q k) := by
  unfold k2_pay1 k2_pay6
  refine (congrFun (shapeCast_self _ _) _).trans ?_
  refine (addf_apply _ _ _).trans ?_
  refine congrArg (acc0 (ix2 r k) + ·) ?_
  exact aggmul_apply _ _ r k

/-! ## The values the accumulator and the running total restart from -/

theorem acc_zero_apply (i : S1024x512.Idx) : k2_pay2 (F := Ideal) i = 0 := by
  unfold k2_pay2
  refine (congrFun (shapeCast_self _ _) _).trans ?_
  exact Ideal.ofBits_zero_f32

theorem total_zero_apply (i : S1x1.Idx) : k2_pay3 (F := Ideal) i = 0 := by
  unfold k2_pay3
  exact Ideal.ofBits_zero_f32

end Cert.KernelIdeal.Values

end
-- ==== Proof.BlockSums.lean ====
/-
  Sums over the 8192 rows arranged as 8 consecutive blocks of 1024 rows (row 1024 · b + r is row r of block b), and
  double sums over 8192 × 8192 arranged as 64 tiles of 1024 × 1024 entries, tile p = 8 i + j pairing row block i with
  column block j.  Pure re-indexing in any commutative additive monoid.
-/
import Mathlib.Algebra.BigOperators.Fin
import Mathlib.Algebra.BigOperators.Group.Finset.Defs
import Mathlib.Algebra.BigOperators.Group.Finset.Sigma
import Mathlib.Data.Fintype.BigOperators
import Mathlib.Logic.Equiv.Fin.Basic

namespace Cert.Spec

open scoped BigOperators

/-- Row r of the b-th block of 1024 rows of a matrix of 8192 rows (b read modulo 8, so that every b names a block). -/
def blockRow (b : ℕ) (r : Fin 1024) : Fin 8192 :=
  ⟨1024 * (b % 8) + r.val, by have := r.isLt; have := Nat.mod_lt b (show 0 < 8 by decide); omega⟩

theorem blockRow_val (b : ℕ) (r : Fin 1024) : (blockRow b r).val = 1024 * (b % 8) + r.val := rfl

/-- Every row is a row of exactly one block: row m is row m % 1024 of block m / 1024. -/
def rowsEquiv : Fin 8 × Fin 1024 ≃ Fin 8192 where
  toFun x := blockRow x.1.val x.2
  invFun m := (⟨m.val / 1024, by have := m.isLt; omega⟩, ⟨m.val % 1024, Nat.mod_lt _ (by omega)⟩)
  left_inv x := by
    have h1 := x.1.isLt
    have h2 := x.2.isLt
    refine Prod.ext (Fin.ext ?_) (Fin.ext ?_)
    · show (1024 * (x.1.val % 8) + x.2.val) / 1024 = x.1.val
      omega
    · show (1024 * (x.1.val % 8) + x.2.val) % 1024 = x.2.val
      omega
  right_inv m := by
    have h := m.isLt
    refine Fin.ext ?_
    show 1024 * (m.val / 1024 % 8) + m.val % 1024 = m.val
    omega

/-- A sum over 8192 rows is the sum over the 8 blocks of the sums over each block's 1024 rows. -/
theorem sum_blockRow {M : Type*} [AddCommMonoid M] (f : Fin 8192 → M) :
    ∑ m : Fin 8192, f m = ∑ j ∈ Finset.range 8, ∑ q : Fin 1024, f (blockRow j q) :=
  calc ∑ m : Fin 8192, f m
      = ∑ x : Fin 8 × Fin 1024, f (rowsEquiv x) := (Equiv.sum_comp rowsEquiv f).symm
    _ = ∑ p : Fin 8, ∑ q : Fin 1024, f (blockRow p.val q) := Fintype.sum_prod_type _
    _ = ∑ j ∈ Finset.range 8, ∑ q : Fin 1024, f (blockRow j q) :=
        (Finset.sum_range fun j => ∑ q : Fin 1024, f (blockRow j q)).symm

/-- A sum over the naturals below a · b, read through quotient and remainder by b, is the double sum. -/
theorem sum_range_div_mod {M : Type*} [AddCommMonoid M] (a b : ℕ) (h : ℕ → ℕ → M) :
    ∑ p ∈ Finset.range (a * b), h (p / b) (p % b) = ∑ i ∈ Finset.range a, ∑ j ∈ Finset.range b, h i j :=
  calc ∑ p ∈ Finset.range (a * b), h (p / b) (p % b)
      = ∑ p : Fin (a * b), h (p.val / b) (p.val % b) := Finset.sum_range fun p => h (p / b) (p % b)
    _ = ∑ x : Fin a × Fin b, h x.1.val x.2.val :=
        Equiv.sum_comp (finProdFinEquiv (m := a) (n := b)).symm fun x => h x.1.val x.2.val
    _ = ∑ i : Fin a, ∑ j : Fin b, h i.val j.val := Fintype.sum_prod_type _
    _ = ∑ i ∈ Finset.range a, ∑ j ∈ Finset.range b, h i j :=
        ((Finset.sum_range fun i => ∑ j ∈ Finset.range b, h i j).trans
          (Finset.sum_congr rfl fun i _ => Finset.sum_range fun j => h i.val j)).symm

/-- A double sum over 8192 × 8192 is the sum over the 64 tiles p = 8 i + j (row block p / 8, column block p % 8) of the sums over each tile's 1024 × 1024 entries. -/
theorem sum_blockRow_sq {M : Type*} [AddCommMonoid M] (g : Fin 8192 → Fin 8192 → M) :
    ∑ n : Fin 8192, ∑ m : Fin 8192, g n m
      = ∑ p ∈ Finset.range 64, ∑ r : Fin 1024, ∑ q : Fin 1024, g (blockRow (p / 8) r) (blockRow (p % 8) q) :=
  calc ∑ n : Fin 8192, ∑ m : Fin 8192, g n m
      = ∑ i ∈ Finset.range 8, ∑ r : Fin 1024, ∑ m : Fin 8192, g (blockRow i r) m :=
        sum_blockRow fun n => ∑ m : Fin 8192, g n m
    _ = ∑ i ∈ Finset.range 8, ∑ r : Fin 1024, ∑ j ∈ Finset.range 8, ∑ q : Fin 1024, g (blockRow i r) (blockRow j q) :=
        Finset.sum_congr rfl fun i _ => Finset.sum_congr rfl fun r _ => sum_blockRow fun m => g (blockRow i r) m
    _ = ∑ i ∈ Finset.range 8, ∑ j ∈ Finset.range 8, ∑ r : Fin 1024, ∑ q : Fin 1024, g (blockRow i r) (blockRow j q) :=
        Finset.sum_congr rfl fun i _ => Finset.sum_comm
    _ = ∑ p ∈ Finset.range 64, ∑ r : Fin 1024, ∑ q : Fin 1024, g (blockRow (p / 8) r) (blockRow (p % 8) q) :=
        (sum_range_div_mod 8 8 fun i j => ∑ r : Fin 1024, ∑ q : Fin 1024, g (blockRow i r) (blockRow j q)).symm

end Cert.Spec
-- ==== Proof.FusedBlocks.lean ====
/-
  Region 2, the blocks its body reads at a point, entry by entry.  Point t has row block t / 8 and column block
  t % 8: the block of the first projection is rows 1024 (t / 8) … of it, the blocks of the second projection and
  of the second feature matrix are rows 1024 (t % 8) … of them.
-/
import proofs.«173617_j58308476010683_1_alg».proof.Proof.KI.FusedData
import proofs.«173617_j58308476010683_1_alg».proof.Proof.Spec
import proofs.«173617_j58308476010683_1_alg».proof.Proof.BlockSums
import Idealize.ShloMosaic.Lib.Pipeline.Value
import Idealize.ShloMosaic.Lib.ValueIdx

set_option maxRecDepth 16384

noncomputable section

namespace Cert.KernelIdeal.Values

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

/-- The block of the first projection the body reads at point t. -/
abbrev hiBlk (c : Dev nD) (t : Fin cfg2.N) : FVec Ideal S1024x512 .bf16 := iblk2 (F := Ideal) V c 0 t
/-- The block of the second projection the body reads at point t. -/
abbrev hjBlk (c : Dev nD) (t : Fin cfg2.N) : FVec Ideal S1024x512 .bf16 := iblk2 (F := Ideal) V c 1 t
/-- The block of the second feature matrix the body reads at point t. -/
abbrev fsBlk (c : Dev nD) (t : Fin cfg2.N) : FVec Ideal S1024x512 .f32 := iblk2 (F := Ideal) V c 2 t

/-- The block indices of the five windows at a point, decided over the grid. -/
theorem index_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val % 8 ∧ win2_2.index t (1 : Fin 2) = 0
    ∧ win2_3.index t (0 : Fin 2) = t.val / 8 ∧ win2_3.index t (1 : Fin 2) = 0
    ∧ win2_4.index t (0 : Fin 2) = 0 ∧ win2_4.index t (1 : Fin 2) = 0 :=
  (by decide +kernel : ∀ t : Fin grid2.N, _)

theorem hiBlk_apply (c : Dev nD) (t : Fin cfg2.N) (r : Fin 1024) (o : Fin 512) :
    hiBlk V c t (ix2 r o) = mat2 (V c main_v0) (blockRow (t.val / 8) r) o := by
  obtain ⟨e0, e1, -⟩ := index_facts2 t
  have hN : t.val < 64 := lt_of_lt_of_eq t.isLt N_2
  show V c main_v0 (((cfg2.win 0).blk t).view.emb (ix2 r o)) = V c main_v0 (ix2 (blockRow (t.val / 8) r) o)
  refine congrArg (V c main_v0) (funext fun a => Fin.ext ?_)
  match a with
  | ⟨0, _⟩ => show win2_0.index t (0 : Fin 2) * 1024 + 1 * r.val = 1024 * ((t.val / 8) % 8) + r.val; omega
  | ⟨1, _⟩ => show win2_0.index t (1 : Fin 2) * 512 + 1 * o.val = o.val; omega

theorem hjBlk_apply (c : Dev nD) (t : Fin cfg2.N) (q : Fin 1024) (o : Fin 512) :
    hjBlk V c t (ix2 q o) = mat2 (V c main_v1) (blockRow (t.val % 8) q) o := by
  obtain ⟨-, -, e0, e1, -⟩ := index_facts2 t
  show V c main_v1 (((cfg2.win 1).blk t).view.emb (ix2 q o)) = V c main_v1 (ix2 (blockRow (t.val % 8) q) o)
  refine congrArg (V c main_v1) (funext fun a => Fin.ext ?_)
  match a with
  | ⟨0, _⟩ => show win2_1.index t (0 : Fin 2) * 1024 + 1 * q.val = 1024 * ((t.val % 8) % 8) + q.val; omega
  | ⟨1, _⟩ => show win2_1.index t (1 : Fin 2) * 512 + 1 * o.val = o.val; omega

theorem fsBlk_apply (c : Dev nD) (t : Fin cfg2.N) (q : Fin 1024) (k : Fin 512) :
    fsBlk V c t (ix2 q k) = mat2 (V c main_arg1) (blockRow (t.val % 8) q) k := by
  obtain ⟨-, -, -, -, e0, e1, -⟩ := index_facts2 t
  show V c main_arg1 (((cfg2.win 2).blk t).view.emb (ix2 q k)) = V c main_arg1 (ix2 (blockRow (t.val % 8) q) k)
  refine congrArg (V c main_arg1) (funext fun a => Fin.ext ?_)
  match a with
  | ⟨0, _⟩ => show win2_2.index t (0 : Fin 2) * 1024 + 1 * q.val = 1024 * ((t.val % 8) % 8) + q.val; omega
  | ⟨1, _⟩ => show win2_2.index t (1 : Fin 2) * 512 + 1 * k.val = k.val; omega

end Cert.KernelIdeal.Values

end
-- ==== Proof.FusedSums.lean ====
/-
  Region 2, what the accumulator and the running total hold after each point, entry by entry.  With a the
  rectified interaction of the two projections, the tile at point p is a on row block p / 8 and column block p % 8.
  After point n the running total is the sum over the points p ≤ n of the sums of the squares of their tiles, and
  the accumulator at (r, k) is the sum over the column blocks j ≤ n % 8 of Σ_q a[row block n / 8, r; block j, q] ·
  fs[block j, q; k]: it restarts from zero whenever the column block is 0.  Both by induction on the point.
-/
import proofs.«173617_j58308476010683_1_alg».proof.Proof.FusedTile
import proofs.«173617_j58308476010683_1_alg».proof.Proof.FusedBlocks

set_option maxRecDepth 16384

noncomputable section

namespace Cert.KernelIdeal.Values

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

/-- The rectified interaction on row block p / 8 and column block p % 8, at (r, q). -/
def tileAt (c : Dev nD) (p : ℕ) (r q : Fin 1024) : EReal :=
  score (mat2 (V c main_v0)) (mat2 (V c main_v1)) (blockRow (p / 8) r) (blockRow (p % 8) q)

/-- Row r of row block b of the rectified interaction against column k of row block j of the feature matrix,
    over that block's 1024 rows. -/
def aggTerm (c : Dev nD) (b : ℕ) (r : Fin 1024) (k : Fin 512) (j : ℕ) : EReal :=
  ∑ q : Fin 1024, score (mat2 (V c main_v0)) (mat2 (V c main_v1)) (blockRow b r) (blockRow j q) * mat2 (V c main_arg1) (blockRow j q) k

/-- The tile the body forms at point n is the rectified interaction on that point's blocks. -/
theorem tile_at_point (c : Dev nD) (n : ℕ) (hn : n < cfg2.N) (r q : Fin 1024) :
    k2_pay4 (F := Ideal) (hiBlk V c ⟨n, hn⟩) (hjBlk V c ⟨n, hn⟩) (ix2 r q) = tileAt V c n r q := by
  refine (tile_apply _ _ r q).trans ?_
  unfold tileAt score
  refine congrArg (max · 0) (Finset.sum_congr rfl fun o _ => ?_)
  exact congrArg₂ (· * ·) (hiBlk_apply V c ⟨n, hn⟩ r o) (hjBlk_apply V c ⟨n, hn⟩ q o)

/-- One point's step of the running total. -/
theorem point_total (c : Dev nD) (n : ℕ) (hn : n < cfg2.N) (tot0 : FVec Ideal S1x1 .f32) (i : S1x1.Idx) :
    k2_pay5 (F := Ideal) (hiBlk V c ⟨n, hn⟩) (hjBlk V c ⟨n, hn⟩) tot0 i
      = tot0 i + ∑ r : Fin 1024, ∑ q : Fin 1024, tileAt V c n r q * tileAt V c n r q := by
  refine (total_apply _ _ tot0 i).trans ?_
  refine congrArg (tot0 i + ·) (Finset.sum_congr rfl fun r _ => Finset.sum_congr rfl fun q _ => ?_)
  rw [tile_at_point V c n hn r q]

/-- One point's step of the accumulator. -/
theorem point_acc (c : Dev nD) (n : ℕ) (hn : n < cfg2.N) (acc0 : FVec Ideal S1024x512 .f32) (r : Fin 1024) (k : Fin 512) :
    k2_pay1 (F := Ideal) (k2_pay6 (F := Ideal) (hiBlk V c ⟨n, hn⟩) (hjBlk V c ⟨n, hn⟩) acc0 (fsBlk V c ⟨n, hn⟩)) (ix2 r k)
      = acc0 (ix2 r k) + aggTerm V c (n / 8) r k (n % 8) := by
  refine (acc_apply _ _ acc0 _ r k).trans ?_
  unfold aggTerm
  refine congrArg (acc0 (ix2 r k) + ·) (Finset.sum_congr rfl fun q _ => ?_)
  exact congrArg₂ (· * ·) (tile_at_point V c n hn r q) (fsBlk_apply V c ⟨n, hn⟩ q k)

/-! ## What the recursion over the points unfolds to -/

theorem carried2_zero_total (c : Dev nD) (hn : 0 < cfg2.N) :
    (carried2 (F := Ideal) V c 0 hn).2 = k2_pay5 (F := Ideal) (hiBlk V c ⟨0, hn⟩) (hjBlk V c ⟨0, hn⟩) (k2_pay3 (F := Ideal)) := rfl

theorem carried2_succ_total (c : Dev nD) (n : ℕ) (hn : n + 1 < cfg2.N) :
    (carried2 (F := Ideal) V c (n + 1) hn).2
      = k2_pay5 (F := Ideal) (hiBlk V c ⟨n + 1, hn⟩) (hjBlk V c ⟨n + 1, hn⟩) (carried2 (F := Ideal) V c n (Nat.lt_of_succ_lt hn)).2 := rfl

theorem carried2_zero_acc (c : Dev nD) (hn : 0 < cfg2.N) :
    (carried2 (F := Ideal) V c 0 hn).1
      = k2_pay1 (F := Ideal) (k2_pay6 (F := Ideal) (hiBlk V c ⟨0, hn⟩) (hjBlk V c ⟨0, hn⟩) (k2_pay2 (F := Ideal)) (fsBlk V c ⟨0, hn⟩)) := rfl

theorem carried2_succ_acc (c : Dev nD) (n : ℕ) (hn : n + 1 < cfg2.N) :
    (carried2 (F := Ideal) V c (n + 1) hn).1
      = k2_pay1 (F := Ideal) (k2_pay6 (F := Ideal) (hiBlk V c ⟨n + 1, hn⟩) (hjBlk V c ⟨n + 1, hn⟩)
          (if (n + 1) % 8 = 0 then k2_pay2 (F := Ideal) else (carried2 (F := Ideal) V c n (Nat.lt_of_succ_lt hn)).1) (fsBlk V c ⟨n + 1, hn⟩)) := rfl

/-! ## The two invariants -/

/-- After point n the running total is the sum over the points up to n of the sums of the squares of their tiles. -/
theorem carried_total (c : Dev nD) : ∀ (n : ℕ) (hn : n < cfg2.N) (i : S1x1.Idx),
    (carried2 (F := Ideal) V c n hn).2 i
      = ∑ p ∈ Finset.range (n + 1), ∑ r : Fin 1024, ∑ q : Fin 1024, tileAt V c p r q * tileAt V c p r q
  | 0, hn, i => by
    rw [carried2_zero_total, point_total V c 0 hn _ i, total_zero_apply, zero_add, Finset.sum_range_one]
  | n + 1, hn, i => by
    rw [carried2_succ_total, point_total V c (n + 1) hn _ i, carried_total c n (Nat.lt_of_succ_lt hn) i,
      Finset.sum_range_succ _ (n + 1)]

/-- After point n the accumulator at (r, k) is the sum over the column blocks up to n % 8 of the interaction's row
    against the feature block's column. -/
theorem carried_acc (c : Dev nD) : ∀ (n : ℕ) (hn : n < cfg2.N) (r : Fin 1024) (k : Fin 512),
    (carried2 (F := Ideal) V c n hn).1 (ix2 r k) = ∑ j ∈ Finset.range (n % 8 + 1), aggTerm V c (n / 8) r k j
  | 0, hn, r, k => by
    rw [carried2_zero_acc, point_acc V c 0 hn _ r k, acc_zero_apply, zero_add]
    show aggTerm V c (0 / 8) r k (0 % 8) = ∑ j ∈ Finset.range 1, aggTerm V c (0 / 8) r k j
    rw [Finset.sum_range_one]
  | n + 1, hn, r, k => by
    rw [carried2_succ_acc, point_acc V c (n + 1) hn _ r k]
    by_cases h : (n + 1) % 8 = 0
    · rw [if_pos h, acc_zero_apply, zero_add, h, Finset.sum_range_one]
    · have hd : (n + 1) / 8 = n / 8 := by omega
      have hm : (n + 1) % 8 = n % 8 + 1 := by omega
      rw [if_neg h, carried_acc c n (Nat.lt_of_succ_lt hn) r k, hd, hm, Finset.sum_range_succ _ (n % 8 + 1)]

end Cert.KernelIdeal.Values

end
-- ==== Proof.FusedCover.lean ====
/-
  Region 2, its two outputs' blocks cover them.  The first output's block of rows 1024 b … 1024 b + 1023 is
  written back at the last point of row block b, point 8 b + 7; the second output has one entry, written back at
  the last point of the grid.
-/
import proofs.«173617_j58308476010683_1_alg».proof.Proof.FusedBlocks

set_option maxRecDepth 16384

noncomputable section

namespace Cert.KernelIdeal.Values

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

/-- Every entry of the first output lies in the block of the last point of its row block, which is written back. -/
theorem cover2_raw (i : S8192x512.Idx) :
    ∃ t : Fin cfg2.N, (cfg2.win 3).flush t = true ∧ i ∈ ((cfg2.win 3).blk t).view.set := by
  have hi0 : (i 0).val < 8192 := (i 0).isLt
  have hi1 : (i 1).val < 512 := (i 1).isLt
  obtain ⟨t, ht⟩ : ∃ t : Fin cfg2.N, t.val = 8 * ((i 0).val / 1024) + 7 :=
    ⟨⟨8 * ((i 0).val / 1024) + 7, by rw [show cfg2.N = 64 from N_2]; omega⟩, rfl⟩
  obtain ⟨-, -, -, -, -, -, e30, e31, -, -⟩ := index_facts2 t
  refine ⟨t, (flush2_3 t).mpr (by rw [ht]; omega), ?_⟩
  show i ∈ ((View.whole main_v2_0).slice (win2_3.rect t)).set
  rw [View.set_slice_whole, Rect.mem_set_unit]
  intro a
  match a with
  | ⟨0, _⟩ => show win2_3.index t (0 : Fin 2) * 1024 ≤ (i 0).val ∧ (i 0).val < win2_3.index t (0 : Fin 2) * 1024 + 1024; rw [e30, ht]; omega
  | ⟨1, _⟩ => show win2_3.index t (1 : Fin 2) * 512 ≤ (i 1).val ∧ (i 1).val < win2_3.index t (1 : Fin 2) * 512 + 512; rw [e31]; omega

/-- The one entry of the second output lies in the block of the last point, which is written back. -/
theorem cover2_tot (i : S1x1.Idx) :
    ∃ t : Fin cfg2.N, (cfg2.win 4).flush t = true ∧ i ∈ ((cfg2.win 4).blk t).view.set := by
  have hi0 : (i 0).val < 1 := (i 0).isLt
  have hi1 : (i 1).val < 1 := (i 1).isLt
  obtain ⟨t, ht⟩ : ∃ t : Fin cfg2.N, t.val = 63 := ⟨⟨63, by rw [show cfg2.N = 64 from N_2]; omega⟩, rfl⟩
  obtain ⟨-, -, -, -, -, -, -, -, e40, e41⟩ := index_facts2 t
  refine ⟨t, (flush2_4 t).mpr (by rw [ht]), ?_⟩
  show i ∈ ((View.whole main_v2_1).slice (win2_4.rect t)).set
  rw [View.set_slice_whole, Rect.mem_set_unit]
  intro a
  match a with
  | ⟨0, _⟩ => show win2_4.index t (0 : Fin 2) * 1 ≤ (i 0).val ∧ (i 0).val < win2_4.index t (0 : Fin 2) * 1 + 1; rw [e40]; omega
  | ⟨1, _⟩ => show win2_4.index t (1 : Fin 2) * 1 ≤ (i 1).val ∧ (i 1).val < win2_4.index t (1 : Fin 2) * 1 + 1; rw [e41]; omega

end Cert.KernelIdeal.Values

end
-- ==== Proof.FusedValue.lean ====
/-
  Region 2, its values at the exact instance.  At point n = 8 i + j the tile is a[1024 i + r, 1024 j + q]; the
  running total after the last point is the sum over all 64 tiles of the tile's entries squared, which is the sum
  over all of a; the accumulator after the point with j = 7 is the sum over the eight column blocks of tile times
  feature block, which is row block i of the aggregate.  The output block i is written back at that point only,
  the total at the last point only; the eight row blocks tile the output.
-/
import proofs.«173617_j58308476010683_1_alg».proof.Proof.FusedSums
import proofs.«173617_j58308476010683_1_alg».proof.Proof.FusedCover
import proofs.«173617_j58308476010683_1_alg».proof.Proof.BlockSums
import Idealize.ShloMosaic.Lib.Pipeline.Value

set_option maxRecDepth 16384

noncomputable section

namespace Cert.KernelIdeal.Values

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

/-- The unnormalised aggregate, as contents of the first output array. -/
abbrev rawArr (c : Dev nD) : S8192x512.Idx → EReal :=
  arr2 (agg (mat2 (V c main_v0)) (mat2 (V c main_v1)) (mat2 (V c main_arg1)))

/-- The sum of the squares of the rectified interaction, as contents of the one-entry output array. -/
abbrev totArr (c : Dev nD) : S1x1.Idx → EReal := fun _ => sumSq (mat2 (V c main_v0)) (mat2 (V c main_v1))

/-- The accumulator after the last column block is the row block of the aggregate: the eight column blocks make up
    the 8192 rows the aggregate sums over. -/
theorem acc_last (c : Dev nD) (n : ℕ) (hn : n < cfg2.N) (h7 : n % 8 = 7) (r : Fin 1024) (k : Fin 512) :
    (carried2 (F := Ideal) V c n hn).1 (ix2 r k)
      = agg (mat2 (V c main_v0)) (mat2 (V c main_v1)) (mat2 (V c main_arg1)) (blockRow (n / 8) r) k := by
  rw [carried_acc V c n hn r k, h7]
  unfold agg
  rw [sum_blockRow]
  rfl

/-- The running total after the last point is the sum over all of the rectified interaction squared: the 64 tiles
    make it up. -/
theorem total_last (c : Dev nD) (hn : 63 < cfg2.N) (i : S1x1.Idx) :
    (carried2 (F := Ideal) V c 63 hn).2 i = sumSq (mat2 (V c main_v0)) (mat2 (V c main_v1)) := by
  rw [carried_total V c 63 hn i]
  unfold sumSq
  rw [sum_blockRow_sq]
  rfl

/-- What a point with column block 7 writes back to the first output is its block of the aggregate. -/
theorem flushed2_raw (c : Dev nD) (t : Fin cfg2.N) (hf : (cfg2.win 3).flush t = true) :
    (dat2 (F := Ideal) V c).flushed 3 t = ((cfg2.win 3).blk t).view.read (Elt Ideal) (rawArr V c) := by
  have h7 : t.val % 8 = 7 := (flush2_3 t).mp hf
  obtain ⟨-, -, -, -, -, -, e0, e1, -⟩ := index_facts2 t
  have hN : t.val < 64 := lt_of_lt_of_eq t.isLt N_2
  show (cfg2.win 3).cut (grid2.coords t) ((dat2 (F := Ideal) V c).after 3 t) = _
  rw [after2_3]
  refine funext fun (j : S1024x512.Idx) => ?_
  obtain ⟨r, k, rfl⟩ : ∃ (r : Fin 1024) (k : Fin 512), j = ix2 r k := ⟨j 0, j 1, eq_ix2 j⟩
  have e : ((cfg2.win 3).blk t).view.emb (ix2 r k) = ix2 (blockRow (t.val / 8) r) k := funext fun a => Fin.ext (by
    match a with
    | ⟨0, _⟩ => show win2_3.index t (0 : Fin 2) * 1024 + 1 * r.val = 1024 * ((t.val / 8) % 8) + r.val; omega
    | ⟨1, _⟩ => show win2_3.index t (1 : Fin 2) * 512 + 1 * k.val = k.val; omega)
  show (carried2 (F := Ideal) V c t.val t.isLt).1 (ix2 r k) = rawArr V c (((cfg2.win 3).blk t).view.emb (ix2 r k))
  rw [e]
  exact acc_last V c t.val t.isLt h7 r k

/-- What the last point writes back to the one-entry output is the sum of the squares of the rectified interaction. -/
theorem flushed2_tot (c : Dev nD) (t : Fin cfg2.N) (hf : (cfg2.win 4).flush t = true) :
    (dat2 (F := Ideal) V c).flushed 4 t = ((cfg2.win 4).blk t).view.read (Elt Ideal) (totArr V c) := by
  have h63 : t.val % 64 = 63 := (flush2_4 t).mp hf
  have hN : t.val < 64 := lt_of_lt_of_eq t.isLt N_2
  obtain rfl : t = ⟨63, lt_of_lt_of_eq (by decide) N_2.symm⟩ := Fin.ext (by show t.val = 63; omega)
  show (cfg2.win 4).cut (grid2.coords _) ((dat2 (F := Ideal) V c).after 4 _) = _
  rw [after2_4]
  refine funext fun (j : S1x1.Idx) => ?_
  exact total_last V c _ j

/-- After region 2 its first output array is the unnormalised aggregate of the rectified interaction of the two
    projections it was handed against the second feature matrix. -/
theorem final2_raw (c : Dev nD) :
    (dat2 (F := Ideal) V c).arrAt 3 cfg2.N = arr2 (agg (mat2 (V c main_v0)) (mat2 (V c main_v1)) (mat2 (V c main_arg1))) :=
  (dat2 (F := Ideal) V c).arrAt_eq_of_cover 3 (rawArr V c) (flushed2_raw V c) cover2_raw

/-- After region 2 its one-entry output holds the sum of the squares of the rectified interaction. -/
theorem final2_tot (c : Dev nD) :
    (dat2 (F := Ideal) V c).arrAt 4 cfg2.N = fun _ => sumSq (mat2 (V c main_v0)) (mat2 (V c main_v1)) :=
  (dat2 (F := Ideal) V c).arrAt_eq_of_cover 4 (totArr V c) (flushed2_tot V c) cover2_tot

end Cert.KernelIdeal.Values

end
-- ==== Proof.TailValue.lean ====
/-
  The program's result at the exact instance.  The closing host operations multiply the fused region's first output
  by the reciprocal square root of its one-entry output; walking the buffers' contents back through the three
  regions — the fused region's outputs are the aggregate and the sum of squares of the two projections, the
  projections are the two linear regions' outputs, the feature and weight matrices are untouched arguments — the
  result is `kerOut` of the launch arguments.
-/
import proofs.«173617_j58308476010683_1_alg».proof.Proof.KI.Fold
import proofs.«173617_j58308476010683_1_alg».proof.Proof.LinValue
import proofs.«173617_j58308476010683_1_alg».proof.Proof.FusedValue
import proofs.«173617_j58308476010683_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Values

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand Cert.Spec

variable (m : (ℓ : Loc nD τ sig) → Buf (Elt Ideal) ℓ)

/-! ## The arguments between the regions: no region writes one -/

/-- After region 0 the first feature matrix, an input window's array of it, is as launched. -/
theorem afterLin0_arg0 (c : Dev nD) :
    afterLin0 m c (Proc.devRef .tc main_arg0) = m ((c : Thread nD τ).loc main_arg0) :=
  (afterLin0_arr m c 0).trans (((dat0 (tcAt (atLaunch m)) c).arrAt_in 0 rfl _).trans (A_eq0 (tcAt (atLaunch m)) c 0))

/-- After region 0 the second feature matrix, no array of it, is as launched. -/
theorem afterLin0_arg1 (c : Dev nD) :
    afterLin0 m c (Proc.devRef .tc main_arg1) = m ((c : Thread nD τ).loc main_arg1) :=
  afterLin0_of_ne m c main_arg1 (by decide)

/-- After region 0 the weight matrix, an input window's array of it, is as launched. -/
theorem afterLin0_arg2 (c : Dev nD) :
    afterLin0 m c (Proc.devRef .tc main_arg2) = m ((c : Thread nD τ).loc main_arg2) :=
  (afterLin0_arr m c 1).trans (((dat0 (tcAt (atLaunch m)) c).arrAt_in 1 rfl _).trans (A_eq0 (tcAt (atLaunch m)) c 1))

/-- After region 1 the second feature matrix, an input window's array of it, is as launched. -/
theorem afterLin1_arg1 (c : Dev nD) :
    afterLin1 m c (Proc.devRef .tc main_arg1) = m ((c : Thread nD τ).loc main_arg1) :=
  (afterLin1_arr m c 0).trans (((dat1 (tcAt (afterLin0 m)) c).arrAt_in 0 rfl _).trans
    ((A_eq1 (tcAt (afterLin0 m)) c 0).trans (afterLin0_arg1 m c)))

/-! ## The two projections -/

/-- After region 0 its output array is the first feature matrix times the weight matrix, of the launch arguments. -/
theorem afterLin0_v0 (c : Dev nD) :
    afterLin0 m c (Proc.devRef .tc main_v0)
      = arr2 (proj (mat2 (m ((c : Thread nD τ).loc main_arg0))) (mat2 (m ((c : Thread nD τ).loc main_arg2)))) :=
  (afterLin0_arr m c 2).trans (final0 (tcAt (atLaunch m)) c)

/-- Region 1 leaves region 0's output array alone. -/
theorem afterLin1_v0 (c : Dev nD) :
    afterLin1 m c (Proc.devRef .tc main_v0)
      = arr2 (proj (mat2 (m ((c : Thread nD τ).loc main_arg0))) (mat2 (m ((c : Thread nD τ).loc main_arg2)))) :=
  (afterLin1_of_ne m c main_v0 (by decide)).trans (afterLin0_v0 m c)

/-- After region 1 its output array is the second feature matrix times the weight matrix, of the launch arguments. -/
theorem afterLin1_v1 (c : Dev nD) :
    afterLin1 m c (Proc.devRef .tc main_v1)
      = arr2 (proj (mat2 (m ((c : Thread nD τ).loc main_arg1))) (mat2 (m ((c : Thread nD τ).loc main_arg2)))) := by
  refine (afterLin1_arr m c 2).trans ((final1 (tcAt (afterLin0 m)) c).trans ?_)
  show arr2 (proj (mat2 (afterLin0 m c (Proc.devRef .tc main_arg1))) (mat2 (afterLin0 m c (Proc.devRef .tc main_arg2)))) = _
  rw [afterLin0_arg1, afterLin0_arg2]

/-! ## The fused region's two outputs -/

/-- After region 2 its first output array is the unnormalised aggregate, of the launch arguments. -/
theorem afterFused_raw (c : Dev nD) :
    afterFused m c (Proc.devRef .tc main_v2_0)
      = arr2 (agg (proj (mat2 (m ((c : Thread nD τ).loc main_arg0))) (mat2 (m ((c : Thread nD τ).loc main_arg2))))
          (proj (mat2 (m ((c : Thread nD τ).loc main_arg1))) (mat2 (m ((c : Thread nD τ).loc main_arg2))))
          (mat2 (m ((c : Thread nD τ).loc main_arg1)))) := by
  refine (afterFused_arr m c 3).trans ((final2_raw (tcAt (afterLin1 m)) c).trans ?_)
  show arr2 (agg (mat2 (afterLin1 m c (Proc.devRef .tc main_v0))) (mat2 (afterLin1 m c (Proc.devRef .tc main_v1)))
    (mat2 (afterLin1 m c (Proc.devRef .tc main_arg1)))) = _
  rw [afterLin1_v0, afterLin1_v1, afterLin1_arg1, mat2_arr2, mat2_arr2]

/-- After region 2 its one-entry output holds the sum of squares, of the launch arguments. -/
theorem afterFused_tot (c : Dev nD) :
    afterFused m c (Proc.devRef .tc main_v2_1)
      = fun _ => sumSq (proj (mat2 (m ((c : Thread nD τ).loc main_arg0))) (mat2 (m ((c : Thread nD τ).loc main_arg2))))
          (proj (mat2 (m ((c : Thread nD τ).loc main_arg1))) (mat2 (m ((c : Thread nD τ).loc main_arg2)))) := by
  refine (afterFused_arr m c 4).trans ((final2_tot (tcAt (afterLin1 m)) c).trans ?_)
  show (fun _ => sumSq (mat2 (afterLin1 m c (Proc.devRef .tc main_v0))) (mat2 (afterLin1 m c (Proc.devRef .tc main_v1)))) = _
  rw [afterLin1_v0, afterLin1_v1, mat2_arr2, mat2_arr2]

/-- At the end the result buffer holds the aggregate of the rectified interaction scaled once by the reciprocal
    square root of its sum of squares, all of the launch arguments. -/
theorem result_value (c : Dev nD) :
    (atEnd (F := Ideal) m c (Proc.devRef .tc main_v6) : (⟨2, ![8192, 512]⟩ : Shape).Idx → EReal)
      = arr2 (kerOut (mat2 (m ((c : Thread nD τ).loc main_arg0))) (mat2 (m ((c : Thread nD τ).loc main_arg1)))
          (mat2 (m ((c : Thread nD τ).loc main_arg2)))) := by
  show StableHlo.after hostOps3 _ (Proc.devRef .tc main_v6) = _
  after_results
  rw [afterFused_raw, afterFused_tot]
  -- at an index: the product of the aggregate's entry with the broadcast scalar, which is the reciprocal square root
  -- of the one entry of the sum-of-squares array
  funext i
  rw [ValueIdx.mulf_apply]
  simp only [arr2, kerOut]
  generalize sumSq _ _ = s
  rfl

end Cert.KernelIdeal.Values

end
-- ==== Proof.RefValue.lean ====
/-
  The reference program's result, read at the exact instance, is `refOut` of its three argument arrays: two linear maps,
  the rectified interaction of their results, every entry divided by the square root of the sum of the squares of all
  entries, and the aggregate of the divided entries against the second feature matrix.
-/
import proofs.«173617_j58308476010683_1_alg».proof.Proof.Gen.ReferenceIdeal.Run
import proofs.«173617_j58308476010683_1_alg».proof.Proof.Gen.ReferenceIdeal.Read
import proofs.«173617_j58308476010683_1_alg».proof.Proof.Spec
import Idealize.ShloMosaic.Lib.ValueIdx
import Idealize.ShloMosaic.PureOps.Ideal.Laws

noncomputable section

namespace Cert.ReferenceIdeal.RefValue

open Idealize.ShloMosaic Cert.ReferenceIdeal Cert.ReferenceIdeal.Gen Cert.ReferenceIdeal.Read Cert.Spec
open Idealize.ShloMosaic.ValueIdx (ix2 eq_ix2 sum_idx2)

/-! ## Where each contraction reads its operands, in coordinates -/

/-- Row n of the first factor, column k. -/
theorem left_of_linear (n : Fin 8192) (o k : Fin 512) : lidx_main_v0 (ix2 n o) k = ix2 n k :=
  funext fun a => match a with | ⟨0, _⟩ => rfl | ⟨1, _⟩ => rfl

/-- Row k of the weight, column o. -/
theorem right_of_linear (n : Fin 8192) (o k : Fin 512) : ridx_main_v0 (ix2 n o) k = ix2 k o :=
  funext fun a => match a with | ⟨0, _⟩ => rfl | ⟨1, _⟩ => rfl

/-- The second linear map reads row n of the second feature matrix, column k. -/
theorem left_of_linear' (n : Fin 8192) (o k : Fin 512) : lidx_main_v1 (ix2 n o) k = ix2 n k :=
  funext fun a => match a with | ⟨0, _⟩ => rfl | ⟨1, _⟩ => rfl

/-- The second linear map reads row k of the same weight, column o. -/
theorem right_of_linear' (n : Fin 8192) (o k : Fin 512) : ridx_main_v1 (ix2 n o) k = ix2 k o :=
  funext fun a => match a with | ⟨0, _⟩ => rfl | ⟨1, _⟩ => rfl

/-- The interaction reads row n of the first projection. -/
theorem left_of_interaction (n m : Fin 8192) (o : Fin 512) : lidx_main_v3 (ix2 n m) o = ix2 n o :=
  funext fun a => match a with | ⟨0, _⟩ => rfl | ⟨1, _⟩ => rfl

/-- Through the transpose, the interaction reads row m of the second projection. -/
theorem right_of_interaction (n m : Fin 8192) (o : Fin 512) : idx_main_v2 (ridx_main_v3 (ix2 n m) o) = ix2 m o :=
  funext fun a => match a with | ⟨0, _⟩ => rfl | ⟨1, _⟩ => rfl

/-- The aggregate reads entry (n, m) of the divided interaction. -/
theorem left_of_aggregate (n m : Fin 8192) (k : Fin 512) : lidx_main_v10 (ix2 n k) m = ix2 n m :=
  funext fun a => match a with | ⟨0, _⟩ => rfl | ⟨1, _⟩ => rfl

/-- The aggregate reads entry (m, k) of the second feature matrix. -/
theorem right_of_aggregate (n m : Fin 8192) (k : Fin 512) : ridx_main_v10 (ix2 n k) m = ix2 m k :=
  funext fun a => match a with | ⟨0, _⟩ => rfl | ⟨1, _⟩ => rfl

section stages

variable (x0 x1 : (⟨S8192x512, .f32⟩ : BufTy).Contents (Elt Ideal)) (x2 : (⟨S512x512, .f32⟩ : BufTy).Contents (Elt Ideal))

/-- The first linear map. -/
theorem linear_left (n : Fin 8192) (o : Fin 512) :
    val_main_v0 (F := Ideal) x0 x2 (ix2 n o) = proj (mat2 x0) (mat2 x2) n o := by
  rw [val_main_v0_apply]
  exact Finset.sum_congr rfl fun k _ => by rw [left_of_linear, right_of_linear]; rfl

/-- The second linear map. -/
theorem linear_right (m : Fin 8192) (o : Fin 512) :
    val_main_v1 (F := Ideal) x1 x2 (ix2 m o) = proj (mat2 x1) (mat2 x2) m o := by
  rw [val_main_v1_apply]
  exact Finset.sum_congr rfl fun k _ => by rw [left_of_linear', right_of_linear']; rfl

/-- The interaction before rectification: Σ_o hi[n, o] · hj[m, o]. -/
theorem interaction (n m : Fin 8192) :
    val_main_v3 (F := Ideal) x0 x1 x2 (ix2 n m)
      = ∑ o : Fin 512, proj (mat2 x0) (mat2 x2) n o * proj (mat2 x1) (mat2 x2) m o := by
  rw [val_main_v3_apply]
  exact Finset.sum_congr rfl fun o _ => by
    rw [val_main_v2_apply, left_of_interaction, right_of_interaction, linear_left, linear_right]

/-- The rectified interaction. -/
theorem rectified (n m : Fin 8192) :
    val_main_v4 (F := Ideal) x0 x1 x2 (ix2 n m) = score (proj (mat2 x0) (mat2 x2)) (proj (mat2 x1) (mat2 x2)) n m := by
  rw [val_main_v4_apply, val_main_call0_v0_apply, val_main_call0_cst_apply, interaction, Ideal.maximumf_def,
    Ideal.ofBits_def, Ideal.ofBits_zero_f32]
  rfl

/-- The sum of the squares of all rectified entries. -/
theorem sum_of_squares (i : S_.Idx) :
    val_main_v6 (F := Ideal) x0 x1 x2 i = sumSq (proj (mat2 x0) (mat2 x2)) (proj (mat2 x1) (mat2 x2)) := by
  rw [val_main_v6_apply, val_main_cst_apply, Ideal.ofBits_def, Ideal.ofBits_zero_f32, zero_add, sum_idx2]
  exact Finset.sum_congr rfl fun n _ => Finset.sum_congr rfl fun m _ => by
    rw [val_main_v5_apply, rectified, Ideal.mulf_def]

/-- Each rectified entry divided by the square root of the sum of squares. -/
theorem divided (n m : Fin 8192) :
    val_main_v9 (F := Ideal) x0 x1 x2 (ix2 n m)
      = Ideal.div (score (proj (mat2 x0) (mat2 x2)) (proj (mat2 x1) (mat2 x2)) n m)
          (Ideal.sqrt (sumSq (proj (mat2 x0) (mat2 x2)) (proj (mat2 x1) (mat2 x2)))) := by
  rw [val_main_v9_apply, val_main_v8_apply, val_main_v7_apply, rectified, sum_of_squares, Ideal.hostDivf_def,
    Ideal.hostUnary_sqrt_def]

/-- The aggregate of the divided entries against the second feature matrix. -/
theorem aggregated (n : Fin 8192) (k : Fin 512) :
    val_main_v10 (F := Ideal) x0 x1 x2 (ix2 n k) = refOut (mat2 x0) (mat2 x1) (mat2 x2) n k := by
  rw [val_main_v10_apply]
  exact Finset.sum_congr rfl fun m _ => by rw [left_of_aggregate, right_of_aggregate, divided]; rfl

end stages

/-- The reference's last stage, as a function of its three arguments, is `refOut` of them read as matrices. -/
theorem result_eq (x0 x1 : (⟨S8192x512, .f32⟩ : BufTy).Contents (Elt Ideal)) (x2 : (⟨S512x512, .f32⟩ : BufTy).Contents (Elt Ideal)) :
    Cert.ReferenceIdeal.Read.val_main_v10 (F := Ideal) x0 x1 x2
      = Cert.Spec.arr2 (Cert.Spec.refOut (Cert.Spec.mat2 x0) (Cert.Spec.mat2 x1) (Cert.Spec.mat2 x2)) := by
  funext i
  obtain ⟨n, k, rfl⟩ : ∃ (n : Fin 8192) (k : Fin 512), i = ix2 n k := ⟨i 0, i 1, eq_ix2 i⟩
  rw [aggregated]
  rfl

end Cert.ReferenceIdeal.RefValue

end
-- ==== Proof.SpecLaw.lean ====
/-
  The law that joins the two programs.  With every input entry a real number, each entry of the two projections is
  a finite sum of products of reals, so the rectified interaction a[n, m], its aggregate Σ_m a[n, m] · fs[m, k] and
  the sum of squares s are reals, s ≥ 0.  When s > 0 the reciprocal square root is the real (√s)⁻¹ and division by
  √s is multiplication by it, so scaling the aggregate once equals aggregating the scaled entries: a real factor
  moves across a finite sum of reals.
-/
import proofs.«173617_j58308476010683_1_alg».proof.Proof.Spec
import Mathlib.Data.EReal.Operations
import Mathlib.Analysis.SpecialFunctions.Pow.Real

noncomputable section

namespace Cert.Spec

open Idealize.ShloMosaic

/-- The embedding of the reals carries a finite sum to the sum of the embedded terms. -/
theorem coe_finsum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The projection of a real matrix by a real weight is real: Σ_k x[n, k] · w[k, o] taken in ℝ. -/
theorem proj_coe (x : Fin 8192 → Fin 512 → ℝ) (w : Fin 512 → Fin 512 → ℝ) :
    proj (fun n k => (x n k : EReal)) (fun k o => (w k o : EReal))
      = fun n o => ((∑ k : Fin 512, x n k * w k o : ℝ) : EReal) := by
  funext n o
  simp only [proj, coe_finsum, EReal.coe_mul]

/-- The rectified interaction of two real matrices is real: max (Σ_o hi[n, o] · hj[m, o]) 0 taken in ℝ. -/
theorem score_coe (hi hj : Fin 8192 → Fin 512 → ℝ) (n m : Fin 8192) :
    score (fun n o => (hi n o : EReal)) (fun m o => (hj m o : EReal)) n m
      = ((max (∑ o : Fin 512, hi n o * hj m o) 0 : ℝ) : EReal) := by
  rw [EReal.coe_strictMono.monotone.map_max, coe_finsum]
  simp only [score, EReal.coe_mul, EReal.coe_zero]

/-- The sum of squares of the rectified interaction of two real matrices is real. -/
theorem sumSq_coe (hi hj : Fin 8192 → Fin 512 → ℝ) :
    sumSq (fun n o => (hi n o : EReal)) (fun m o => (hj m o : EReal))
      = ((∑ n : Fin 8192, ∑ m : Fin 8192,
            max (∑ o : Fin 512, hi n o * hj m o) 0 * max (∑ o : Fin 512, hi n o * hj m o) 0 : ℝ) : EReal) := by
  simp only [sumSq, score_coe, coe_finsum, EReal.coe_mul]

/-- For real matrices and a positive sum of squares s, (Σ_m a[n, m] · fs[m, k]) · s^(-1/2) equals
    Σ_m (a[n, m] / √s) · fs[m, k]: both are the real Σ_m a[n, m] · fs[m, k] · (√s)⁻¹. -/
theorem scale_agg (hi hj fs : Fin 8192 → Fin 512 → ℝ)
    (hpos : 0 < sumSq (fun n o => (hi n o : EReal)) (fun m o => (hj m o : EReal))) (n : Fin 8192) (k : Fin 512) :
    agg (fun n o => (hi n o : EReal)) (fun m o => (hj m o : EReal)) (fun m k => (fs m k : EReal)) n k
        * Ideal.rsqrt (sumSq (fun n o => (hi n o : EReal)) (fun m o => (hj m o : EReal)))
      = ∑ m : Fin 8192, Ideal.div (score (fun n o => (hi n o : EReal)) (fun m o => (hj m o : EReal)) n m)
          (Ideal.sqrt (sumSq (fun n o => (hi n o : EReal)) (fun m o => (hj m o : EReal)))) * (fs m k : EReal) := by
  rw [sumSq_coe] at hpos ⊢
  generalize (∑ n : Fin 8192, ∑ m : Fin 8192,
    max (∑ o : Fin 512, hi n o * hj m o) 0 * max (∑ o : Fin 512, hi n o * hj m o) 0 : ℝ) = s at hpos ⊢
  have hs : 0 < s := EReal.coe_pos.1 hpos
  rw [Ideal.rsqrt_coe, if_neg (not_lt.2 hs.le), if_neg hs.ne', Ideal.sqrt_coe, if_neg (not_lt.2 hs.le)]
  simp only [agg, score_coe, Ideal.div_coe (Real.sqrt_ne_zero'.2 hs), ← EReal.coe_mul, ← coe_finsum]
  rw [Finset.sum_mul]
  refine congrArg _ (Finset.sum_congr rfl fun m _ => ?_)
  rw [one_div]; ring

/-- Scaling the aggregate by (sumSq)^(-1/2) once is aggregating the entries divided by √sumSq, for real inputs and
    a positive sum of squares. -/
theorem kerOut_eq_refOut (fp fs : Fin 8192 → Fin 512 → EReal) (w : Fin 512 → Fin 512 → EReal)
    (hfp : ∀ n k, ∃ r : ℝ, fp n k = (r : EReal)) (hfs : ∀ n k, ∃ r : ℝ, fs n k = (r : EReal))
    (hw : ∀ k o, ∃ r : ℝ, w k o = (r : EReal))
    (hpos : 0 < sumSq (proj fp w) (proj fs w)) :
    kerOut fp fs w = refOut fp fs w := by
  choose fpr hfpr using hfp
  choose fsr hfsr using hfs
  choose wr hwr using hw
  obtain rfl : fp = fun n k => (fpr n k : EReal) := funext fun n => funext fun k => hfpr n k
  obtain rfl : fs = fun n k => (fsr n k : EReal) := funext fun n => funext fun k => hfsr n k
  obtain rfl : w = fun k o => (wr k o : EReal) := funext fun k => funext fun o => hwr k o
  funext n k
  rw [proj_coe, proj_coe] at hpos
  simp only [kerOut, refOut, proj_coe]
  exact scale_agg _ _ fsr hpos n k

end Cert.Spec

end
-- ==== Proof.PreDecode.lean ====
/-
  What the precondition says at the exact instance: every entry of the three inputs is a real number, and the sum
  of the squares of the rectified interaction of the two projections — the square of the norm the reference divides
  by — is positive.
-/
import proofs.«173617_j58308476010683_1_alg».proof.Pre_finite_inputs
import proofs.«173617_j58308476010683_1_alg».proof.Proof.Spec
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Ideal.Laws

set_option maxRecDepth 16384

noncomputable section

namespace Cert.PreDecode

open Idealize.ShloMosaic Cert.Spec Cert.Pre_finite_inputs Cert.Pre_finite_inputs.Facts

variable [hP : Cert.Pre_finite_inputs.Facts]

/-! ## Every entry is a real number -/

/-- The scalar shape has one index. -/
instance : Subsingleton S_.Idx := ⟨fun a b => funext fun d => d.elim0⟩

/-- The pattern the entries' absolute values are compared with is +∞. -/
theorem posInf_eq_top : Ideal.ofBits .f32 0x7F800000#32 = (⊤ : EReal) := by
  simp [Ideal.ofBits, Ideal.ieee]

/-- An extended real whose absolute value max x (-x) is below +∞ is neither infinity: it is a real. -/
theorem real_of_abs_lt_top (x : EReal) (h : max x (-x) < ⊤) : ∃ r : ℝ, x = (r : EReal) := by
  induction x using EReal.rec with
  | bot => simp at h
  | top => simp at h
  | coe r => exact ⟨r, rfl⟩

/-- "All |x| < +∞", true, says that every entry of x is a real. -/
theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ValueIdx.ix0 = 1#1) (i : s.Idx) : ∃ r : ℝ, x i = (r : EReal) := by
  have hi := Host.reduce_andi_all _ _ hr h0 ValueIdx.ix0 e i
  have hi' : Ideal.cmp .olt (max (x i) (-(x i))) (Ideal.ofBits .f32 0x7F800000#32) = 1#1 := hi
  rw [posInf_eq_top] at hi'
  simp only [Ideal.cmp, StableHlo.Predicate.ofBool_eq_one_iff, decide_eq_true_eq] at hi'
  exact real_of_abs_lt_top _ hi'

/-! ## The sum of squares, stage by stage -/

/- The linear map's contraction: output (n, o) pairs row n of the left operand with column o of the right. -/
theorem projDot_lhs0 (i : S8192x512.Idx) (q : dot_S8192x512_S512x512_S8192x512_1_0_0_1_n_n.contr.Idx) :
    (dot_S8192x512_S512x512_S8192x512_1_0_0_1_n_n.lhsIdx i q 0).val = (i 0).val := by
  unfold DotDims.lhsIdx
  rw [dif_neg (show ¬(0 : Fin S8192x512.rank) ∈ dot_S8192x512_S512x512_S8192x512_1_0_0_1_n_n.lhsBatch from List.not_mem_nil),
    dif_pos (show (0 : Fin S8192x512.rank) ∈ dot_S8192x512_S512x512_S8192x512_1_0_0_1_n_n.lhsNonContracting from List.mem_singleton.2 rfl)]
  rfl
theorem projDot_lhs1 (i : S8192x512.Idx) (q : dot_S8192x512_S512x512_S8192x512_1_0_0_1_n_n.contr.Idx) :
    (dot_S8192x512_S512x512_S8192x512_1_0_0_1_n_n.lhsIdx i q 1).val = (q ⟨0, Nat.one_pos⟩).val :=
  dot_S8192x512_S512x512_S8192x512_1_0_0_1_n_n.lhsIdx_val_of_single rfl i q
theorem projDot_rhs0 (i : S8192x512.Idx) (q : dot_S8192x512_S512x512_S8192x512_1_0_0_1_n_n.contr.Idx) :
    (dot_S8192x512_S512x512_S8192x512_1_0_0_1_n_n.rhsIdx i q 0).val = (q ⟨0, Nat.one_pos⟩).val :=
  dot_S8192x512_S512x512_S8192x512_1_0_0_1_n_n.rhsIdx_val_of_single rfl i q
theorem projDot_rhs1 (i : S8192x512.Idx) (q : dot_S8192x512_S512x512_S8192x512_1_0_0_1_n_n.contr.Idx) :
    (dot_S8192x512_S512x512_S8192x512_1_0_0_1_n_n.rhsIdx i q 1).val = (i 1).val := by
  unfold DotDims.rhsIdx
  rw [dif_neg (show ¬(1 : Fin S512x512.rank) ∈ dot_S8192x512_S512x512_S8192x512_1_0_0_1_n_n.rhsBatch from List.not_mem_nil),
    dif_pos (show (1 : Fin S512x512.rank) ∈ dot_S8192x512_S512x512_S8192x512_1_0_0_1_n_n.rhsNonContracting from List.mem_singleton.2 rfl)]
  rfl

/-- The first two products are the linear map: entry (n, o) of x · w is Σ_k x[n, k] · w[k, o]. -/
theorem proj_read (x : FVec Ideal S8192x512 .f32) (w : FVec Ideal S512x512 .f32) (n : Fin 8192) (o : Fin 512) :
    Host.dotGeneral dot_S8192x512_S512x512_S8192x512_1_0_0_1_n_n none x w (ValueIdx.ix2 n o) = proj (mat2 x) (mat2 w) n o := by
  refine (Ideal.dotGeneral_apply dot_S8192x512_S512x512_S8192x512_1_0_0_1_n_n none .single x w (ValueIdx.ix2 n o)).trans ?_
  rw [← Equiv.sum_comp (ValueIdx.contrEquiv1 dot_S8192x512_S512x512_S8192x512_1_0_0_1_n_n 512 rfl rfl).symm]
  unfold proj
  refine Finset.sum_congr rfl fun k _ => ?_
  have hk := ValueIdx.contrEquiv1_symm_val dot_S8192x512_S512x512_S8192x512_1_0_0_1_n_n 512 rfl rfl k
  have el : dot_S8192x512_S512x512_S8192x512_1_0_0_1_n_n.lhsIdx (ValueIdx.ix2 n o)
      ((ValueIdx.contrEquiv1 dot_S8192x512_S512x512_S8192x512_1_0_0_1_n_n 512 rfl rfl).symm k) = ValueIdx.ix2 n k :=
    funext fun a => Fin.ext (by
      match a with
      | ⟨0, _⟩ => exact projDot_lhs0 _ _
      | ⟨1, _⟩ => exact (projDot_lhs1 _ _).trans hk)
  have er : dot_S8192x512_S512x512_S8192x512_1_0_0_1_n_n.rhsIdx (ValueIdx.ix2 n o)
      ((ValueIdx.contrEquiv1 dot_S8192x512_S512x512_S8192x512_1_0_0_1_n_n 512 rfl rfl).symm k) = ValueIdx.ix2 k o :=
    funext fun a => Fin.ext (by
      match a with
      | ⟨0, _⟩ => exact (projDot_rhs0 _ _).trans hk
      | ⟨1, _⟩ => exact projDot_rhs1 _ _)
  rw [el, er]
  rfl

/- The interaction's contraction: output (n, m) pairs row n of the left operand with column m of the right. -/
theorem gramDot_lhs0 (i : S8192x8192.Idx) (q : dot_S8192x512_S512x8192_S8192x8192_1_0_0_1_n_n.contr.Idx) :
    (dot_S8192x512_S512x8192_S8192x8192_1_0_0_1_n_n.lhsIdx i q 0).val = (i 0).val := by
  unfold DotDims.lhsIdx
  rw [dif_neg (show ¬(0 : Fin S8192x512.rank) ∈ dot_S8192x512_S512x8192_S8192x8192_1_0_0_1_n_n.lhsBatch from List.not_mem_nil),
    dif_pos (show (0 : Fin S8192x512.rank) ∈ dot_S8192x512_S512x8192_S8192x8192_1_0_0_1_n_n.lhsNonContracting from List.mem_singleton.2 rfl)]
  rfl
theorem gramDot_lhs1 (i : S8192x8192.Idx) (q : dot_S8192x512_S512x8192_S8192x8192_1_0_0_1_n_n.contr.Idx) :
    (dot_S8192x512_S512x8192_S8192x8192_1_0_0_1_n_n.lhsIdx i q 1).val = (q ⟨0, Nat.one_pos⟩).val :=
  dot_S8192x512_S512x8192_S8192x8192_1_0_0_1_n_n.lhsIdx_val_of_single rfl i q
theorem gramDot_rhs0 (i : S8192x8192.Idx) (q : dot_S8192x512_S512x8192_S8192x8192_1_0_0_1_n_n.contr.Idx) :
    (dot_S8192x512_S512x8192_S8192x8192_1_0_0_1_n_n.rhsIdx i q 0).val = (q ⟨0, Nat.one_pos⟩).val :=
  dot_S8192x512_S512x8192_S8192x8192_1_0_0_1_n_n.rhsIdx_val_of_single rfl i q
theorem gramDot_rhs1 (i : S8192x8192.Idx) (q : dot_S8192x512_S512x8192_S8192x8192_1_0_0_1_n_n.contr.Idx) :
    (dot_S8192x512_S512x8192_S8192x8192_1_0_0_1_n_n.rhsIdx i q 1).val = (i 1).val := by
  unfold DotDims.rhsIdx
  rw [dif_neg (show ¬(1 : Fin S512x8192.rank) ∈ dot_S8192x512_S512x8192_S8192x8192_1_0_0_1_n_n.rhsBatch from List.not_mem_nil),
    dif_pos (show (1 : Fin S512x8192.rank) ∈ dot_S8192x512_S512x8192_S8192x8192_1_0_0_1_n_n.rhsNonContracting from List.mem_singleton.2 rfl)]
  rfl

/-- The transposed second projection read at (o, m) is the projection at (m, o). -/
theorem transpose_read (hj : FVec Ideal S8192x512 .f32) (o : Fin 512) (m : Fin 8192) :
    transpose S512x8192 [1, 0] hj transposes_S8192x512_S512x8192_1_0 (ValueIdx.ix2 o m) = hj (ValueIdx.ix2 m o) :=
  transpose_apply [1, 0] hj transposes_S8192x512_S512x8192_1_0 (ValueIdx.ix2 o m) (ValueIdx.ix2 m o) (fun b => match b with
    | ⟨0, _⟩ => rfl
    | ⟨1, _⟩ => rfl)

/-- The third product, of the first projection with the transposed second: entry (n, m) is Σ_o hi[n, o] · hj[m, o]. -/
theorem gram_read (hi hj : FVec Ideal S8192x512 .f32) (n m : Fin 8192) :
    Host.dotGeneral dot_S8192x512_S512x8192_S8192x8192_1_0_0_1_n_n none hi
        (transpose S512x8192 [1, 0] hj transposes_S8192x512_S512x8192_1_0) (ValueIdx.ix2 n m)
      = ∑ o : Fin 512, hi (ValueIdx.ix2 n o) * hj (ValueIdx.ix2 m o) := by
  refine (Ideal.dotGeneral_apply dot_S8192x512_S512x8192_S8192x8192_1_0_0_1_n_n none .single hi _ (ValueIdx.ix2 n m)).trans ?_
  rw [← Equiv.sum_comp (ValueIdx.contrEquiv1 dot_S8192x512_S512x8192_S8192x8192_1_0_0_1_n_n 512 rfl rfl).symm]
  refine Finset.sum_congr rfl fun o _ => ?_
  have hk := ValueIdx.contrEquiv1_symm_val dot_S8192x512_S512x8192_S8192x8192_1_0_0_1_n_n 512 rfl rfl o
  have el : dot_S8192x512_S512x8192_S8192x8192_1_0_0_1_n_n.lhsIdx (ValueIdx.ix2 n m)
      ((ValueIdx.contrEquiv1 dot_S8192x512_S512x8192_S8192x8192_1_0_0_1_n_n 512 rfl rfl).symm o) = ValueIdx.ix2 n o :=
    funext fun a => Fin.ext (by
      match a with
      | ⟨0, _⟩ => exact gramDot_lhs0 _ _
      | ⟨1, _⟩ => exact (gramDot_lhs1 _ _).trans hk)
  have er : dot_S8192x512_S512x8192_S8192x8192_1_0_0_1_n_n.rhsIdx (ValueIdx.ix2 n m)
      ((ValueIdx.contrEquiv1 dot_S8192x512_S512x8192_S8192x8192_1_0_0_1_n_n 512 rfl rfl).symm o) = ValueIdx.ix2 o m :=
    funext fun a => Fin.ext (by
      match a with
      | ⟨0, _⟩ => exact (gramDot_rhs0 _ _).trans hk
      | ⟨1, _⟩ => exact gramDot_rhs1 _ _)
  rw [el, er, transpose_read]

/-- Rectified and multiplied by itself, entry by entry: max g 0 · max g 0. -/
theorem sq_read (g : FVec Ideal S8192x8192 .f32) (n m : Fin 8192) :
    mulf (maximumf g (broadcastInDim S8192x8192 ![] bcast_S_S8192x8192 (constant S_ .f32 0x00000000#32)))
        (maximumf g (broadcastInDim S8192x8192 ![] bcast_S_S8192x8192 (constant S_ .f32 0x00000000#32))) (ValueIdx.ix2 n m)
      = max (g (ValueIdx.ix2 n m)) 0 * max (g (ValueIdx.ix2 n m)) 0 := by
  show max (g (ValueIdx.ix2 n m)) (Ideal.ofBits .f32 0x00000000#32) * max (g (ValueIdx.ix2 n m)) (Ideal.ofBits .f32 0x00000000#32) = _
  rw [Ideal.ofBits_zero_f32]

/-- The float sum over both axes, from zero, is the double sum over rows and columns. -/
theorem total_read (y : FVec Ideal S8192x8192 .f32) :
    Host.reduceAdd (F := Ideal) y (constant S_ .f32 0x00000000#32) reducesTo_S8192x8192_S_d0_1 h_S_ ValueIdx.ix0
      = ∑ n : Fin 8192, ∑ m : Fin 8192, y (ValueIdx.ix2 n m) := by
  show Ideal.hostReduceAdd reducesTo_S8192x8192_S_d0_1 y (Ideal.ofBits .f32 0x00000000#32) ValueIdx.ix0 = _
  rw [Ideal.hostReduceAdd_total reducesTo_S8192x8192_S_d0_1 (fun b => b.elim0) y _ ValueIdx.ix0, Ideal.ofBits_zero_f32, zero_add,
    ValueIdx.sum_idx2]

/-- The summed term of the fourth conjunct is the sum of the squares of the rectified interaction of the two projections. -/
theorem sumSq_read (x0 x1 : FVec Ideal S8192x512 .f32) (x2 : FVec Ideal S512x512 .f32) :
    Host.reduceAdd (F := Ideal)
        (mulf
          (maximumf
            (Host.dotGeneral dot_S8192x512_S512x8192_S8192x8192_1_0_0_1_n_n none
              (Host.dotGeneral dot_S8192x512_S512x512_S8192x512_1_0_0_1_n_n none x0 x2)
              (transpose S512x8192 [1, 0] (Host.dotGeneral dot_S8192x512_S512x512_S8192x512_1_0_0_1_n_n none x1 x2)
                transposes_S8192x512_S512x8192_1_0))
            (broadcastInDim S8192x8192 ![] bcast_S_S8192x8192 (constant S_ .f32 0x00000000#32)))
          (maximumf
            (Host.dotGeneral dot_S8192x512_S512x8192_S8192x8192_1_0_0_1_n_n none
              (Host.dotGeneral dot_S8192x512_S512x512_S8192x512_1_0_0_1_n_n none x0 x2)
              (transpose S512x8192 [1, 0] (Host.dotGeneral dot_S8192x512_S512x512_S8192x512_1_0_0_1_n_n none x1 x2)
                transposes_S8192x512_S512x8192_1_0))
            (broadcastInDim S8192x8192 ![] bcast_S_S8192x8192 (constant S_ .f32 0x00000000#32))))
        (constant S_ .f32 0x00000000#32) reducesTo_S8192x8192_S_d0_1 h_S_ ValueIdx.ix0
      = sumSq (proj (mat2 x0) (mat2 x2)) (proj (mat2 x1) (mat2 x2)) := by
  refine (total_read _).trans ?_
  unfold sumSq score
  refine Finset.sum_congr rfl fun n _ => Finset.sum_congr rfl fun m _ => ?_
  refine (sq_read _ n m).trans ?_
  rw [gram_read]
  simp only [proj_read]

/-- A scalar that compares greater than the zero constant is positive. -/
theorem pos_of_gt_zero (t : FVec Ideal S_ .f32) (e : cmpf .ogt t (constant S_ .f32 0x00000000#32) ValueIdx.ix0 = 1#1) :
    0 < t ValueIdx.ix0 := by
  have e' : Ideal.cmp .ogt (t ValueIdx.ix0) (Ideal.ofBits .f32 0x00000000#32) = 1#1 := e
  rw [Ideal.ofBits_zero_f32] at e'
  simpa only [Ideal.cmp, StableHlo.Predicate.ofBool_eq_one_iff, decide_eq_true_eq] using e'

/-! ## The precondition decoded -/

/-- The precondition, all ones, gives real entries and a positive sum of squares. -/
theorem of_pre (x0 x1 : FVec Ideal Cert.Pre_finite_inputs.S8192x512 .f32) (x2 : FVec Ideal Cert.Pre_finite_inputs.S512x512 .f32)
    (h : Cert.Pre_finite_inputs.fn (F := Ideal) x0 x1 x2 = fun _ => 1#1) :
    (∀ n k, ∃ r : ℝ, mat2 x0 n k = (r : EReal)) ∧ (∀ n k, ∃ r : ℝ, mat2 x1 n k = (r : EReal))
      ∧ (∀ k o, ∃ r : ℝ, mat2 x2 k o = (r : EReal))
      ∧ 0 < sumSq (proj (mat2 x0) (mat2 x2)) (proj (mat2 x1) (mat2 x2)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun n k => real_of_all x0 _ _ _ h1 (ValueIdx.ix2 n k), fun n k => real_of_all x1 _ _ _ h2 (ValueIdx.ix2 n k),
    fun k o => real_of_all x2 _ _ _ h3 (ValueIdx.ix2 k o), ?_⟩
  have h4' := pos_of_gt_zero _ h4
  rw [sumSq_read] at h4'
  exact h4'

end Cert.PreDecode

end
-- ==== Proof.lean ====
/-
  The certificate's claim.  The kernel computes, in three regions and four closing host operations,

      c[n, k] = (Σ_m a[n, m] · fs[m, k]) · (Σ_{n, m} a[n, m]²)^(-1/2),   a[n, m] = max (Σ_o (fp · w)[n, o] · (fs · w)[m, o]) 0,

  and the reference computes Σ_m (a[n, m] / √(Σ a²)) · fs[m, k].  Under the precondition — every input entry a real
  number, and Σ a² positive, the square of the norm the reference divides by — the two are equal: a real factor moves
  across a finite sum of reals (Proof/SpecLaw.lean).

  * The frames of the two kernel programs: the run of the four items (Proof/KI/Run.lean for the idealized program,
    the same text under Proof/K for the word-level one) ends with every buffer at the fold of the items' effects, and
    no item writes an argument.  The reference's frame is its run with the result dropped.
  * The idealization rewrote nothing, so there is nothing to preserve.
  * The value: the kernel's result buffer at the end is `kerOut` of the launch arguments (Proof/TailValue.lean over the
    regions' values), the reference's is `refOut` of them (Proof/RefValue.lean); the precondition read at the exact
    instance gives real entries and a positive sum of squares (Proof/PreDecode.lean).
-/
import proofs.«173617_j58308476010683_1_alg».proof.Defs
import proofs.«173617_j58308476010683_1_alg».proof.Proof.Gen.Kernel
import proofs.«173617_j58308476010683_1_alg».proof.Proof.Gen.KernelIdeal
import proofs.«173617_j58308476010683_1_alg».proof.Proof.Gen.ReferenceIdeal
import proofs.«173617_j58308476010683_1_alg».proof.Proof.Gen.Pre_finite_inputs
import proofs.«173617_j58308476010683_1_alg».proof.Proof.Gen.ReferenceIdeal.Run
import proofs.«173617_j58308476010683_1_alg».proof.Proof.Gen.ReferenceIdeal.Read
import proofs.«173617_j58308476010683_1_alg».proof.Proof.K.Run
import proofs.«173617_j58308476010683_1_alg».proof.Proof.KI.Run
import proofs.«173617_j58308476010683_1_alg».proof.Proof.TailValue
import proofs.«173617_j58308476010683_1_alg».proof.Proof.RefValue
import proofs.«173617_j58308476010683_1_alg».proof.Proof.SpecLaw
import proofs.«173617_j58308476010683_1_alg».proof.Proof.PreDecode
import Idealize.ShloMosaic.Adequacy
import Idealize.ShloMosaic.Init

noncomputable section

namespace Cert.Proof

open Idealize.ShloMosaic Idealize.ShloMosaic.TcCoe Idealize.SL.Sem Cert.Spec

/-- The word-level program runs to the end and leaves its three arguments as launched. -/
theorem frame_word : Cert.frame_Kernel := fun m ρ _ =>
  (θ_run Cert.Kernel.defs _ _).mono (fun r h c =>
      ⟨(h c _ (Cert.Kernel.Hand.mem_unscoped Cert.Kernel.main_arg0 (by decide))).trans (Cert.Kernel.Hand.atEnd_main_arg0 m c),
        (h c _ (Cert.Kernel.Hand.mem_unscoped Cert.Kernel.main_arg1 (by decide))).trans (Cert.Kernel.Hand.atEnd_main_arg1 m c),
        (h c _ (Cert.Kernel.Hand.mem_unscoped Cert.Kernel.main_arg2 (by decide))).trans (Cert.Kernel.Hand.atEnd_main_arg2 m c)⟩)
    (Cert.Kernel.Hand.run_all (F := Bits) m ρ)

/-- The idealized program runs to the end and leaves its three arguments as launched. -/
theorem frame_ideal : Cert.frame_KernelIdeal := fun m ρ _ =>
  (θ_run Cert.KernelIdeal.defs _ _).mono (fun r h c =>
      ⟨(h c _ (Cert.KernelIdeal.Hand.mem_unscoped Cert.KernelIdeal.main_arg0 (by decide))).trans (Cert.KernelIdeal.Hand.atEnd_main_arg0 m c),
        (h c _ (Cert.KernelIdeal.Hand.mem_unscoped Cert.KernelIdeal.main_arg1 (by decide))).trans (Cert.KernelIdeal.Hand.atEnd_main_arg1 m c),
        (h c _ (Cert.KernelIdeal.Hand.mem_unscoped Cert.KernelIdeal.main_arg2 (by decide))).trans (Cert.KernelIdeal.Hand.atEnd_main_arg2 m c)⟩)
    (Cert.KernelIdeal.Hand.run_all (F := Ideal) m ρ)

/-- The reference runs to the end and leaves its three arguments as launched: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with `kerOut` of the arguments in their result
    buffers: the kernel by its regions' values and the closing host operations, the reference because `refOut` equals
    `kerOut` on real inputs with a positive sum of squares. -/
theorem algebraic : Cert.algebraic_KernelIdeal_ReferenceIdeal := by
  intro m ρ m' ρ' hpre hagree
  refine ⟨fun c => arr2 (kerOut (mat2 (m ((c : Thread Cert.KernelIdeal.nD Cert.KernelIdeal.τ).loc Cert.KernelIdeal.main_arg0)))
      (mat2 (m ((c : Thread Cert.KernelIdeal.nD Cert.KernelIdeal.τ).loc Cert.KernelIdeal.main_arg1)))
      (mat2 (m ((c : Thread Cert.KernelIdeal.nD Cert.KernelIdeal.τ).loc Cert.KernelIdeal.main_arg2)))), ?_, ?_⟩
  · exact (θ_run Cert.KernelIdeal.defs _ _).mono (fun r h c =>
      ⟨(h c _ (Cert.KernelIdeal.Hand.mem_unscoped Cert.KernelIdeal.main_v6 (by decide))).trans (Cert.KernelIdeal.Values.result_value m c),
        (h c _ (Cert.KernelIdeal.Hand.mem_unscoped Cert.KernelIdeal.main_arg0 (by decide))).trans (Cert.KernelIdeal.Hand.atEnd_main_arg0 m c),
        (h c _ (Cert.KernelIdeal.Hand.mem_unscoped Cert.KernelIdeal.main_arg1 (by decide))).trans (Cert.KernelIdeal.Hand.atEnd_main_arg1 m c),
        (h c _ (Cert.KernelIdeal.Hand.mem_unscoped Cert.KernelIdeal.main_arg2 (by decide))).trans (Cert.KernelIdeal.Hand.atEnd_main_arg2 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨hfp, hfs, hw, hpos⟩ := Cert.PreDecode.of_pre _ _ _ (hpre c)
    rw [Cert.ReferenceIdeal.Read.val_main_v10_eq, Cert.ReferenceIdeal.RefValue.result_eq, (hagree c).1, (hagree c).2.1, (hagree c).2.2]
    exact congrArg arr2 (kerOut_eq_refOut _ _ _ hfp hfs hw hpos).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
